-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3072 : Shape := ⟨2, ![8, 3072]⟩
abbrev S8 : Shape := ⟨1, ![8]⟩
abbrev S_ : Shape := ⟨0, ![]⟩

class Facts : Prop where
  bcast_S_S8x3072 : S_.BroadcastsInDim S8x3072 (![] : Fin 0 → Fin S8x3072.rank)
  reducesTo_S8x3072_S_d0_1 : S8x3072.ReducesTo [0, 1] S_
  h_S_ : 0 < S_.numel

variable [Facts]

def fn {F : FTy → Type} [FloatOps F] (main_arg0 : FVec F S8x3072 .f32) (main_arg1 : IVec S8 32) : IVec S_ 1 :=
  let main_v0 : FVec F S8x3072 .f32 := Host.absf main_arg0
  let main_cst : FVec F S_ .f32 := constant S_ .f32 0x7F800000#32
  let main_v1 : FVec F S8x3072 .f32 := broadcastInDim S8x3072 ![] bcast_S_S8x3072 main_cst
  let main_v2 : IVec S8x3072 1 := cmpf .olt main_v0 main_v1
  let main_c : IVec S_ 1 := constantI S_ 1 1#1
  let main_v3 : IVec S_ 1 := (fun x v => Host.reduce IntOp.andi x v reducesTo_S8x3072_S_d0_1 h_S_) main_v2 main_c
  main_v3
-- ==== Kernel.lean ====
abbrev S8x3072 : Shape := ⟨2, ![8, 3072]⟩
abbrev S8 : Shape := ⟨1, ![8]⟩
abbrev S8x1024x3 : Shape := ⟨3, ![8, 1024, 3]⟩
abbrev S8x3x3x1024x1024 : Shape := ⟨5, ![8, 3, 3, 1024, 1024]⟩
abbrev S1x1024x3 : Shape := ⟨3, ![1, 1024, 3]⟩
abbrev S1x3x3x128x1024 : Shape := ⟨5, ![1, 3, 3, 128, 1024]⟩
abbrev S1 : Shape := ⟨1, ![1]⟩
abbrev S1x128x3 : Shape := ⟨3, ![1, 128, 3]⟩
abbrev S128x3 : Shape := ⟨2, ![128, 3]⟩
abbrev S128x1 : Shape := ⟨2, ![128, 1]⟩
abbrev S128x128 : Shape := ⟨2, ![128, 128]⟩
abbrev S1x128 : Shape := ⟨2, ![1, 128]⟩
abbrev S3x128 : Shape := ⟨2, ![3, 128]⟩
abbrev S128x3x1 : Shape := ⟨3, ![128, 3, 1]⟩
abbrev S1x3x128 : Shape := ⟨3, ![1, 3, 128]⟩
abbrev S128x3x128 : Shape := ⟨3, ![128, 3, 128]⟩
abbrev S128x1x128 : Shape := ⟨3, ![128, 1, 128]⟩
abbrev S128 : Shape := ⟨1, ![128]⟩
abbrev S1x1x1x128x128 : Shape := ⟨5, ![1, 1, 1, 128, 128]⟩
abbrev S8x1024x3x1024x3 : Shape := ⟨5, ![8, 1024, 3, 1024, 3]⟩
abbrev S8x3072x3072 : Shape := ⟨3, ![8, 3072, 3072]⟩

abbrev nBuf : Space → Nat
  | .hbm => 5
  | .vmem => 4
  | .smem => 1
  | _ => 0

abbrev bufTy : (tb : Table) → Fin (tcTables nBuf tb) → BufTy
  | .hbm, ⟨0, _⟩ => ⟨S8x3072, .f32⟩
  | .hbm, ⟨1, _⟩ => ⟨S8x1024x3, .f32⟩
  | .hbm, ⟨2, _⟩ => ⟨S8x3x3x1024x1024, .f32⟩
  | .hbm, ⟨3, _⟩ => ⟨S8x1024x3x1024x3, .f32⟩
  | .hbm, ⟨4, _⟩ => ⟨S8x3072x3072, .f32⟩
  | .local _ .vmem, ⟨0, _⟩ => ⟨S1x1024x3, .f32⟩
  | .local _ .vmem, ⟨1, _⟩ => ⟨S1x1024x3, .f32⟩
  | .local _ .vmem, ⟨2, _⟩ => ⟨S1x3x3x128x1024, .f32⟩
  | .local _ .vmem, ⟨3, _⟩ => ⟨S1x3x3x128x1024, .f32⟩
  | .local _ .smem, ⟨0, _⟩ => ⟨S8, .i32⟩
  | _, _ => ⟨S8x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 8], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (i : grid0.Coords) : BitVec 32 :=
  let arg1 : BitVec 32 := BitVec.ofNat 32 (i 1).val
  let c128_i32 : BitVec 32 := 128#32
  let v2 : BitVec 32 := Scalar.muli arg1 c128_i32
  v2
def k0_off2 (i : grid0.Coords) : Fin 3 → Nat :=
  let c0 : Index := 0#32
  let arg1 : BitVec 32 := BitVec.ofNat 32 (i 1).val
  let c128_i32 : BitVec 32 := 128#32
  let v2 : BitVec 32 := Scalar.muli arg1 c128_i32
  let v3 : BitVec 32 := v2
  let v4 : Index := Scalar.indexCast v3
  let c0_0 : Index := 0#32
  ![0, v4.toNat, 0]
@[reducible] def k0_t1_loop : Scf.Loop 32 :=
  let c0_i32 : BitVec 32 := 0#32
  let c8_i32 : BitVec 32 := 8#32
  let v29 : BitVec 32 := Scalar.addi c0_i32 c8_i32
  let c1_i32 : BitVec 32 := 1#32
  ⟨c0_i32, v29, c1_i32⟩
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32_91 : BitVec 32 := 128#32
  let v141 : BitVec 32 := Scalar.muli arg5 c128_i32_91
  v141
def k0_off3 (k0_t1 : Fin k0_t1_loop.trips) : Fin 3 → Nat :=
  let c0_92 : Index := 0#32
  let c0_i32 : BitVec 32 := 0#32
  let c1_i32 : BitVec 32 := 1#32
  let arg5 : BitVec 32 := Scf.iv c0_i32 c1_i32 k0_t1
  let c128_i32_91 : BitVec 32 := 128#32
  let v141 : BitVec 32 := Scalar.muli arg5 c128_i32_91
  let v142 : BitVec 32 := v141
  let v143 : Index := Scalar.indexCast v142
  let c0_93 : Index := 0#32
  ![0, v143.toNat, 0]
def k0_mult3 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32_97 : BitVec 32 := 128#32
  let v170 : BitVec 32 := Scalar.muli arg5 c128_i32_97
  v170
def k0_off4 (k0_t1 : Fin k0_t1_loop.trips) : Fin 5 → Nat :=
  let c0_100 : Index := 0#32
  let c0_101 : Index := 0#32
  let c0_102 : Index := 0#32
  let c0_103 : Index := 0#32
  let c0_i32 : BitVec 32 := 0#32
  let c1_i32 : BitVec 32 := 1#32
  let arg5 : BitVec 32 := Scf.iv c0_i32 c1_i32 k0_t1
  let c128_i32_97 : BitVec 32 := 128#32
  let v170 : BitVec 32 := Scalar.muli arg5 c128_i32_97
  let v171 : BitVec 32 := v170
  let v183 : Index := Scalar.indexCast v171
  ![0, 0, 0, 0, v183.toNat]
def k0_off5 (k0_t1 : Fin k0_t1_loop.trips) : Fin 5 → Nat :=
  let c0_106 : Index := 0#32
  let c0_107 : Index := 0#32
  let c1_108 : Index := 1#32
  let c0_109 : Index := 0#32
  let c0_i32 : BitVec 32 := 0#32
  let c1_i32 : BitVec 32 := 1#32
  let arg5 : BitVec 32 := Scf.iv c0_i32 c1_i32 k0_t1
  let c128_i32_97 : BitVec 32 := 128#32
  let v170 : BitVec 32 := Scalar.muli arg5 c128_i32_97
  let v171 : BitVec 32 := v170
  let v196 : Index := Scalar.indexCast v171
  ![0, 0, 1, 0, v196.toNat]
def k0_off6 (k0_t1 : Fin k0_t1_loop.trips) : Fin 5 → Nat :=
  let c0_112 : Index := 0#32
  let c0_113 : Index := 0#32
  let c2_114 : Index := 2#32
  let c0_115 : Index := 0#32
  let c0_i32 : BitVec 32 := 0#32
  let c1_i32 : BitVec 32 := 1#32
  let arg5 : BitVec 32 := Scf.iv c0_i32 c1_i32 k0_t1
  let c128_i32_97 : BitVec 32 := 128#32
  let v170 : BitVec 32 := Scalar.muli arg5 c128_i32_97
  let v171 : BitVec 32 := v170
  let v209 : Index := Scalar.indexCast v171
  ![0, 0, 2, 0, v209.toNat]
def k0_off7 (k0_t1 : Fin k0_t1_loop.trips) : Fin 5 → Nat :=
  let c0_118 : Index := 0#32
  let c1_119 : Index := 1#32
  let c0_120 : Index := 0#32
  let c0_121 : Index := 0#32
  let c0_i32 : BitVec 32 := 0#32
  let c1_i32 : BitVec 32 := 1#32
  let arg5 : BitVec 32 := Scf.iv c0_i32 c1_i32 k0_t1
  let c128_i32_97 : BitVec 32 := 128#32
  let v170 : BitVec 32 := Scalar.muli arg5 c128_i32_97
  let v171 : BitVec 32 := v170
  let v224 : Index := Scalar.indexCast v171
  ![0, 1, 0, 0, v224.toNat]
def k0_off8 (k0_t1 : Fin k0_t1_loop.trips) : Fin 5 → Nat :=
  let c0_124 : Index := 0#32
  let c1_125 : Index := 1#32
  let c1_126 : Index := 1#32
  let c0_127 : Index := 0#32
  let c0_i32 : BitVec 32 := 0#32
  let c1_i32 : BitVec 32 := 1#32
  let arg5 : BitVec 32 := Scf.iv c0_i32 c1_i32 k0_t1
  let c128_i32_97 : BitVec 32 := 128#32
  let v170 : BitVec 32 := Scalar.muli arg5 c128_i32_97
  let v171 : BitVec 32 := v170
  let v237 : Index := Scalar.indexCast v171
  ![0, 1, 1, 0, v237.toNat]
def k0_off9 (k0_t1 : Fin k0_t1_loop.trips) : Fin 5 → Nat :=
  let c0_130 : Index := 0#32
  let c1_131 : Index := 1#32
  let c2_132 : Index := 2#32
  let c0_133 : Index := 0#32
  let c0_i32 : BitVec 32 := 0#32
  let c1_i32 : BitVec 32 := 1#32
  let arg5 : BitVec 32 := Scf.iv c0_i32 c1_i32 k0_t1
  let c128_i32_97 : BitVec 32 := 128#32
  let v170 : BitVec 32 := Scalar.muli arg5 c128_i32_97
  let v171 : BitVec 32 := v170
  let v250 : Index := Scalar.indexCast v171
  ![0, 1, 2, 0, v250.toNat]
def k0_off10 (k0_t1 : Fin k0_t1_loop.trips) : Fin 5 → Nat :=
  let c0_136 : Index := 0#32
  let c2_137 : Index := 2#32
  let c0_138 : Index := 0#32
  let c0_139 : Index := 0#32
  let c0_i32 : BitVec 32 := 0#32
  let c1_i32 : BitVec 32 := 1#32
  let arg5 : BitVec 32 := Scf.iv c0_i32 c1_i32 k0_t1
  let c128_i32_97 : BitVec 32 := 128#32
  let v170 : BitVec 32 := Scalar.muli arg5 c128_i32_97
  let v171 : BitVec 32 := v170
  let v265 : Index := Scalar.indexCast v171
  ![0, 2, 0, 0, v265.toNat]
def k0_off11 (k0_t1 : Fin k0_t1_loop.trips) : Fin 5 → Nat :=
  let c0_142 : Index := 0#32
  let c2_143 : Index := 2#32
  let c1_144 : Index := 1#32
  let c0_145 : Index := 0#32
  let c0_i32 : BitVec 32 := 0#32
  let c1_i32 : BitVec 32 := 1#32
  let arg5 : BitVec 32 := Scf.iv c0_i32 c1_i32 k0_t1
  let c128_i32_97 : BitVec 32 := 128#32
  let v170 : BitVec 32 := Scalar.muli arg5 c128_i32_97
  let v171 : BitVec 32 := v170
  let v278 : Index := Scalar.indexCast v171
  ![0, 2, 1, 0, v278.toNat]
def k0_off12 (k0_t1 : Fin k0_t1_loop.trips) : Fin 5 → Nat :=
  let c0_148 : Index := 0#32
  let c2_149 : Index := 2#32
  let c2_150 : Index := 2#32
  let c0_151 : Index := 0#32
  let c0_i32 : BitVec 32 := 0#32
  let c1_i32 : BitVec 32 := 1#32
  let arg5 : BitVec 32 := Scf.iv c0_i32 c1_i32 k0_t1
  let c128_i32_97 : BitVec 32 := 128#32
  let v170 : BitVec 32 := Scalar.muli arg5 c128_i32_97
  let v171 : BitVec 32 := v170
  let v291 : Index := Scalar.indexCast v171
  ![0, 2, 2, 0, v291.toNat]
def k0_mult4 (i : grid0.Coords) : BitVec 32 :=
  let arg1 : BitVec 32 := BitVec.ofNat 32 (i 1).val
  let c128_i32_11 : BitVec 32 := 128#32
  let v31 : BitVec 32 := Scalar.muli arg1 c128_i32_11
  v31
def k0_off13 (i : grid0.Coords) : Fin 5 → Nat :=
  let c0_13 : Index := 0#32
  let c0_14 : Index := 0#32
  let c0_15 : Index := 0#32
  let c0_16 : Index := 0#32
  let arg1 : BitVec 32 := BitVec.ofNat 32 (i 1).val
  let c128_i32_11 : BitVec 32 := 128#32
  let v31 : BitVec 32 := Scalar.muli arg1 c128_i32_11
  let v32 : BitVec 32 := v31
  let v37 : Index := Scalar.indexCast v32
  ![0, 0, 0, 0, v37.toNat]
def k0_off14 (i : grid0.Coords) : Fin 5 → Nat :=
  let c0_22 : Index := 0#32
  let c0_23 : Index := 0#32
  let c1 : Index := 1#32
  let c0_24 : Index := 0#32
  let arg1 : BitVec 32 := BitVec.ofNat 32 (i 1).val
  let c128_i32_11 : BitVec 32 := 128#32
  let v31 : BitVec 32 := Scalar.muli arg1 c128_i32_11
  let v32 : BitVec 32 := v31
  let v49 : Index := Scalar.indexCast v32
  ![0, 0, 1, 0, v49.toNat]
def k0_off15 (i : grid0.Coords) : Fin 5 → Nat :=
  let c0_30 : Index := 0#32
  let c0_31 : Index := 0#32
  let c2 : Index := 2#32
  let c0_32 : Index := 0#32
  let arg1 : BitVec 32 := BitVec.ofNat 32 (i 1).val
  let c128_i32_11 : BitVec 32 := 128#32
  let v31 : BitVec 32 := Scalar.muli arg1 c128_i32_11
  let v32 : BitVec 32 := v31
  let v61 : Index := Scalar.indexCast v32
  ![0, 0, 2, 0, v61.toNat]
def k0_off16 (i : grid0.Coords) : Fin 5 → Nat :=
  let c0_38 : Index := 0#32
  let c1_39 : Index := 1#32
  let c0_40 : Index := 0#32
  let c0_41 : Index := 0#32
  let arg1 : BitVec 32 := BitVec.ofNat 32 (i 1).val
  let c128_i32_11 : BitVec 32 := 128#32
  let v31 : BitVec 32 := Scalar.muli arg1 c128_i32_11
  let v32 : BitVec 32 := v31
  let v73 : Index := Scalar.indexCast v32
  ![0, 1, 0, 0, v73.toNat]
def k0_off17 (i : grid0.Coords) : Fin 5 → Nat :=
  let c0_47 : Index := 0#32
  let c1_48 : Index := 1#32
  let c1_49 : Index := 1#32
  let c0_50 : Index := 0#32
  let arg1 : BitVec 32 := BitVec.ofNat 32 (i 1).val
  let c128_i32_11 : BitVec 32 := 128#32
  let v31 : BitVec 32 := Scalar.muli arg1 c128_i32_11
  let v32 : BitVec 32 := v31
  let v85 : Index := Scalar.indexCast v32
  ![0, 1, 1, 0, v85.toNat]
def k0_off18 (i : grid0.Coords) : Fin 5 → Nat :=
  let c0_56 : Index := 0#32
  let c1_57 : Index := 1#32
  let c2_58 : Index := 2#32
  let c0_59 : Index := 0#32
  let arg1 : BitVec 32 := BitVec.ofNat 32 (i 1).val
  let c128_i32_11 : BitVec 32 := 128#32
  let v31 : BitVec 32 := Scalar.muli arg1 c128_i32_11
  let v32 : BitVec 32 := v31
  let v97 : Index := Scalar.indexCast v32
  ![0, 1, 2, 0, v97.toNat]
def k0_off19 (i : grid0.Coords) : Fin 5 → Nat :=
  let c0_65 : Index := 0#32
  let c2_66 : Index := 2#32
  let c0_67 : Index := 0#32
  let c0_68 : Index := 0#32
  let arg1 : BitVec 32 := BitVec.ofNat 32 (i 1).val
  let c128_i32_11 : BitVec 32 := 128#32
  let v31 : BitVec 32 := Scalar.muli arg1 c128_i32_11
  let v32 : BitVec 32 := v31
  let v109 : Index := Scalar.indexCast v32
  ![0, 2, 0, 0, v109.toNat]
def k0_off20 (i : grid0.Coords) : Fin 5 → Nat :=
  let c0_74 : Index := 0#32
  let c2_75 : Index := 2#32
  let c1_76 : Index := 1#32
  let c0_77 : Index := 0#32
  let arg1 : BitVec 32 := BitVec.ofNat 32 (i 1).val
  let c128_i32_11 : BitVec 32 := 128#32
  let v31 : BitVec 32 := Scalar.muli arg1 c128_i32_11
  let v32 : BitVec 32 := v31
  let v121 : Index := Scalar.indexCast v32
  ![0, 2, 1, 0, v121.toNat]
def k0_off21 (i : grid0.Coords) : Fin 5 → Nat :=
  let c0_83 : Index := 0#32
  let c2_84 : Index := 2#32
  let c2_85 : Index := 2#32
  let c0_86 : Index := 0#32
  let arg1 : BitVec 32 := BitVec.ofNat 32 (i 1).val
  let c128_i32_11 : BitVec 32 := 128#32
  let v31 : BitVec 32 := Scalar.muli arg1 c128_i32_11
  let v32 : BitVec 32 := v31
  let v133 : Index := Scalar.indexCast v32
  ![0, 2, 2, 0, v133.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x3x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S8x3072_S8x1024x3 : S8x3072.ShapeCasts S8x1024x3
  numel1_S1 : S1.numel = 1
  h_S1x128x3 : 0 < S1x128x3.numel
  shapeCasts_S1x128x3_S128x3 : S1x128x3.ShapeCasts S128x3
  iota_S128x1_d0_w32 : S128x1.Iotas .tc 32 [0]
  natLt_1_32 : 1 < 32
  iota_S128x128_d0_w32 : S128x128.Iotas .tc 32 [0]
  iota_S128x128_d1_w32 : S128x128.Iotas .tc 32 [1]
  iota_S1x128_d1_w32 : S1x128.Iotas .tc 32 [1]
  broadcasts_S128x1_S128x128 : S128x1.Broadcasts S128x128
  broadcasts_S1x128_S128x128 : S1x128.Broadcasts S128x128
  transposes_S128x3_p1_0_S3x128 : S128x3.Transposes [1, 0] S3x128
  shapeCasts_S128x3_S128x3x1 : S128x3.ShapeCasts S128x3x1
  shapeCasts_S3x128_S1x3x128 : S3x128.ShapeCasts S1x3x128
  broadcasts_S128x3x1_S128x3x128 : S128x3x1.Broadcasts S128x3x128
  broadcasts_S1x3x128_S128x3x128 : S1x3x128.Broadcasts S128x3x128
  shapeCasts_S128x128_S128x1x128 : S128x128.ShapeCasts S128x1x128
  broadcasts_S128x1x128_S128x3x128 : S128x1x128.Broadcasts S128x3x128
  reduces_S128x3x128_S128x128 : S128x3x128.Reduces [1] S128x128
  slices_S128x3x128_o0_0_0_S128x1x128 : S128x3x128.Slices ![0, 0, 0] S128x1x128
  shapeCasts_S128x1x128_S128x128 : S128x1x128.ShapeCasts S128x128
  reduces_S128x128_S128 : S128x128.Reduces [1] S128
  shapeCasts_S128_S128x1 : S128.ShapeCasts S128x1
  h_S1x1x1x128x128 : 0 < S1x1x1x128x128.numel
  shapeCasts_S1x1x1x128x128_S128x128 : S1x1x1x128x128.ShapeCasts S128x128
  shapeCasts_S128x128_S1x1x1x128x128 : S128x128.ShapeCasts S1x1x1x128x128
  slices_S128x3x128_o0_1_0_S128x1x128 : S128x3x128.Slices ![0, 1, 0] S128x1x128
  slices_S128x3x128_o0_2_0_S128x1x128 : S128x3x128.Slices ![0, 2, 0] S128x1x128
  transposes_S8x3x3x1024x1024_S8x1024x3x1024x3_0_3_1_4_2 : S8x3x3x1024x1024.Transposes [0, 3, 1, 4, 2] S8x1024x3x1024x3
  shapeCasts_S8x1024x3x1024x3_S8x3072x3072 : S8x1024x3x1024x3.ShapeCasts S8x3072x3072
  hrank0 : 0 < grid0.rank
  k0_off1_inb : ∀ i : grid0.Coords, ∀ a, (k0_off1 i) a + S1.size a ≤ S8.size a
  k0_mult1_dvd : ∀ i : grid0.Coords, 128 ∣ (k0_mult1 i).toNat
  k0_off2_inb : ∀ i : grid0.Coords, ∀ a, (k0_off2 i) a + S1x128x3.size a ≤ S1x1024x3.size a
  k0_t1_ok : k0_t1_loop.OK
  k0_mult2_dvd : ∀ k0_t1 : Fin k0_t1_loop.trips, 128 ∣ (k0_mult2 k0_t1).toNat
  k0_off3_inb : ∀ k0_t1 : Fin k0_t1_loop.trips, ∀ a, (k0_off3 k0_t1) a + S1x128x3.size a ≤ S1x1024x3.size a
  k0_mult3_dvd : ∀ k0_t1 : Fin k0_t1_loop.trips, 128 ∣ (k0_mult3 k0_t1).toNat
  k0_off4_inb : ∀ k0_t1 : Fin k0_t1_loop.trips, ∀ a, (k0_off4 k0_t1) a + S1x1x1x128x128.size a ≤ S1x3x3x128x1024.size a
  k0_off5_inb : ∀ k0_t1 : Fin k0_t1_loop.trips, ∀ a, (k0_off5 k0_t1) a + S1x1x1x128x128.size a ≤ S1x3x3x128x1024.size a
  k0_off6_inb : ∀ k0_t1 : Fin k0_t1_loop.trips, ∀ a, (k0_off6 k0_t1) a + S1x1x1x128x128.size a ≤ S1x3x3x128x1024.size a
  k0_off7_inb : ∀ k0_t1 : Fin k0_t1_loop.trips, ∀ a, (k0_off7 k0_t1) a + S1x1x1x128x128.size a ≤ S1x3x3x128x1024.size a
  k0_off8_inb : ∀ k0_t1 : Fin k0_t1_loop.trips, ∀ a, (k0_off8 k0_t1) a + S1x1x1x128x128.size a ≤ S1x3x3x128x1024.size a
  k0_off9_inb : ∀ k0_t1 : Fin k0_t1_loop.trips, ∀ a, (k0_off9 k0_t1) a + S1x1x1x128x128.size a ≤ S1x3x3x128x1024.size a
  k0_off10_inb : ∀ k0_t1 : Fin k0_t1_loop.trips, ∀ a, (k0_off10 k0_t1) a + S1x1x1x128x128.size a ≤ S1x3x3x128x1024.size a
  k0_off11_inb : ∀ k0_t1 : Fin k0_t1_loop.trips, ∀ a, (k0_off11 k0_t1) a + S1x1x1x128x128.size a ≤ S1x3x3x128x1024.size a
  k0_off12_inb : ∀ k0_t1 : Fin k0_t1_loop.trips, ∀ a, (k0_off12 k0_t1) a + S1x1x1x128x128.size a ≤ S1x3x3x128x1024.size a
  k0_mult4_dvd : ∀ i : grid0.Coords, 128 ∣ (k0_mult4 i).toNat
  k0_off13_inb : ∀ i : grid0.Coords, ∀ a, (k0_off13 i) a + S1x1x1x128x128.size a ≤ S1x3x3x128x1024.size a
  k0_off14_inb : ∀ i : grid0.Coords, ∀ a, (k0_off14 i) a + S1x1x1x128x128.size a ≤ S1x3x3x128x1024.size a
  k0_off15_inb : ∀ i : grid0.Coords, ∀ a, (k0_off15 i) a + S1x1x1x128x128.size a ≤ S1x3x3x128x1024.size a
  k0_off16_inb : ∀ i : grid0.Coords, ∀ a, (k0_off16 i) a + S1x1x1x128x128.size a ≤ S1x3x3x128x1024.size a
  k0_off17_inb : ∀ i : grid0.Coords, ∀ a, (k0_off17 i) a + S1x1x1x128x128.size a ≤ S1x3x3x128x1024.size a
  k0_off18_inb : ∀ i : grid0.Coords, ∀ a, (k0_off18 i) a + S1x1x1x128x128.size a ≤ S1x3x3x128x1024.size a
  k0_off19_inb : ∀ i : grid0.Coords, ∀ a, (k0_off19 i) a + S1x1x1x128x128.size a ≤ S1x3x3x128x1024.size a
  k0_off20_inb : ∀ i : grid0.Coords, ∀ a, (k0_off20 i) a + S1x1x1x128x128.size a ≤ S1x3x3x128x1024.size a
  k0_off21_inb : ∀ i : grid0.Coords, ∀ a, (k0_off21 i) a + S1x1x1x128x128.size a ≤ S1x3x3x128x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x1024x3.size a
  hwx0_0 : ∀ i : grid0.Coords, EltTy.bits .f32 = 32 ∨ (Rect.block (s := S8x1024x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x3x128x1024.size a ≤ S8x3x3x1024x1024.size a
  hwx0_1 : ∀ i : grid0.Coords, EltTy.bits .f32 = 32 ∨ (Rect.block (s := S8x3x3x1024x1024) S1x3x3x128x1024.size (cc0_transform_1 i) (hinb0_1 i)).WholeWords (EltTy.packing .f32)

variable [Facts₀]

abbrev spec0_0 : Pipeline.WinSpec sig grid0.rank :=
  Pipeline.WinSpec.ofSpec (Memref.whole main_v0) S1x1024x3.size reads0_0 false false 2 stage0_0 sem0_0 nbuf0_0 hstage0_0

abbrev spec0_1 : Pipeline.WinSpec sig grid0.rank :=
  Pipeline.WinSpec.ofSpec (Memref.whole main_v1) S1x3x3x128x1024.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_0 | 1 => cc0_transform_1 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S8x3072 : Shape := ⟨2, ![8, 3072]⟩
abbrev S8 : Shape := ⟨1, ![8]⟩
abbrev S8x1024x3 : Shape := ⟨3, ![8, 1024, 3]⟩
abbrev S1024 : Shape := ⟨1, ![1024]⟩
abbrev S1x1024 : Shape := ⟨2, ![1, 1024]⟩
abbrev S8x1 : Shape := ⟨2, ![8, 1]⟩
abbrev S8x1024 : Shape := ⟨2, ![8, 1024]⟩
abbrev S8x1024x1 : Shape := ⟨3, ![8, 1024, 1]⟩
abbrev S8x1x1024 : Shape := ⟨3, ![8, 1, 1024]⟩
abbrev S8x1024x1024 : Shape := ⟨3, ![8, 1024, 1024]⟩
abbrev S8x1024x1x3 : Shape := ⟨4, ![8, 1024, 1, 3]⟩
abbrev S8x1x1024x3 : Shape := ⟨4, ![8, 1, 1024, 3]⟩
abbrev S8x1024x1024x3 : Shape := ⟨4, ![8, 1024, 1024, 3]⟩
abbrev S8x1024x1024x1 : Shape := ⟨4, ![8, 1024, 1024, 1]⟩
abbrev S_ : Shape := ⟨0, ![]⟩
abbrev S8x1024x1024x3x1 : Shape := ⟨5, ![8, 1024, 1024, 3, 1]⟩
abbrev S8x1024x1024x1x3 : Shape := ⟨5, ![8, 1024, 1024, 1, 3]⟩
abbrev S8x1024x1024x3x3 : Shape := ⟨5, ![8, 1024, 1024, 3, 3]⟩
abbrev S8x1024x1024x1x1 : Shape := ⟨5, ![8, 1024, 1024, 1, 1]⟩
abbrev S8x1024x3x3 : Shape := ⟨4, ![8, 1024, 3, 3]⟩
abbrev S1024x1 : Shape := ⟨2, ![1024, 1]⟩
abbrev S1024x2 : Shape := ⟨2, ![1024, 2]⟩
abbrev S8x1024x3x1024x3 : Shape := ⟨5, ![8, 1024, 3, 1024, 3]⟩
abbrev S8x3072x3072 : Shape := ⟨3, ![8, 3072, 3072]⟩

abbrev nBuf : Space → Nat
  | .hbm => 62
  | .vmem => 0
  | .smem => 0
  | _ => 0

abbrev bufTy : (tb : Table) → Fin (tcTables nBuf tb) → BufTy
  | .hbm, ⟨0, _⟩ => ⟨S8x3072, .f32⟩
  | .hbm, ⟨1, _⟩ => ⟨S8, .i32⟩
  | .hbm, ⟨2, _⟩ => ⟨S8x1024x3, .f32⟩
  | .hbm, ⟨3, _⟩ => ⟨S1024, .i32⟩
  | .hbm, ⟨4, _⟩ => ⟨S1x1024, .i32⟩
  | .hbm, ⟨5, _⟩ => ⟨S8x1, .i32⟩
  | .hbm, ⟨6, _⟩ => ⟨S8x1024, .i32⟩
  | .hbm, ⟨7, _⟩ => ⟨S8x1024, .i32⟩
  | .hbm, ⟨8, _⟩ => ⟨S8x1024, .i1⟩
  | .hbm, ⟨9, _⟩ => ⟨S8x1024x1, .i1⟩
  | .hbm, ⟨10, _⟩ => ⟨S8x1x1024, .i1⟩
  | .hbm, ⟨11, _⟩ => ⟨S8x1024x1024, .i1⟩
  | .hbm, ⟨12, _⟩ => ⟨S8x1024x1024, .i1⟩
  | .hbm, ⟨13, _⟩ => ⟨S8x1024x1024, .i1⟩
  | .hbm, ⟨14, _⟩ => ⟨S8x1024x1024, .f32⟩
  | .hbm, ⟨15, _⟩ => ⟨S8x1024x1x3, .f32⟩
  | .hbm, ⟨16, _⟩ => ⟨S8x1x1024x3, .f32⟩
  | .hbm, ⟨17, _⟩ => ⟨S8x1024x1024x3, .f32⟩
  | .hbm, ⟨18, _⟩ => ⟨S8x1024x1024x3, .f32⟩
  | .hbm, ⟨19, _⟩ => ⟨S8x1024x1024x3, .f32⟩
  | .hbm, ⟨20, _⟩ => ⟨S8x1024x1024x1, .f32⟩
  | .hbm, ⟨21, _⟩ => ⟨S8x1024x1024x3, .f32⟩
  | .hbm, ⟨22, _⟩ => ⟨S8x1024x1024x3, .f32⟩
  | .hbm, ⟨23, _⟩ => ⟨S8x1024x1024x3, .f32⟩
  | .hbm, ⟨24, _⟩ => ⟨S_, .f32⟩
  | .hbm, ⟨25, _⟩ => ⟨S8x1024x1024, .f32⟩
  | .hbm, ⟨26, _⟩ => ⟨S_, .f32⟩
  | .hbm, ⟨27, _⟩ => ⟨S8x1024x1024, .f32⟩
  | .hbm, ⟨28, _⟩ => ⟨S8x1024x1024, .f32⟩
  | .hbm, ⟨29, _⟩ => ⟨S8x1024x1024x3x1, .f32⟩
  | .hbm, ⟨30, _⟩ => ⟨S8x1024x1024x1x3, .f32⟩
  | .hbm, ⟨31, _⟩ => ⟨S8x1024x1024x3x3, .f32⟩
  | .hbm, ⟨32, _⟩ => ⟨S8x1024x1024x3x3, .f32⟩
  | .hbm, ⟨33, _⟩ => ⟨S8x1024x1024x3x3, .f32⟩
  | .hbm, ⟨34, _⟩ => ⟨S8x1024x1024x3x3, .f32⟩
  | .hbm, ⟨35, _⟩ => ⟨S8x1024x1024x1x1, .f32⟩
  | .hbm, ⟨36, _⟩ => ⟨S8x1024x1024x3x3, .f32⟩
  | .hbm, ⟨37, _⟩ => ⟨S8x1024x1024x3x3, .f32⟩
  | .hbm, ⟨38, _⟩ => ⟨S_, .f32⟩
  | .hbm, ⟨39, _⟩ => ⟨S8x1024x3x3, .f32⟩
  | .hbm, ⟨40, _⟩ => ⟨S8x1024x3x3, .f32⟩
  | .hbm, ⟨41, _⟩ => ⟨S1024, .i32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S_, .i32⟩
  | .hbm, ⟨50, _⟩ => ⟨S1024, .i32⟩
  | .hbm, ⟨51, _⟩ => ⟨S1024, .i1⟩
  | .hbm, ⟨52, _⟩ => ⟨S_, .i32⟩
  | .hbm, ⟨53, _⟩ => ⟨S1024, .i32⟩
  | .hbm, ⟨54, _⟩ => ⟨S1024, .i32⟩
  | .hbm, ⟨55, _⟩ => ⟨S1024, .i32⟩
  | .hbm, ⟨56, _⟩ => ⟨S1024x1, .i32⟩
  | .hbm, ⟨57, _⟩ => ⟨S1024x1, .i32⟩
  | .hbm, ⟨58, _⟩ => ⟨S1024x2, .i32⟩
  | .hbm, ⟨59, _⟩ => ⟨S8x1024x1024x3x3, .f32⟩
  | .hbm, ⟨60, _⟩ => ⟨S8x1024x3x1024x3, .f32⟩
  | .hbm, ⟨61, _⟩ => ⟨S8x3072x3072, .f32⟩
  | _, _ => ⟨S8x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_cst : Ref sig .tc := ⟨.hbm, 24, rfl⟩
abbrev main_v22 : Ref sig .tc := ⟨.hbm, 25, rfl⟩
abbrev main_cst_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst_1 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_c : Ref sig .tc := ⟨.hbm, 42, rfl⟩
abbrev main_v37 : Ref sig .tc := ⟨.hbm, 43, rfl⟩
abbrev main_v38 : Ref sig .tc := ⟨.hbm, 44, rfl⟩
abbrev main_c_2 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_c_3 : Ref sig .tc := ⟨.hbm, 49, rfl⟩
abbrev main_v42 : Ref sig .tc := ⟨.hbm, 50, rfl⟩
abbrev main_v43 : Ref sig .tc := ⟨.hbm, 51, rfl⟩
abbrev main_c_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩

abbrev nD : Nat := 1
abbrev τ : Topo := Topo.v7x

variable {F : FTy → Type} [FloatOps F]

class Facts₀ : Prop where
  shapeCasts_S8x3072_S8x1024x3 : S8x3072.ShapeCasts S8x1024x3
  bcast_S1024_S1x1024_1 : S1024.BroadcastsInDim S1x1024 (![1] : Fin 1 → Fin S1x1024.rank)
  bcast_S8_S8x1_0 : S8.BroadcastsInDim S8x1 (![0] : Fin 1 → Fin S8x1.rank)
  bcast_S1x1024_S8x1024_0_1 : S1x1024.BroadcastsInDim S8x1024 (![0, 1] : Fin 2 → Fin S8x1024.rank)
  bcast_S8x1_S8x1024_0_1 : S8x1.BroadcastsInDim S8x1024 (![0, 1] : Fin 2 → Fin S8x1024.rank)
  bcast_S8x1024_S8x1024x1_0_1 : S8x1024.BroadcastsInDim S8x1024x1 (![0, 1] : Fin 2 → Fin S8x1024x1.rank)
  bcast_S8x1024_S8x1x1024_0_2 : S8x1024.BroadcastsInDim S8x1x1024 (![0, 2] : Fin 2 → Fin S8x1x1024.rank)
  bcast_S8x1024x1_S8x1024x1024_0_1_2 : S8x1024x1.BroadcastsInDim S8x1024x1024 (![0, 1, 2] : Fin 3 → Fin S8x1024x1024.rank)
  bcast_S8x1x1024_S8x1024x1024_0_1_2 : S8x1x1024.BroadcastsInDim S8x1024x1024 (![0, 1, 2] : Fin 3 → Fin S8x1024x1024.rank)
  bcast_S8x1024x3_S8x1024x1x3_0_1_3 : S8x1024x3.BroadcastsInDim S8x1024x1x3 (![0, 1, 3] : Fin 3 → Fin S8x1024x1x3.rank)
  bcast_S8x1024x3_S8x1x1024x3_0_2_3 : S8x1024x3.BroadcastsInDim S8x1x1024x3 (![0, 2, 3] : Fin 3 → Fin S8x1x1024x3.rank)
  bcast_S8x1024x1x3_S8x1024x1024x3_0_1_2_3 : S8x1024x1x3.BroadcastsInDim S8x1024x1024x3 (![0, 1, 2, 3] : Fin 4 → Fin S8x1024x1024x3.rank)
  bcast_S8x1x1024x3_S8x1024x1024x3_0_1_2_3 : S8x1x1024x3.BroadcastsInDim S8x1024x1024x3 (![0, 1, 2, 3] : Fin 4 → Fin S8x1024x1024x3.rank)
  bcast_S8x1024x1024_S8x1024x1024x1_0_1_2 : S8x1024x1024.BroadcastsInDim S8x1024x1024x1 (![0, 1, 2] : Fin 3 → Fin S8x1024x1024x1.rank)
  bcast_S8x1024x1024x1_S8x1024x1024x3_0_1_2_3 : S8x1024x1024x1.BroadcastsInDim S8x1024x1024x3 (![0, 1, 2, 3] : Fin 4 → Fin S8x1024x1024x3.rank)
  reducesTo_S8x1024x1024x3_S8x1024x1024_d3 : S8x1024x1024x3.ReducesTo [3] S8x1024x1024
  h_S_ : 0 < S_.numel
  bcast_S_S8x1024x1024 : S_.BroadcastsInDim S8x1024x1024 (![] : Fin 0 → Fin S8x1024x1024.rank)
  bcast_S8x1024x1024x3_S8x1024x1024x3x1_0_1_2_3 : S8x1024x1024x3.BroadcastsInDim S8x1024x1024x3x1 (![0, 1, 2, 3] : Fin 4 → Fin S8x1024x1024x3x1.rank)
  bcast_S8x1024x1024x3_S8x1024x1024x1x3_0_1_2_4 : S8x1024x1024x3.BroadcastsInDim S8x1024x1024x1x3 (![0, 1, 2, 4] : Fin 4 → Fin S8x1024x1024x1x3.rank)
  bcast_S8x1024x1024x3x1_S8x1024x1024x3x3_0_1_2_3_4 : S8x1024x1024x3x1.BroadcastsInDim S8x1024x1024x3x3 (![0, 1, 2, 3, 4] : Fin 5 → Fin S8x1024x1024x3x3.rank)
  bcast_S8x1024x1024x1x3_S8x1024x1024x3x3_0_1_2_3_4 : S8x1024x1024x1x3.BroadcastsInDim S8x1024x1024x3x3 (![0, 1, 2, 3, 4] : Fin 5 → Fin S8x1024x1024x3x3.rank)
  bcast_S8x1024x1024_S8x1024x1024x1x1_0_1_2 : S8x1024x1024.BroadcastsInDim S8x1024x1024x1x1 (![0, 1, 2] : Fin 3 → Fin S8x1024x1024x1x1.rank)
  bcast_S8x1024x1024x1x1_S8x1024x1024x3x3_0_1_2_3_4 : S8x1024x1024x1x1.BroadcastsInDim S8x1024x1024x3x3 (![0, 1, 2, 3, 4] : Fin 5 → Fin S8x1024x1024x3x3.rank)
  reducesTo_S8x1024x1024x3x3_S8x1024x3x3_d2 : S8x1024x1024x3x3.ReducesTo [2] S8x1024x3x3
  bcast_S_S1024 : S_.BroadcastsInDim S1024 (![] : Fin 0 → Fin S1024.rank)
  bcast_S1024_S1024x1_0 : S1024.BroadcastsInDim S1024x1 (![0] : Fin 1 → Fin S1024x1.rank)
  concatenates_S1024x1_S1024x1_S1024x2_d1 : Shape.Concatenates [S1024x1, S1024x1] S1024x2 1
  transposes_S8x1024x1024x3x3_S8x1024x3x1024x3_0_1_3_2_4 : S8x1024x1024x3x3.Transposes [0, 1, 3, 2, 4] S8x1024x3x1024x3
  shapeCasts_S8x1024x3x1024x3_S8x3072x3072 : S8x1024x3x1024x3.ShapeCasts S8x3072x3072
  scatter_S8x1024x1024x3x3_S1024x2_S8x1024x3x3_023_12_12_1_wf : ScatterDims.WF S8x1024x1024x3x3 S1024x2 S8x1024x3x3 [0, 2, 3] [1, 2] [1, 2] 1

variable [Facts₀]

def scatter_S8x1024x1024x3x3_S1024x2_S8x1024x3x3_023_12_12_1 : ScatterDims S8x1024x1024x3x3 S1024x2 S8x1024x3x3 where
  updateWindowDims := [0, 2, 3]
  insertedWindowDims := [1, 2]
  scatterDimsToOperandDims := [1, 2]
  indexVectorDim := 1
  wf := scatter_S8x1024x1024x3x3_S1024x2_S8x1024x3x3_023_12_12_1_wf

class Facts : Prop extends Facts₀ where

variable [Facts]
-- ==== Proof.KB.Base.lean ====
/-
  Shared vocabulary for the kernel's frame: the resource algebra, the prefetched
  table's memref as the body is handed it, and that memref's buffer held at the right half of the full share
  (the pipeline keeps the other half, so the body may read the table's words and never write them).
-/
import proofs.«406191_j17231408791693_3_alg».proof.Proof.Gen.Kernel.Launch
import proofs.«406191_j17231408791693_3_alg».proof.Proof.Gen.Kernel.Skeleton
import proofs.«406191_j17231408791693_3_alg».proof.Proof.Gen.Kernel.Loops
import Idealize.ShloMosaic.Lib.Pipeline.FrameBody
import Idealize.ShloMosaic.Lib.Pipeline.FrameSuffix
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The number-of-atoms table as a memref over its whole buffer. -/
abbrev tbM : Memref sig .tc .smem S8 .i32 := Memref.whole main_arg1
abbrev htbM : tbM.IsWhole := Memref.isWhole_whole _

/-- The contents type of a table memref's buffer on core `c`. -/
abbrev TbBuf (c : Dev nD) {S : Shape} {e : EltTy} (M : Memref sig .tc .smem S e) : Type :=
  Buf (Elt F) (M.view.loc (c : Thread nD τ))

/-- The table's buffer held read-only: the right half of the full share, at contents `f`. -/
abbrev tbPt (c : Dev nD) {S : Shape} {e : EltTy} (M : Memref sig .tc .smem S e) (f : TbBuf (F := F) c M) :
    sProp (MT nD τ sig Unit (Elt F) ℕ (UR sig nD τ) ℕ) :=
  M.view.loc (c : Thread nD τ) ↦{fullShare.right} f

end Cert.Kernel.Hand

end
-- ==== Proof.KB.Kit.lean ====
/-
  The program around its one region. @main reshapes the coordinates, runs the region over an 8×8 grid
  (batch × row tile), then transposes and reshapes the region's result. Here: the buffers' contents when the
  region is entered; that @main is the region continued by the two later host operations; that those operations
  touch only what they may; the prefetched table (the atom counts) as the region reads it; the block of
  coordinates a grid point is handed; and the staging memrefs a point works on.
-/
import proofs.«406191_j17231408791693_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- Core `c`'s buffers after the reshape that precedes the region, as a valuation, and read at a reference. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, then the transpose and the reshape: it reduces to the region continued by
    the later two, entered at `V`. -/
theorem hmain (𝒱₀ : Variants) :
    Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The two operations after the region -/

/-- They touch only the region's arrays and the buffers that bypass it, none of them the table; -/
theorem tail_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl
  all_goals intro j; fin_cases j <;> simp only [StableHlo.unary_bufs, StableHlo.reshape_bufs, Finset.mem_insert, Finset.mem_singleton, not_or] <;> and_intros <;> exact StableHlo.devRef_ne_of_ne (by decide)

/-- they allocate nothing; -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- and they write no array of the region (each writes its own result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-! ## The arguments as the region finds them -/

/-- The reshape before the region writes neither argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes, Finset.mem_singleton]
    exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes, Finset.mem_singleton]
    exact StableHlo.devRef_ne_of_ne (by decide)))

/-! ## The prefetched table -/

/-- The atom counts as the region reads them at entry (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- No index map reads the table, so every contents of it is admissible; the pipeline at the contents read. -/
abbrev adm : (pcfg0 (F := F)).Adm := ⟨tbl m, trivial⟩
abbrev cfgM : Pipeline.Cfg sig Λ₀ := cfg0 (adm m)

/-- The half of the table the region hands the body. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## A point's block of coordinates, its staging memrefs, and the body as the pipeline calls it -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The coordinate window's staging buffer holds its block at every point, fetched there or not, for any proof data
    over the entry contents whose body leaves the block in place. -/
theorem before_in_of {c : Dev nD} (dat : Dat τ (Elt F) Unit ℕ (UR sig nD τ) ℕ (cfgM m) c)
    (hA : dat.A 0 = V m c (Pipeline.arrRef spec0 0)) (hafter : ∀ t, dat.after 0 t = iblk m c 0 t)
    (t : Fin (cfgM m).N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- The output window is written back at every point, so its staging buffer is fresh at every point. -/
theorem flush_out : ∀ t : Fin (cfgM m).N, ((cfgM m).win 1).flush t = true :=
  (by decide +kernel : ∀ t : Fin grid0.N, Pipeline.Window.flushOf grid0 true cc0_transform_1 t = true)

/-- The current staging memrefs at point `t`, as the pipeline passes them, and their wholeness. -/
abbrev ms0 (t : Fin (cfgM m).N) : Memref sig .tc .vmem S1x1024x3 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x3x3x128x1024 .f32 := spec0_1.stage ((cfgM m).slots t 1)
abbrev hs1 (t : Fin (cfgM m).N) : (ms1 m t).IsWhole := hstage0_1 (((cfgM m).slots t 1).cast nbuf0_1)

/-- The kernel body at point `t`, on what the pipeline calls it with. -/
abbrev bodyAt (t : Fin (cfgM m).N) : Prog (TpuEff nD τ sig (Elt F) Λ₀ .tc) PUnit :=
  cc0__coords2stress_kernel (grid0.coords t) tbM htbM (ms0 m t) (hs0 m t) (ms1 m t) (hs1 m t)

end Cert.Kernel.Hand

end
-- ==== Proof.KB.Body.lean ====
/-
  One grid point of the kernel, run symbolically. The body reads its block of coordinates and the
  number-of-atoms word, goes eight times through the column loop (each trip storing nine 128×128 slabs
  into the output block and adding their row sums to nine accumulators), then reads the nine diagonal
  slabs back, adds the negated accumulators on the local diagonal, and stores them again. What the
  output block holds afterwards is recorded as a function of what the block held before.
-/
import proofs.«406191_j17231408791693_3_alg».proof.Proof.KB.Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- What one grid point leaves in the output block's buffer, as a function of what the buffer held before (the body
    loads the block before each store), with the proof that from the coordinate block at `x0`, the output block at
    anything and the table at `xt0`, the body runs to the continuation holding the coordinate block and the table as
    they were and the output block at those contents. -/
def kernelRun (c : Dev nD) (i : grid0.Coords) (arg3 : Memref sig .tc .vmem S1x1024x3 .f32) (harg3 : arg3.IsWhole)
    (arg4 : Memref sig .tc .vmem S1x3x3x128x1024 .f32) (harg4 : arg4.IsWhole)
    (x0 : Vec F S1x1024x3 .f32) (xt0 : TbBuf (F := F) c tbM) :
    { out : BufTy.Contents (Elt F) arg4.view.ty → BufTy.Contents (Elt F) arg4.view.ty //
      ∀ (E : Set ℕ) (K : PUnit → sProp 𝕄),
        iprop(owns (c : Thread nD τ) arg3 fullShare x0 ∗ (∃ d, owns (c : Thread nD τ) arg4 fullShare d) ∗ tbPt c tbM xt0
            ∗ (iprop(owns (c : Thread nD τ) arg3 fullShare x0
                ∗ (∃ f, arg4.view.loc (c : Thread nD τ) ↦[arg4.view.set]{fullShare} out f)
                ∗ tbPt c tbM xt0) -∗ K ⟨⟩))
          ⊢ wp frame (wpE (defs₀ (F := F)) Variants.none c none) E (cc0__coords2stress_kernel i tbM htbM arg3 harg3 arg4 harg4) K } := by
  refine ⟨?_, fun E K => ?run⟩
  case run =>
    simp only [cc0__coords2stress_kernel_eq_skeleton]; unfold cc0__coords2stress_kernel_skel
    simp only [k0_part4_eq_skeleton, k0_part5_eq_skeleton, k0_part6_eq_skeleton, k0_part7_eq_skeleton]
    unfold owns
    iintro ⟨⟨%f0, %hf0, H0⟩, ⟨%d1, %f1, -, H1⟩, HT0, Hk⟩
    obtain rfl := harg3.eq_unread hf0
    sl_exec
    sl_step
    iapply Hk
    isplitl [H0]
    · iexists _; isplitr; · ipureintro; exact harg3.read_unread _
      iexact H0
    isplitl [H1]
    · iexists f1; iexact H1
    iexact HT0

end Cert.Kernel.Hand

end
-- ==== Proof.KB.Tile.lean ====
/-
  The values one grid point computes, in one vocabulary.

  A grid point handles 128 atoms (its rows) of one batch. For each of the eight tiles of 128 partner atoms
  (the columns) it forms the masked separations `sepT`, the squared distances plus ε `d2T`, and from them nine
  128×128 slabs `slabT p`, one per pair of axes `p = 3c + c'`: minus the product of the separations along `c`
  and `c'`, over the squared distance. Each slab is stored into the output block at plane `(c, c')`, columns of
  that tile, and its row sums are added to the running row sum `accT p`. After the last tile the diagonal slab
  of each plane (the tile that holds the rows' own atoms) is read back and the negated row sum, spread along
  the local diagonal, is added to it. `outBlk` is the block this leaves, as a function of the block's index.
-/
import proofs.«406191_j17231408791693_3_alg».proof.Proof.KB.Base
import Idealize.ShloMosaic.Lib.ValueIdx

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-- The column loop makes eight trips. -/
theorem trips_eq : k0_t1_loop.trips = 8 := by decide

/-- A 128×128 slab as the one-plane, one-tile piece of the block it is stored as, and back. -/
abbrev up (s : FVec F S128x128 .f32) : FVec F S1x1x1x128x128 .f32 :=
  shapeCast S1x1x1x128x128 s shapeCasts_S128x128_S1x1x1x128x128
abbrev down (v : Vec F S1x1x1x128x128 .f32) : FVec F S128x128 .f32 :=
  shapeCast S128x128 v shapeCasts_S1x1x1x128x128_S128x128

/-- The all-zero column the row sums start from. -/
abbrev zeroCol : FVec F S128x1 .f32 := broadcast S128x1 (Scalar.ofBits .f32 0x00000000#32)

/-- One step of a running row sum: add the slab's row sums (each started from zero). -/
abbrev accStep (a : FVec F S128x1 .f32) (s : FVec F S128x128 .f32) : FVec F S128x1 .f32 :=
  addf a (shapeCast S128x1 (multiReduction .add [1] S128 s 0x00000000#32 reduces_S128x128_S128 (.inl rfl) rfl) shapeCasts_S128_S128x1)

/-- The negated row sum (zero minus it) spread along the rows and kept on the local diagonal only. -/
abbrev negDiag (a : FVec F S128x1 .f32) : FVec F S128x128 .f32 :=
  mulf (broadcastTo S128x128 (subf (broadcast S128x1 (Scalar.ofBits .f32 0x00000000#32)) a) broadcasts_S128x1_S128x128) (k0_pay29 (F := F))

/-- What is stored back on the diagonal tile: the slab read back plus the negated row sum on the diagonal. -/
abbrev diagPay (a : FVec F S128x1 .f32) (cur : Vec F S1x1x1x128x128 .f32) : FVec F S1x1x1x128x128 .f32 :=
  up (addf (down cur) (negDiag a))

section Point

variable (i : grid0.Coords) (nb : Elt F .i32) (v5 : Vec F S1x128x3 .f32)
  (xj : Fin k0_t1_loop.trips → Vec F S1x128x3 .f32)

/-- Masked separations of this point's rows against tile `k`'s columns, and their squared distances plus ε. -/
def sepT (k : Fin k0_t1_loop.trips) : FVec F S128x3x128 .f32 :=
  k0_pay2 nb (k0_pay27 v5) (k0_pay28 i nb) 0#32 1#32 k (xj k)
def d2T (k : Fin k0_t1_loop.trips) : FVec F S128x128 .f32 :=
  k0_pay3 nb (k0_pay27 v5) (k0_pay28 i nb) 0#32 1#32 k (xj k)

/-- The nine slabs of tile `k`: slab `p = 3c + c'` is minus the product of the separations along `c` and `c'`
    over the squared distance. -/
def slabT (p : Fin 9) (k : Fin k0_t1_loop.trips) : FVec F S128x128 .f32 :=
  match p with
  | 0 => k0_pay5 nb (k0_pay27 v5) (k0_pay28 i nb) 0#32 1#32 k (xj k)
  | 1 => k0_pay8 (sepT i nb v5 xj k) (d2T i nb v5 xj k) (k0_pay4 nb (k0_pay27 v5) (k0_pay28 i nb) 0#32 1#32 k (xj k))
  | 2 => k0_pay11 (sepT i nb v5 xj k) (d2T i nb v5 xj k) (k0_pay4 nb (k0_pay27 v5) (k0_pay28 i nb) 0#32 1#32 k (xj k))
  | 3 => k0_pay15 (sepT i nb v5 xj k) (d2T i nb v5 xj k)
  | 4 => k0_pay18 (sepT i nb v5 xj k) (d2T i nb v5 xj k) (k0_pay14 (sepT i nb v5 xj k))
  | 5 => k0_pay21 (sepT i nb v5 xj k) (d2T i nb v5 xj k) (k0_pay14 (sepT i nb v5 xj k))
  | 6 => k0_pay25 (sepT i nb v5 xj k) (d2T i nb v5 xj k)
  | 7 => k0_pay40 (sepT i nb v5 xj k) (d2T i nb v5 xj k) (k0_pay24 (sepT i nb v5 xj k))
  | 8 => k0_pay43 (sepT i nb v5 xj k) (d2T i nb v5 xj k) (k0_pay24 (sepT i nb v5 xj k))

/-- The running row sum of slab `p` after the first `k` tiles. -/
def accT (p : Fin 9) : ℕ → FVec F S128x1 .f32
  | 0 => zeroCol
  | k + 1 => if h : k < k0_t1_loop.trips then accStep (accT p k) (slabT i nb v5 xj p ⟨k, h⟩) else accT p k

/-- Where the block's entry `idx = (0, c, c', r, col)` comes from: slab `3c + c'`, tile `col / 128`, row `r`,
    column `col % 128` inside the tile. -/
def planeOf (idx : S1x3x3x128x1024.Idx) : Fin 9 :=
  ⟨3 * (idx 1).val + (idx 2).val, by have h1 : (idx 1).val < 3 := (idx 1).isLt; have h2 : (idx 2).val < 3 := (idx 2).isLt; omega⟩
def tileOf (idx : S1x3x3x128x1024.Idx) : Fin k0_t1_loop.trips :=
  ⟨(idx 4).val / 128, by rw [trips_eq]; have h : (idx 4).val < 1024 := (idx 4).isLt; omega⟩
def cellOf (idx : S1x3x3x128x1024.Idx) : S128x128.Idx :=
  ValueIdx.ix2 (⟨(idx 3).val, (idx 3).isLt⟩ : Fin 128) (⟨(idx 4).val % 128, Nat.mod_lt _ (by decide)⟩ : Fin 128)

/-- The block after the column loop: every entry its slab's. -/
def slabAll (idx : S1x3x3x128x1024.Idx) : F .f32 :=
  slabT i nb v5 xj (planeOf idx) (tileOf idx) (cellOf idx)

/-- The block the grid point leaves: on the tile that holds the point's own atoms the slab plus the negated row
    sum on the diagonal, elsewhere the slab. -/
def outBlk (idx : S1x3x3x128x1024.Idx) : F .f32 :=
  if (idx 4).val / 128 = (i 1).val then
    addf (slabT i nb v5 xj (planeOf idx) (tileOf idx)) (negDiag (accT i nb v5 xj (planeOf idx) 8)) (cellOf idx)
  else slabAll i nb v5 xj idx

end Point

/-! ## The point's rows and a tile's columns, read off the point's block of coordinates -/

/-- The point's own 128 atoms (rows `128·i₁ …` of the block), and the 128 partner atoms of tile `k`. -/
abbrev rowsOf (i : grid0.Coords) (x0 : Vec F S1x1024x3 .f32) : Vec F S1x128x3 .f32 :=
  View.ld x0 (Rect.unit (s := S1x1024x3) (k0_off2 i) S1x128x3.size (k0_off2_inb i))
abbrev colsOf (x0 : Vec F S1x1024x3 .f32) (k : Fin k0_t1_loop.trips) : Vec F S1x128x3 .f32 :=
  View.ld x0 (Rect.unit (s := S1x1024x3) (k0_off3 k) S1x128x3.size (k0_off3_inb k))

/-! ## The stores, as lists of pieces (latest first) -/

section Pieces

variable (i : grid0.Coords) (nb : Elt F .i32) (v5 : Vec F S1x128x3 .f32)
  (xj : Fin k0_t1_loop.trips → Vec F S1x128x3 .f32)

/-- The nine stores of tile `k`: slab `p` at plane `p`, the tile's columns. -/
def tilePieces (k : Fin k0_t1_loop.trips) : List (View.Piece (Elt F) S1x3x3x128x1024 .f32) :=
  [⟨Rect.unit (s := S1x3x3x128x1024) (k0_off12 k) S1x1x1x128x128.size (k0_off12_inb k), up (slabT i nb v5 xj 8 k)⟩,
   ⟨Rect.unit (s := S1x3x3x128x1024) (k0_off11 k) S1x1x1x128x128.size (k0_off11_inb k), up (slabT i nb v5 xj 7 k)⟩,
   ⟨Rect.unit (s := S1x3x3x128x1024) (k0_off10 k) S1x1x1x128x128.size (k0_off10_inb k), up (slabT i nb v5 xj 6 k)⟩,
   ⟨Rect.unit (s := S1x3x3x128x1024) (k0_off9 k) S1x1x1x128x128.size (k0_off9_inb k), up (slabT i nb v5 xj 5 k)⟩,
   ⟨Rect.unit (s := S1x3x3x128x1024) (k0_off8 k) S1x1x1x128x128.size (k0_off8_inb k), up (slabT i nb v5 xj 4 k)⟩,
   ⟨Rect.unit (s := S1x3x3x128x1024) (k0_off7 k) S1x1x1x128x128.size (k0_off7_inb k), up (slabT i nb v5 xj 3 k)⟩,
   ⟨Rect.unit (s := S1x3x3x128x1024) (k0_off6 k) S1x1x1x128x128.size (k0_off6_inb k), up (slabT i nb v5 xj 2 k)⟩,
   ⟨Rect.unit (s := S1x3x3x128x1024) (k0_off5 k) S1x1x1x128x128.size (k0_off5_inb k), up (slabT i nb v5 xj 1 k)⟩,
   ⟨Rect.unit (s := S1x3x3x128x1024) (k0_off4 k) S1x1x1x128x128.size (k0_off4_inb k), up (slabT i nb v5 xj 0 k)⟩]

/-- The stores of the first `k` tiles. -/
def loopPieces : ℕ → List (View.Piece (Elt F) S1x3x3x128x1024 .f32)
  | 0 => []
  | k + 1 => if h : k < k0_t1_loop.trips then tilePieces i nb v5 xj ⟨k, h⟩ ++ loopPieces k else loopPieces k

/-- The nine running row sums after the first `k` tiles. -/
def accs (k : ℕ) : FVec F S128x1 .f32 × FVec F S128x1 .f32 × FVec F S128x1 .f32 × FVec F S128x1 .f32 × FVec F S128x1 .f32 × FVec F S128x1 .f32 × FVec F S128x1 .f32 × FVec F S128x1 .f32 × FVec F S128x1 .f32 :=
  (accT i nb v5 xj 0 k, accT i nb v5 xj 1 k, accT i nb v5 xj 2 k, accT i nb v5 xj 3 k, accT i nb v5 xj 4 k,
   accT i nb v5 xj 5 k, accT i nb v5 xj 6 k, accT i nb v5 xj 7 k, accT i nb v5 xj 8 k)

variable (arg4 : Memref sig .tc .vmem S1x3x3x128x1024 .f32) (f : BufTy.Contents (Elt F) arg4.view.ty)

/-- The block's buffer after the column loop, over entry contents `f`. -/
def afterLoop : BufTy.Contents (Elt F) arg4.view.ty := arg4.view.writes (Elt F) f (loopPieces i nb v5 xj 8)

/-- … and after the first diagonal slab (plane 0) has been read back, corrected and stored. -/
def afterFirst : BufTy.Contents (Elt F) arg4.view.ty :=
  arg4.view.writes (Elt F) (afterLoop i nb v5 xj arg4 f)
    [⟨Rect.unit (s := S1x3x3x128x1024) (k0_off13 i) S1x1x1x128x128.size (k0_off13_inb i), diagPay (accT i nb v5 xj 0 8) (View.readAt (Elt F) arg4.view (Rect.unit (s := S1x3x3x128x1024) (k0_off13 i) S1x1x1x128x128.size (k0_off13_inb i)).toLoadRect (afterLoop i nb v5 xj arg4 f))⟩]

/-- … and at the end: the other eight diagonal slabs read back (after the first was stored), corrected and stored. -/
def outOf : BufTy.Contents (Elt F) arg4.view.ty :=
  arg4.view.writes (Elt F) (afterFirst i nb v5 xj arg4 f)
    [⟨Rect.unit (s := S1x3x3x128x1024) (k0_off21 i) S1x1x1x128x128.size (k0_off21_inb i), diagPay (accT i nb v5 xj 8 8) (View.readAt (Elt F) arg4.view (Rect.unit (s := S1x3x3x128x1024) (k0_off21 i) S1x1x1x128x128.size (k0_off21_inb i)).toLoadRect (afterFirst i nb v5 xj arg4 f))⟩,
     ⟨Rect.unit (s := S1x3x3x128x1024) (k0_off20 i) S1x1x1x128x128.size (k0_off20_inb i), diagPay (accT i nb v5 xj 7 8) (View.readAt (Elt F) arg4.view (Rect.unit (s := S1x3x3x128x1024) (k0_off20 i) S1x1x1x128x128.size (k0_off20_inb i)).toLoadRect (afterFirst i nb v5 xj arg4 f))⟩,
     ⟨Rect.unit (s := S1x3x3x128x1024) (k0_off19 i) S1x1x1x128x128.size (k0_off19_inb i), diagPay (accT i nb v5 xj 6 8) (View.readAt (Elt F) arg4.view (Rect.unit (s := S1x3x3x128x1024) (k0_off19 i) S1x1x1x128x128.size (k0_off19_inb i)).toLoadRect (afterFirst i nb v5 xj arg4 f))⟩,
     ⟨Rect.unit (s := S1x3x3x128x1024) (k0_off18 i) S1x1x1x128x128.size (k0_off18_inb i), diagPay (accT i nb v5 xj 5 8) (View.readAt (Elt F) arg4.view (Rect.unit (s := S1x3x3x128x1024) (k0_off18 i) S1x1x1x128x128.size (k0_off18_inb i)).toLoadRect (afterFirst i nb v5 xj arg4 f))⟩,
     ⟨Rect.unit (s := S1x3x3x128x1024) (k0_off17 i) S1x1x1x128x128.size (k0_off17_inb i), diagPay (accT i nb v5 xj 4 8) (View.readAt (Elt F) arg4.view (Rect.unit (s := S1x3x3x128x1024) (k0_off17 i) S1x1x1x128x128.size (k0_off17_inb i)).toLoadRect (afterFirst i nb v5 xj arg4 f))⟩,
     ⟨Rect.unit (s := S1x3x3x128x1024) (k0_off16 i) S1x1x1x128x128.size (k0_off16_inb i), diagPay (accT i nb v5 xj 3 8) (View.readAt (Elt F) arg4.view (Rect.unit (s := S1x3x3x128x1024) (k0_off16 i) S1x1x1x128x128.size (k0_off16_inb i)).toLoadRect (afterFirst i nb v5 xj arg4 f))⟩,
     ⟨Rect.unit (s := S1x3x3x128x1024) (k0_off15 i) S1x1x1x128x128.size (k0_off15_inb i), diagPay (accT i nb v5 xj 2 8) (View.readAt (Elt F) arg4.view (Rect.unit (s := S1x3x3x128x1024) (k0_off15 i) S1x1x1x128x128.size (k0_off15_inb i)).toLoadRect (afterFirst i nb v5 xj arg4 f))⟩,
     ⟨Rect.unit (s := S1x3x3x128x1024) (k0_off14 i) S1x1x1x128x128.size (k0_off14_inb i), diagPay (accT i nb v5 xj 1 8) (View.readAt (Elt F) arg4.view (Rect.unit (s := S1x3x3x128x1024) (k0_off14 i) S1x1x1x128x128.size (k0_off14_inb i)).toLoadRect (afterFirst i nb v5 xj arg4 f))⟩]

end Pieces

end Cert.Kernel.Hand

end
-- ==== Proof.KB.Trip.lean ====
/-
  One trip of the column loop, and the loop's state after `k` trips, in the tile vocabulary: a trip stores the
  nine slabs of its tile and adds their row sums to the nine running sums; so after `k` trips the stores made
  are those of the first `k` tiles and the sums are the running sums over them.
-/
import proofs.«406191_j17231408791693_3_alg».proof.Proof.KB.Tile

set_option maxRecDepth 16384

noncomputable section

namespace Cert.Kernel.Hand

open Cert.Kernel Cert.Kernel.Gen
open Idealize.ShloMosaic Idealize.ShloMosaic.TcCoe Idealize.ShloMosaic.Tactic Idealize.SL.Sem

variable {F : FTy → Type} [FloatOps F]

section

variable (𝒱 : Variants) (c : Dev nD) (bd : Option 𝒱.V) (i : grid0.Coords)
  (arg2 : Memref sig .tc .smem S8 .i32) (harg2 : arg2.IsWhole)
  (arg3 : Memref sig .tc .vmem S1x1024x3 .f32) (harg3 : arg3.IsWhole)
  (arg4 : Memref sig .tc .vmem S1x3x3x128x1024 .f32) (harg4 : arg4.IsWhole)
  (nb : Elt F .i32) (v5 : Vec F S1x128x3 .f32) (X3 : BufTy.Contents (Elt F) arg3.view.ty)

/-- The 128 partner atoms of tile `k`, read off the coordinate block's buffer. -/
abbrev colBlk (k : Fin k0_t1_loop.trips) : Vec F S1x128x3 .f32 :=
  View.readAt (Elt F) arg3.view (Rect.unit (s := S1x1024x3) (k0_off3 k) S1x128x3.size (k0_off3_inb k)).toLoadRect X3

/-- The stores a trip makes are its tile's nine slabs; -/
theorem tripL_eq (k : Fin k0_t1_loop.trips) (acc : FVec F S128x1 .f32 × FVec F S128x1 .f32 × FVec F S128x1 .f32 × FVec F S128x1 .f32 × FVec F S128x1 .f32 × FVec F S128x1 .f32 × FVec F S128x1 .f32 × FVec F S128x1 .f32 × FVec F S128x1 .f32) (f : BufTy.Contents (Elt F) arg4.view.ty) :
    tripL_k0_t1 (F := F) 𝒱 c bd i arg2 harg2 arg3 harg3 arg4 harg4 nb v5 X3 k acc f
      = tilePieces i nb v5 (colBlk arg3 X3) k := by
  unfold tripL_k0_t1 trip_k0_t1
  dsimp only
  sl_unfold_run_names
  rfl

/-- and what it yields are the nine running sums, each with its slab's row sums added. -/
theorem tripR_eq (k : Fin k0_t1_loop.trips) (acc : FVec F S128x1 .f32 × FVec F S128x1 .f32 × FVec F S128x1 .f32 × FVec F S128x1 .f32 × FVec F S128x1 .f32 × FVec F S128x1 .f32 × FVec F S128x1 .f32 × FVec F S128x1 .f32 × FVec F S128x1 .f32) (f : BufTy.Contents (Elt F) arg4.view.ty) :
    tripR_k0_t1 (F := F) 𝒱 c bd i arg2 harg2 arg3 harg3 arg4 harg4 nb v5 X3 k acc f
      = (accStep acc.1 (slabT i nb v5 (colBlk arg3 X3) 0 k),
       accStep acc.2.1 (slabT i nb v5 (colBlk arg3 X3) 1 k),
       accStep acc.2.2.1 (slabT i nb v5 (colBlk arg3 X3) 2 k),
       accStep acc.2.2.2.1 (slabT i nb v5 (colBlk arg3 X3) 3 k),
       accStep acc.2.2.2.2.1 (slabT i nb v5 (colBlk arg3 X3) 4 k),
       accStep acc.2.2.2.2.2.1 (slabT i nb v5 (colBlk arg3 X3) 5 k),
       accStep acc.2.2.2.2.2.2.1 (slabT i nb v5 (colBlk arg3 X3) 6 k),
       accStep acc.2.2.2.2.2.2.2.1 (slabT i nb v5 (colBlk arg3 X3) 7 k),
       accStep acc.2.2.2.2.2.2.2.2 (slabT i nb v5 (colBlk arg3 X3) 8 k)) := by
  unfold tripR_k0_t1 trip_k0_t1
  dsimp only
  sl_unfold_run_names
  rfl

/-- The loop's state before trip `k`: the running sums over the first `k` tiles and the stores of those tiles. -/
theorem st_eq (G : BufTy.Contents (Elt F) arg4.view.ty) : ∀ k : ℕ, k ≤ 8 →
    st_k0_t1 (F := F) 𝒱 c bd i arg2 harg2 arg3 harg3 arg4 harg4 nb v5 X3 G
        (k0_pay30, k0_pay31, k0_pay32, k0_pay33, k0_pay34, k0_pay35, k0_pay36, k0_pay37, k0_pay38) k
      = (accs i nb v5 (colBlk arg3 X3) k, loopPieces i nb v5 (colBlk arg3 X3) k)
  | 0, _ => rfl
  | k + 1, hk => by
    have hlt : k < k0_t1_loop.trips := by rw [trips_eq]; omega
    have ih := st_eq G k (by omega)
    have hs := st_k0_t1_succ (F := F) 𝒱 c bd i arg2 harg2 arg3 harg3 arg4 harg4 nb v5 X3 G
      (k0_pay30, k0_pay31, k0_pay32, k0_pay33, k0_pay34, k0_pay35, k0_pay36, k0_pay37, k0_pay38) ⟨k, hlt⟩
    rw [show (⟨k, hlt⟩ : Fin k0_t1_loop.trips).val + 1 = k + 1 from rfl] at hs
    rw [hs, show (⟨k, hlt⟩ : Fin k0_t1_loop.trips).val = k from rfl, ih, tripR_eq, tripL_eq]
    have hA : ∀ p : Fin 9, accT i nb v5 (colBlk arg3 X3) p (k + 1)
        = accStep (accT i nb v5 (colBlk arg3 X3) p k) (slabT i nb v5 (colBlk arg3 X3) p ⟨k, hlt⟩) := fun p => dif_pos hlt
    have hL : loopPieces i nb v5 (colBlk arg3 X3) (k + 1)
        = tilePieces i nb v5 (colBlk arg3 X3) ⟨k, hlt⟩ ++ loopPieces i nb v5 (colBlk arg3 X3) k := dif_pos hlt
    simp only [accs, hA, hL]

end

end Cert.Kernel.Hand

end
-- ==== Proof.KB.Cover.lean ====
/-
  Reading the output block after all the stores. The 72 stores of the column loop tile the block: plane
  `(c, c')`, columns of tile `k`, hold slab `3c + c'` of tile `k`; so whatever the block held before, after the loop
  it reads `slabAll`. Each diagonal store then covers exactly one of those tiles (the tile of the point's own
  atoms, in its plane) with the slab read back plus the negated row sum on the diagonal. Hence `outBlk`.
-/
import proofs.«406191_j17231408791693_3_alg».proof.Proof.KB.Tile
import Idealize.ShloMosaic.Lib.Pipeline.Value

set_option maxRecDepth 16384

noncomputable section

namespace Cert.Kernel.Hand

open Cert.Kernel Cert.Kernel.Gen
open Idealize.ShloMosaic Idealize.ShloMosaic.TcCoe Idealize.SL.Sem

variable {F : FTy → Type} [FloatOps F]

/-! ## Coordinates as numbers -/

/-- The block's coordinates are below its extents, written as numbers. -/
theorem idxS_lt (idx : S1x3x3x128x1024.Idx) :
    (idx 0).val < 1 ∧ (idx 1).val < 3 ∧ (idx 2).val < 3 ∧ (idx 3).val < 128 ∧ (idx 4).val < 1024 :=
  ⟨(idx 0).isLt, (idx 1).isLt, (idx 2).isLt, (idx 3).isLt, (idx 4).isLt⟩

/-- A one-plane, one-tile piece's coordinates are below its extents, written as numbers. -/
theorem idxT_lt (x : S1x1x1x128x128.Idx) :
    (x 0).val < 1 ∧ (x 1).val < 1 ∧ (x 2).val < 1 ∧ (x 3).val < 128 ∧ (x 4).val < 128 :=
  ⟨(x 0).isLt, (x 1).isLt, (x 2).isLt, (x 3).isLt, (x 4).isLt⟩

/-! ## The rectangle of plane `(a, b)`, tile `t` -/

/-- An index lies in the rectangle at offsets `(0, a, b, 0, 128 t)` of one plane and 128 × 128 entries exactly when it
    is in plane `(a, b)` and its column is in tile `t`. -/
theorem mem_tile {off : Fin 5 → ℕ} {inb : ∀ a, off a + S1x1x1x128x128.size a ≤ S1x3x3x128x1024.size a} {a b t : ℕ}
    (hoff : off = ![0, a, b, 0, 128 * t]) (idx : S1x3x3x128x1024.Idx) :
    idx ∈ (Rect.unit (s := S1x3x3x128x1024) off S1x1x1x128x128.size inb).set
      ↔ (idx 1).val = a ∧ (idx 2).val = b ∧ (idx 4).val / 128 = t := by
  subst hoff
  rw [Rect.mem_set_unit]
  obtain ⟨h0, h1, h2, h3, h4⟩ := idxS_lt idx
  constructor
  · intro h
    have e1 : a ≤ (idx 1).val ∧ (idx 1).val < a + 1 := h 1
    have e2 : b ≤ (idx 2).val ∧ (idx 2).val < b + 1 := h 2
    have e4 : 128 * t ≤ (idx 4).val ∧ (idx 4).val < 128 * t + 128 := h 4
    omega
  · rintro ⟨e1, e2, e4⟩
    have key : ∀ k : Fin 5, (![0, a, b, 0, 128 * t] : Fin 5 → ℕ) k ≤ (idx k).val
        ∧ (idx k).val < (![0, a, b, 0, 128 * t] : Fin 5 → ℕ) k + (![1, 1, 1, 128, 128] : Fin 5 → ℕ) k := by
      intro k
      match k with
      | ⟨0, _⟩ => exact (show 0 ≤ (idx 0).val ∧ (idx 0).val < 0 + 1 by omega)
      | ⟨1, _⟩ => exact (show a ≤ (idx 1).val ∧ (idx 1).val < a + 1 by omega)
      | ⟨2, _⟩ => exact (show b ≤ (idx 2).val ∧ (idx 2).val < b + 1 by omega)
      | ⟨3, _⟩ => exact (show 0 ≤ (idx 3).val ∧ (idx 3).val < 0 + 128 by omega)
      | ⟨4, _⟩ => exact (show 128 * t ≤ (idx 4).val ∧ (idx 4).val < 128 * t + 128 by omega)
    exact key

/-- The coordinates of the rectangle's own index `x` placed in the block. -/
theorem emb_tile {off : Fin 5 → ℕ} {inb : ∀ a, off a + S1x1x1x128x128.size a ≤ S1x3x3x128x1024.size a} {a b t : ℕ}
    (hoff : off = ![0, a, b, 0, 128 * t]) (x : S1x1x1x128x128.Idx) :
    ((Rect.unit (s := S1x3x3x128x1024) off S1x1x1x128x128.size inb).emb x 1).val = a
    ∧ ((Rect.unit (s := S1x3x3x128x1024) off S1x1x1x128x128.size inb).emb x 2).val = b
    ∧ ((Rect.unit (s := S1x3x3x128x1024) off S1x1x1x128x128.size inb).emb x 3).val = (x 3).val
    ∧ ((Rect.unit (s := S1x3x3x128x1024) off S1x1x1x128x128.size inb).emb x 4).val = 128 * t + (x 4).val := by
  subst hoff
  obtain ⟨h0, h1, h2, h3, h4⟩ := idxT_lt x
  refine ⟨?_, ?_, ?_, ?_⟩
  · show a + 1 * (x 1).val = a; omega
  · show b + 1 * (x 2).val = b; omega
  · show 0 + 1 * (x 3).val = (x 3).val; omega
  · show 128 * t + 1 * (x 4).val = 128 * t + (x 4).val; omega

/-! ## A slab as a piece, read at the piece's index -/

/-- A slab stored as a one-plane, one-tile piece reads, at the piece's index `x`, the slab at row `x 3`, column `x 4`. -/
theorem up_apply (s : FVec F S128x128 .f32) (x : S1x1x1x128x128.Idx) :
    up s x = s (ValueIdx.ix2 (⟨(x 3).val, (idxT_lt x).2.2.2.1⟩ : Fin 128) (⟨(x 4).val, (idxT_lt x).2.2.2.2⟩ : Fin 128)) := by
  obtain ⟨h0, h1, h2, h3, h4⟩ := idxT_lt x
  refine shapeCast_apply s _ x _ ?_
  rw [Shape.rowMajor_val_two, Shape.rowMajor_val_five]
  show (x 3).val * 128 + (x 4).val
    = (((((x 0).val * 1 + (x 1).val) * 1 + (x 2).val) * 128 + (x 3).val) * 128 + (x 4).val)
  omega

/-- Stored as a piece and read back as a slab, a slab is itself. -/
theorem down_up (s : FVec F S128x128 .f32) : down (up s) = s :=
  shapeCast_shapeCast s _ _

/-! ## Where a rectangle's index lands: plane, tile, cell -/

theorem planeOf_emb {off : Fin 5 → ℕ} {inb : ∀ a, off a + S1x1x1x128x128.size a ≤ S1x3x3x128x1024.size a} {a b t : ℕ}
    (hoff : off = ![0, a, b, 0, 128 * t]) (pl : Fin 9) (hpl : pl.val = 3 * a + b) (x : S1x1x1x128x128.Idx) :
    planeOf ((Rect.unit (s := S1x3x3x128x1024) off S1x1x1x128x128.size inb).emb x) = pl := by
  obtain ⟨e1, e2, e3, e4⟩ := emb_tile (inb := inb) hoff x
  apply Fin.ext
  show 3 * ((Rect.unit (s := S1x3x3x128x1024) off S1x1x1x128x128.size inb).emb x 1).val
    + ((Rect.unit (s := S1x3x3x128x1024) off S1x1x1x128x128.size inb).emb x 2).val = pl.val
  rw [e1, e2, hpl]

theorem tileOf_emb {off : Fin 5 → ℕ} {inb : ∀ a, off a + S1x1x1x128x128.size a ≤ S1x3x3x128x1024.size a} {a b : ℕ}
    (k : Fin k0_t1_loop.trips) (hoff : off = ![0, a, b, 0, 128 * k.val]) (x : S1x1x1x128x128.Idx) :
    tileOf ((Rect.unit (s := S1x3x3x128x1024) off S1x1x1x128x128.size inb).emb x) = k := by
  obtain ⟨e1, e2, e3, e4⟩ := emb_tile (inb := inb) hoff x
  obtain ⟨h0, h1, h2, h3, h4⟩ := idxT_lt x
  apply Fin.ext
  show ((Rect.unit (s := S1x3x3x128x1024) off S1x1x1x128x128.size inb).emb x 4).val / 128 = k.val
  rw [e4]; omega

theorem cellOf_emb {off : Fin 5 → ℕ} {inb : ∀ a, off a + S1x1x1x128x128.size a ≤ S1x3x3x128x1024.size a} {a b t : ℕ}
    (hoff : off = ![0, a, b, 0, 128 * t]) (x : S1x1x1x128x128.Idx) :
    cellOf ((Rect.unit (s := S1x3x3x128x1024) off S1x1x1x128x128.size inb).emb x)
      = ValueIdx.ix2 (⟨(x 3).val, (idxT_lt x).2.2.2.1⟩ : Fin 128) (⟨(x 4).val, (idxT_lt x).2.2.2.2⟩ : Fin 128) := by
  obtain ⟨e1, e2, e3, e4⟩ := emb_tile (inb := inb) hoff x
  obtain ⟨h0, h1, h2, h3, h4⟩ := idxT_lt x
  refine Shape.idx_ext₂ ?_ ?_
  · show ((Rect.unit (s := S1x3x3x128x1024) off S1x1x1x128x128.size inb).emb x 3).val = (x 3).val
    exact e3
  · show ((Rect.unit (s := S1x3x3x128x1024) off S1x1x1x128x128.size inb).emb x 4).val % 128 = (x 4).val
    rw [e4]; omega

section Point

variable (i : grid0.Coords) (nb : Elt F .i32) (v5 : Vec F S1x128x3 .f32)
  (xj : Fin k0_t1_loop.trips → Vec F S1x128x3 .f32)

/-! ## The loop's stores restrict `slabAll` and cover the block -/

/-- Slab `3a + b` of tile `k`, stored at plane `(a, b)`, tile `k`, is `slabAll` there. -/
theorem piece_slabAll {off : Fin 5 → ℕ} {inb : ∀ a, off a + S1x1x1x128x128.size a ≤ S1x3x3x128x1024.size a} {a b : ℕ}
    (k : Fin k0_t1_loop.trips) (hoff : off = ![0, a, b, 0, 128 * k.val]) (pl : Fin 9) (hpl : pl.val = 3 * a + b)
    (x : S1x1x1x128x128.Idx) :
    up (slabT i nb v5 xj pl k) x
      = slabAll i nb v5 xj ((Rect.unit (s := S1x3x3x128x1024) off S1x1x1x128x128.size inb).emb x) := by
  rw [slabAll, planeOf_emb hoff pl hpl x, tileOf_emb k hoff x, cellOf_emb hoff x, up_apply]

theorem tilePieces_slabAll (k : Fin k0_t1_loop.trips) :
    ∀ p ∈ tilePieces i nb v5 xj k, ∀ x : p.1.shape.Idx, p.2 x = slabAll i nb v5 xj (p.1.emb x) := by
  intro p hp
  simp only [tilePieces, List.mem_cons, List.not_mem_nil, or_false] at hp
  rcases hp with rfl | rfl | rfl | rfl | rfl | rfl | rfl | rfl | rfl
  · exact piece_slabAll i nb v5 xj (inb := k0_off12_inb k) k (k0_off12_eq k) 8 rfl
  · exact piece_slabAll i nb v5 xj (inb := k0_off11_inb k) k (k0_off11_eq k) 7 rfl
  · exact piece_slabAll i nb v5 xj (inb := k0_off10_inb k) k (k0_off10_eq k) 6 rfl
  · exact piece_slabAll i nb v5 xj (inb := k0_off9_inb k) k (k0_off9_eq k) 5 rfl
  · exact piece_slabAll i nb v5 xj (inb := k0_off8_inb k) k (k0_off8_eq k) 4 rfl
  · exact piece_slabAll i nb v5 xj (inb := k0_off7_inb k) k (k0_off7_eq k) 3 rfl
  · exact piece_slabAll i nb v5 xj (inb := k0_off6_inb k) k (k0_off6_eq k) 2 rfl
  · exact piece_slabAll i nb v5 xj (inb := k0_off5_inb k) k (k0_off5_eq k) 1 rfl
  · exact piece_slabAll i nb v5 xj (inb := k0_off4_inb k) k (k0_off4_eq k) 0 rfl

theorem loopPieces_slabAll : ∀ n : ℕ, ∀ p ∈ loopPieces i nb v5 xj n, ∀ x : p.1.shape.Idx,
    p.2 x = slabAll i nb v5 xj (p.1.emb x)
  | 0 => fun p hp => absurd hp List.not_mem_nil
  | n + 1 => fun p hp => by
    rw [loopPieces] at hp
    split at hp
    · rcases List.mem_append.mp hp with h | h
      · exact tilePieces_slabAll i nb v5 xj _ p h
      · exact loopPieces_slabAll n p h
    · exact loopPieces_slabAll n p hp

/-- Every entry in tile `k`'s columns lies under one of tile `k`'s nine stores: the one of its plane. -/
theorem tilePieces_cover (k : Fin k0_t1_loop.trips) (idx : S1x3x3x128x1024.Idx) (hk : (idx 4).val / 128 = k.val) :
    ∃ p ∈ tilePieces i nb v5 xj k, idx ∈ p.1.set := by
  obtain ⟨h0, h1, h2, h3, h4⟩ := idxS_lt idx
  have c1 : (idx 1).val = 0 ∨ (idx 1).val = 1 ∨ (idx 1).val = 2 := by omega
  have c2 : (idx 2).val = 0 ∨ (idx 2).val = 1 ∨ (idx 2).val = 2 := by omega
  rcases c1 with e1 | e1 | e1 <;> rcases c2 with e2 | e2 | e2
  · exact ⟨_, .tail _ (.tail _ (.tail _ (.tail _ (.tail _ (.tail _ (.tail _ (.tail _ (.head _)))))))),
      (mem_tile (inb := k0_off4_inb k) (k0_off4_eq k) idx).mpr ⟨e1, e2, hk⟩⟩
  · exact ⟨_, .tail _ (.tail _ (.tail _ (.tail _ (.tail _ (.tail _ (.tail _ (.head _))))))),
      (mem_tile (inb := k0_off5_inb k) (k0_off5_eq k) idx).mpr ⟨e1, e2, hk⟩⟩
  · exact ⟨_, .tail _ (.tail _ (.tail _ (.tail _ (.tail _ (.tail _ (.head _)))))),
      (mem_tile (inb := k0_off6_inb k) (k0_off6_eq k) idx).mpr ⟨e1, e2, hk⟩⟩
  · exact ⟨_, .tail _ (.tail _ (.tail _ (.tail _ (.tail _ (.head _))))),
      (mem_tile (inb := k0_off7_inb k) (k0_off7_eq k) idx).mpr ⟨e1, e2, hk⟩⟩
  · exact ⟨_, .tail _ (.tail _ (.tail _ (.tail _ (.head _)))),
      (mem_tile (inb := k0_off8_inb k) (k0_off8_eq k) idx).mpr ⟨e1, e2, hk⟩⟩
  · exact ⟨_, .tail _ (.tail _ (.tail _ (.head _))),
      (mem_tile (inb := k0_off9_inb k) (k0_off9_eq k) idx).mpr ⟨e1, e2, hk⟩⟩
  · exact ⟨_, .tail _ (.tail _ (.head _)),
      (mem_tile (inb := k0_off10_inb k) (k0_off10_eq k) idx).mpr ⟨e1, e2, hk⟩⟩
  · exact ⟨_, .tail _ (.head _),
      (mem_tile (inb := k0_off11_inb k) (k0_off11_eq k) idx).mpr ⟨e1, e2, hk⟩⟩
  · exact ⟨_, .head _,
      (mem_tile (inb := k0_off12_inb k) (k0_off12_eq k) idx).mpr ⟨e1, e2, hk⟩⟩

/-- Tile `k`'s stores are among the stores of the first `n` tiles once `k < n`. -/
theorem tilePieces_sub_loopPieces (k : Fin k0_t1_loop.trips) :
    ∀ n : ℕ, k.val < n → ∀ p ∈ tilePieces i nb v5 xj k, p ∈ loopPieces i nb v5 xj n
  | 0, h => absurd h (Nat.not_lt_zero _)
  | n + 1, h => fun p hp => by
    rw [loopPieces]
    by_cases hn : n < k0_t1_loop.trips
    · rw [dif_pos hn]
      by_cases hkn : k.val = n
      · obtain rfl : k = ⟨n, hn⟩ := Fin.ext hkn
        exact List.mem_append_left _ hp
      · exact List.mem_append_right _ (tilePieces_sub_loopPieces k n (by omega) p hp)
    · rw [dif_neg hn]
      exact tilePieces_sub_loopPieces k n (by have := k.isLt; omega) p hp

/-- The 72 stores of the loop cover the block. -/
theorem loopPieces_cover (idx : S1x3x3x128x1024.Idx) : ∃ p ∈ loopPieces i nb v5 xj 8, idx ∈ p.1.set := by
  obtain ⟨p, hp, hm⟩ := tilePieces_cover i nb v5 xj (tileOf idx) idx rfl
  exact ⟨p, tilePieces_sub_loopPieces i nb v5 xj (tileOf idx) 8 (by have h := (tileOf idx).isLt; have h8 := trips_eq; omega) p hp, hm⟩

variable (arg4 : Memref sig .tc .vmem S1x3x3x128x1024 .f32) (f : BufTy.Contents (Elt F) arg4.view.ty)

/-- After the loop the block reads `slabAll`, whatever it held before. -/
theorem read_afterLoop : arg4.view.read (Elt F) (afterLoop i nb v5 xj arg4 f) = slabAll i nb v5 xj :=
  funext fun y => View.read_writes_apply_of_pieces arg4.view f (slabAll i nb v5 xj) (loopPieces i nb v5 xj 8)
    (loopPieces_slabAll i nb v5 xj 8) y (loopPieces_cover i nb v5 xj y)

end Point

/-! ## The diagonal stores -/

section Diag

variable (i : grid0.Coords) (nb : Elt F .i32) (v5 : Vec F S1x128x3 .f32)
  (xj : Fin k0_t1_loop.trips → Vec F S1x128x3 .f32)

/-- The tile that holds the point's own atoms. -/
def diagTile : Fin k0_t1_loop.trips := ⟨(i 1).val, by rw [trips_eq]; exact (i 1).isLt⟩

/-- Plane `p`'s slab on the diagonal tile plus the negated row sum on the diagonal. -/
def diagSlab (p : Fin 9) : FVec F S128x128 .f32 :=
  addf (slabT i nb v5 xj p (diagTile i)) (negDiag (accT i nb v5 xj p 8))

/-- The function of the block's index that the nine corrected slabs restrict. -/
def diagAll (idx : S1x3x3x128x1024.Idx) : F .f32 :=
  addf (slabT i nb v5 xj (planeOf idx) (tileOf idx)) (negDiag (accT i nb v5 xj (planeOf idx) 8)) (cellOf idx)

/-- The corrected slab `3a + b`, stored at plane `(a, b)` of the diagonal tile, is `diagAll` there. -/
theorem piece_diagAll {off : Fin 5 → ℕ} {inb : ∀ a, off a + S1x1x1x128x128.size a ≤ S1x3x3x128x1024.size a} {a b : ℕ}
    (hoff : off = ![0, a, b, 0, 128 * (i 1).val]) (pl : Fin 9) (hpl : pl.val = 3 * a + b)
    (x : S1x1x1x128x128.Idx) :
    up (diagSlab i nb v5 xj pl) x
      = diagAll i nb v5 xj ((Rect.unit (s := S1x3x3x128x1024) off S1x1x1x128x128.size inb).emb x) := by
  rw [diagAll, planeOf_emb hoff pl hpl x, tileOf_emb (diagTile i) hoff x, cellOf_emb hoff x, up_apply]
  rfl

/-- The nine diagonal stores (latest first), each the corrected slab of its plane. -/
def diagPieces : List (View.Piece (Elt F) S1x3x3x128x1024 .f32) :=
  [
   ⟨Rect.unit (s := S1x3x3x128x1024) (k0_off21 i) S1x1x1x128x128.size (k0_off21_inb i), up (diagSlab i nb v5 xj 8)⟩,
   ⟨Rect.unit (s := S1x3x3x128x1024) (k0_off20 i) S1x1x1x128x128.size (k0_off20_inb i), up (diagSlab i nb v5 xj 7)⟩,
   ⟨Rect.unit (s := S1x3x3x128x1024) (k0_off19 i) S1x1x1x128x128.size (k0_off19_inb i), up (diagSlab i nb v5 xj 6)⟩,
   ⟨Rect.unit (s := S1x3x3x128x1024) (k0_off18 i) S1x1x1x128x128.size (k0_off18_inb i), up (diagSlab i nb v5 xj 5)⟩,
   ⟨Rect.unit (s := S1x3x3x128x1024) (k0_off17 i) S1x1x1x128x128.size (k0_off17_inb i), up (diagSlab i nb v5 xj 4)⟩,
   ⟨Rect.unit (s := S1x3x3x128x1024) (k0_off16 i) S1x1x1x128x128.size (k0_off16_inb i), up (diagSlab i nb v5 xj 3)⟩,
   ⟨Rect.unit (s := S1x3x3x128x1024) (k0_off15 i) S1x1x1x128x128.size (k0_off15_inb i), up (diagSlab i nb v5 xj 2)⟩,
   ⟨Rect.unit (s := S1x3x3x128x1024) (k0_off14 i) S1x1x1x128x128.size (k0_off14_inb i), up (diagSlab i nb v5 xj 1)⟩,
   ⟨Rect.unit (s := S1x3x3x128x1024) (k0_off13 i) S1x1x1x128x128.size (k0_off13_inb i), up (diagSlab i nb v5 xj 0)⟩]

theorem diagPieces_diagAll :
    ∀ p ∈ diagPieces i nb v5 xj, ∀ x : p.1.shape.Idx, p.2 x = diagAll i nb v5 xj (p.1.emb x) := by
  intro p hp
  simp only [diagPieces, List.mem_cons, List.not_mem_nil, or_false] at hp
  rcases hp with rfl | rfl | rfl | rfl | rfl | rfl | rfl | rfl | rfl
  · exact piece_diagAll i nb v5 xj (inb := k0_off21_inb i) (k0_off21_eq i) 8 rfl
  · exact piece_diagAll i nb v5 xj (inb := k0_off20_inb i) (k0_off20_eq i) 7 rfl
  · exact piece_diagAll i nb v5 xj (inb := k0_off19_inb i) (k0_off19_eq i) 6 rfl
  · exact piece_diagAll i nb v5 xj (inb := k0_off18_inb i) (k0_off18_eq i) 5 rfl
  · exact piece_diagAll i nb v5 xj (inb := k0_off17_inb i) (k0_off17_eq i) 4 rfl
  · exact piece_diagAll i nb v5 xj (inb := k0_off16_inb i) (k0_off16_eq i) 3 rfl
  · exact piece_diagAll i nb v5 xj (inb := k0_off15_inb i) (k0_off15_eq i) 2 rfl
  · exact piece_diagAll i nb v5 xj (inb := k0_off14_inb i) (k0_off14_eq i) 1 rfl
  · exact piece_diagAll i nb v5 xj (inb := k0_off13_inb i) (k0_off13_eq i) 0 rfl

/-- An entry in the diagonal tile's columns lies under the diagonal store of its plane; -/
theorem diagPieces_cover (idx : S1x3x3x128x1024.Idx) (h : (idx 4).val / 128 = (i 1).val) :
    ∃ p ∈ diagPieces i nb v5 xj, idx ∈ p.1.set := by
  obtain ⟨h0, h1, h2, h3, h4⟩ := idxS_lt idx
  have c1 : (idx 1).val = 0 ∨ (idx 1).val = 1 ∨ (idx 1).val = 2 := by omega
  have c2 : (idx 2).val = 0 ∨ (idx 2).val = 1 ∨ (idx 2).val = 2 := by omega
  rcases c1 with e1 | e1 | e1 <;> rcases c2 with e2 | e2 | e2
  · exact ⟨_, .tail _ (.tail _ (.tail _ (.tail _ (.tail _ (.tail _ (.tail _ (.tail _ (.head _)))))))),
      (mem_tile (inb := k0_off13_inb i) (k0_off13_eq i) idx).mpr ⟨e1, e2, h⟩⟩
  · exact ⟨_, .tail _ (.tail _ (.tail _ (.tail _ (.tail _ (.tail _ (.tail _ (.head _))))))),
      (mem_tile (inb := k0_off14_inb i) (k0_off14_eq i) idx).mpr ⟨e1, e2, h⟩⟩
  · exact ⟨_, .tail _ (.tail _ (.tail _ (.tail _ (.tail _ (.tail _ (.head _)))))),
      (mem_tile (inb := k0_off15_inb i) (k0_off15_eq i) idx).mpr ⟨e1, e2, h⟩⟩
  · exact ⟨_, .tail _ (.tail _ (.tail _ (.tail _ (.tail _ (.head _))))),
      (mem_tile (inb := k0_off16_inb i) (k0_off16_eq i) idx).mpr ⟨e1, e2, h⟩⟩
  · exact ⟨_, .tail _ (.tail _ (.tail _ (.tail _ (.head _)))),
      (mem_tile (inb := k0_off17_inb i) (k0_off17_eq i) idx).mpr ⟨e1, e2, h⟩⟩
  · exact ⟨_, .tail _ (.tail _ (.tail _ (.head _))),
      (mem_tile (inb := k0_off18_inb i) (k0_off18_eq i) idx).mpr ⟨e1, e2, h⟩⟩
  · exact ⟨_, .tail _ (.tail _ (.head _)),
      (mem_tile (inb := k0_off19_inb i) (k0_off19_eq i) idx).mpr ⟨e1, e2, h⟩⟩
  · exact ⟨_, .tail _ (.head _),
      (mem_tile (inb := k0_off20_inb i) (k0_off20_eq i) idx).mpr ⟨e1, e2, h⟩⟩
  · exact ⟨_, .head _,
      (mem_tile (inb := k0_off21_inb i) (k0_off21_eq i) idx).mpr ⟨e1, e2, h⟩⟩

/-- an entry in another tile's columns lies under none. -/
theorem diagPieces_miss (idx : S1x3x3x128x1024.Idx) (h : ¬ (idx 4).val / 128 = (i 1).val) :
    ∀ p ∈ diagPieces i nb v5 xj, idx ∉ p.1.set := by
  intro p hp
  simp only [diagPieces, List.mem_cons, List.not_mem_nil, or_false] at hp
  rcases hp with rfl | rfl | rfl | rfl | rfl | rfl | rfl | rfl | rfl
  · exact fun hm => h ((mem_tile (inb := k0_off21_inb i) (k0_off21_eq i) idx).mp hm).2.2
  · exact fun hm => h ((mem_tile (inb := k0_off20_inb i) (k0_off20_eq i) idx).mp hm).2.2
  · exact fun hm => h ((mem_tile (inb := k0_off19_inb i) (k0_off19_eq i) idx).mp hm).2.2
  · exact fun hm => h ((mem_tile (inb := k0_off18_inb i) (k0_off18_eq i) idx).mp hm).2.2
  · exact fun hm => h ((mem_tile (inb := k0_off17_inb i) (k0_off17_eq i) idx).mp hm).2.2
  · exact fun hm => h ((mem_tile (inb := k0_off16_inb i) (k0_off16_eq i) idx).mp hm).2.2
  · exact fun hm => h ((mem_tile (inb := k0_off15_inb i) (k0_off15_eq i) idx).mp hm).2.2
  · exact fun hm => h ((mem_tile (inb := k0_off14_inb i) (k0_off14_eq i) idx).mp hm).2.2
  · exact fun hm => h ((mem_tile (inb := k0_off13_inb i) (k0_off13_eq i) idx).mp hm).2.2

variable (arg4 : Memref sig .tc .vmem S1x3x3x128x1024 .f32) (f : BufTy.Contents (Elt F) arg4.view.ty)

/-- Read back after the loop, the load of plane `(a, b)`, tile `k` is the slab stored there. -/
theorem readAt_afterLoop {off : Fin 5 → ℕ} {inb : ∀ a, off a + S1x1x1x128x128.size a ≤ S1x3x3x128x1024.size a} {a b : ℕ}
    (k : Fin k0_t1_loop.trips) (hoff : off = ![0, a, b, 0, 128 * k.val]) (pl : Fin 9) (hpl : pl.val = 3 * a + b) :
    View.readAt (Elt F) arg4.view (Rect.unit (s := S1x3x3x128x1024) off S1x1x1x128x128.size inb).toLoadRect
      (afterLoop i nb v5 xj arg4 f) = up (slabT i nb v5 xj pl k) := by
  funext x
  rw [View.readAt_apply, read_afterLoop]
  exact (piece_slabAll i nb v5 xj (inb := inb) k hoff pl hpl x).symm

/-- After the first diagonal store, an entry outside plane `(0, 0)` still reads its slab. -/
theorem read_afterFirst_of_plane_ne (idx : S1x3x3x128x1024.Idx) (h : ¬ ((idx 1).val = 0 ∧ (idx 2).val = 0)) :
    arg4.view.read (Elt F) (afterFirst i nb v5 xj arg4 f) idx = slabAll i nb v5 xj idx := by
  unfold afterFirst
  refine (View.read_writes_apply_of_forall_not_mem arg4.view _ idx _ ?_).trans
    (congrFun (read_afterLoop i nb v5 xj arg4 f) idx)
  intro p hp
  obtain rfl := List.mem_singleton.mp hp
  exact fun hm => h ⟨((mem_tile (inb := k0_off13_inb i) (k0_off13_eq i) idx).mp hm).1,
    ((mem_tile (inb := k0_off13_inb i) (k0_off13_eq i) idx).mp hm).2.1⟩

/-- So the loads of the other eight planes' diagonal tiles, made after the first diagonal store, are the slabs the
    loop stored there. -/
theorem readAt_afterFirst {off : Fin 5 → ℕ} {inb : ∀ a, off a + S1x1x1x128x128.size a ≤ S1x3x3x128x1024.size a} {a b : ℕ}
    (hoff : off = ![0, a, b, 0, 128 * (i 1).val]) (pl : Fin 9) (hpl : pl.val = 3 * a + b) (hne : ¬ (a = 0 ∧ b = 0)) :
    View.readAt (Elt F) arg4.view (Rect.unit (s := S1x3x3x128x1024) off S1x1x1x128x128.size inb).toLoadRect
      (afterFirst i nb v5 xj arg4 f) = up (slabT i nb v5 xj pl (diagTile i)) := by
  funext x
  obtain ⟨e1, e2, e3, e4⟩ := emb_tile (inb := inb) hoff x
  rw [View.readAt_apply]
  refine (read_afterFirst_of_plane_ne i nb v5 xj arg4 f
    ((Rect.unit (s := S1x3x3x128x1024) off S1x1x1x128x128.size inb).emb x) (by rw [e1, e2]; exact hne)).trans ?_
  exact (piece_slabAll i nb v5 xj (inb := inb) (diagTile i) hoff pl hpl x).symm

/-- The buffer at the end is the nine corrected slabs stored over what the loop left. -/
theorem outOf_eq : outOf i nb v5 xj arg4 f
    = arg4.view.writes (Elt F) (afterLoop i nb v5 xj arg4 f) (diagPieces i nb v5 xj) := by
  unfold outOf
  rw [readAt_afterFirst i nb v5 xj arg4 f (inb := k0_off21_inb i) (k0_off21_eq i) 8 rfl (by decide),
    readAt_afterFirst i nb v5 xj arg4 f (inb := k0_off20_inb i) (k0_off20_eq i) 7 rfl (by decide),
    readAt_afterFirst i nb v5 xj arg4 f (inb := k0_off19_inb i) (k0_off19_eq i) 6 rfl (by decide),
    readAt_afterFirst i nb v5 xj arg4 f (inb := k0_off18_inb i) (k0_off18_eq i) 5 rfl (by decide),
    readAt_afterFirst i nb v5 xj arg4 f (inb := k0_off17_inb i) (k0_off17_eq i) 4 rfl (by decide),
    readAt_afterFirst i nb v5 xj arg4 f (inb := k0_off16_inb i) (k0_off16_eq i) 3 rfl (by decide),
    readAt_afterFirst i nb v5 xj arg4 f (inb := k0_off15_inb i) (k0_off15_eq i) 2 rfl (by decide),
    readAt_afterFirst i nb v5 xj arg4 f (inb := k0_off14_inb i) (k0_off14_eq i) 1 rfl (by decide)]
  unfold afterFirst
  rw [readAt_afterLoop i nb v5 xj arg4 f (inb := k0_off13_inb i) (diagTile i) (k0_off13_eq i) 0 rfl]
  simp only [diagPay, down_up]
  rw [← View.writes_append]
  unfold diagPieces diagSlab
  simp only [List.cons_append, List.nil_append]

end Diag

/-- The block's buffer at the end, read through its memref, is `outBlk`, whatever it held at the start. -/
theorem read_outOf (i : grid0.Coords) (nb : Elt F .i32) (v5 : Vec F S1x128x3 .f32)
    (xj : Fin k0_t1_loop.trips → Vec F S1x128x3 .f32)
    (arg4 : Memref sig .tc .vmem S1x3x3x128x1024 .f32) (harg4 : arg4.IsWhole)
    (f : BufTy.Contents (Elt F) arg4.view.ty) :
    arg4.view.read (Elt F) (outOf i nb v5 xj arg4 f) = outBlk i nb v5 xj := by
  funext idx
  rw [outOf_eq]
  unfold outBlk
  by_cases h : (idx 4).val / 128 = (i 1).val
  · rw [if_pos h]
    exact View.read_writes_apply_of_pieces arg4.view _ (diagAll i nb v5 xj) (diagPieces i nb v5 xj)
      (diagPieces_diagAll i nb v5 xj) idx (diagPieces_cover i nb v5 xj idx h)
  · rw [if_neg h]
    exact (View.read_writes_apply_of_forall_not_mem arg4.view _ idx _ (diagPieces_miss i nb v5 xj idx h)).trans
      (congrFun (read_afterLoop i nb v5 xj arg4 f) idx)

end Cert.Kernel.Hand

end
-- ==== Proof.KB.Out.lean ====
/-
  What one grid point leaves in the output block, in the tile vocabulary: the run's result, opened once, is the
  stores of the eight tiles, then the nine diagonal slabs read back, corrected by the negated row sums and
  stored again; read as a function of the block's index it is `outBlk`.
-/
import proofs.«406191_j17231408791693_3_alg».proof.Proof.KB.Body
import proofs.«406191_j17231408791693_3_alg».proof.Proof.KB.Trip
import proofs.«406191_j17231408791693_3_alg».proof.Proof.KB.Cover

set_option maxRecDepth 16384

noncomputable section

namespace Cert.Kernel.Hand

open Cert.Kernel Cert.Kernel.Gen
open Idealize.ShloMosaic Idealize.ShloMosaic.TcCoe Idealize.ShloMosaic.Tactic Idealize.SL.Sem

variable {F : FTy → Type} [FloatOps F]

/-- The atom count of the point's batch, as the body loads it from the table. -/
abbrev nbW (c : Dev nD) (i : grid0.Coords) (xt0 : TbBuf (F := F) c tbM) : Elt F .i32 :=
  View.readAt (Elt F) tbM.view (Rect.unit (s := S8) (k0_off1 i) S1.size (k0_off1_inb i)).toLoadRect xt0
    (Shape.Idx.first (numel1_S1.symm ▸ Nat.one_pos))

/-- The point's own 128 atoms, read off the coordinate block's buffer. -/
abbrev rowBlk (i : grid0.Coords) (arg3 : Memref sig .tc .vmem S1x1024x3 .f32) (X3 : BufTy.Contents (Elt F) arg3.view.ty) :
    Vec F S1x128x3 .f32 :=
  View.readAt (Elt F) arg3.view (Rect.unit (s := S1x1024x3) (k0_off2 i) S1x128x3.size (k0_off2_inb i)).toLoadRect X3

/-- Read off the buffer of a whole memref, they are the reads off the block itself. -/
theorem rowBlk_eq (i : grid0.Coords) (arg3 : Memref sig .tc .vmem S1x1024x3 .f32) (harg3 : arg3.IsWhole) (x0 : Vec F S1x1024x3 .f32) :
    rowBlk i arg3 (harg3.unread x0) = rowsOf i x0 := by
  unfold rowBlk rowsOf; rw [View.readAt_eq_ld, harg3.read_unread]
theorem colBlk_eq (arg3 : Memref sig .tc .vmem S1x1024x3 .f32) (harg3 : arg3.IsWhole) (x0 : Vec F S1x1024x3 .f32) :
    colBlk arg3 (harg3.unread x0) = colsOf x0 := by
  funext k; unfold colBlk colsOf; rw [View.readAt_eq_ld, harg3.read_unread]

/-- The nine diagonal payloads as the body spells them are all `diagPay`: the slab read back plus the negated row sum
    on the diagonal. -/
theorem dp0 (a : FVec F S128x1 .f32) (cur : Vec F S1x1x1x128x128 .f32) : k0_pay47 (k0_pay46 a) cur = diagPay a cur := rfl
theorem dp1 (a : FVec F S128x1 .f32) (cur : Vec F S1x1x1x128x128 .f32) : k0_pay48 (k0_pay29 (F := F)) a cur = diagPay a cur := rfl
theorem dp2 (a : FVec F S128x1 .f32) (cur : Vec F S1x1x1x128x128 .f32) : k0_pay49 (k0_pay29 (F := F)) a cur = diagPay a cur := rfl
theorem dp3 (a : FVec F S128x1 .f32) (cur : Vec F S1x1x1x128x128 .f32) :
    k0_pay50 (k0_pay29 (F := F)) a (FloatOps.ofBits FTy.f32 0#32) cur = diagPay a cur := rfl
theorem dp4 (a : FVec F S128x1 .f32) (cur : Vec F S1x1x1x128x128 .f32) : k0_pay51 (k0_pay29 (F := F)) a cur = diagPay a cur := rfl
theorem dp5 (a : FVec F S128x1 .f32) (cur : Vec F S1x1x1x128x128 .f32) : k0_pay53 (k0_pay52 (k0_pay29 (F := F)) a cur) = diagPay a cur := rfl
theorem dp6 (a : FVec F S128x1 .f32) (cur : Vec F S1x1x1x128x128 .f32) : k0_pay54 (k0_pay29 (F := F)) a cur = diagPay a cur := rfl
theorem dp7 (a : FVec F S128x1 .f32) (cur : Vec F S1x1x1x128x128 .f32) : k0_pay55 (k0_pay29 (F := F)) a cur = diagPay a cur := rfl
theorem dp8 (a : FVec F S128x1 .f32) (cur : Vec F S1x1x1x128x128 .f32) : k0_pay1 (k0_pay56 (k0_pay29 (F := F)) a) cur = diagPay a cur := rfl

/-- A single store through a rectangle is the one-piece list of stores. -/
theorem write_access (arg4 : Memref sig .tc .vmem S1x3x3x128x1024 .f32) (r : Rect S1x3x3x128x1024)
    (g : BufTy.Contents (Elt F) arg4.view.ty) (w : r.shape.Idx → Elt F .f32) :
    View.write (Elt F) (arg4.access r) g w Finset.univ = arg4.view.writes (Elt F) g [⟨r, w⟩] := rfl

set_option maxHeartbeats 1000000 in
/-- The run's result, opened once: the explicit chain of stores. -/
theorem out_eq (c : Dev nD) (i : grid0.Coords) (arg3 : Memref sig .tc .vmem S1x1024x3 .f32) (harg3 : arg3.IsWhole)
    (arg4 : Memref sig .tc .vmem S1x3x3x128x1024 .f32) (harg4 : arg4.IsWhole)
    (x0 : Vec F S1x1024x3 .f32) (xt0 : TbBuf (F := F) c tbM) (f : BufTy.Contents (Elt F) arg4.view.ty) :
    (kernelRun c i arg3 harg3 arg4 harg4 x0 xt0).1 f
      = outOf i (nbW c i xt0) (rowBlk i arg3 (harg3.unread x0)) (colBlk arg3 (harg3.unread x0)) arg4 f := by
  unfold kernelRun
  dsimp only
  sl_unfold_run_names
  rw [show Scf.trips k0_t1_loop.lb k0_t1_loop.ub k0_t1_loop.st = 8 from trips_eq]
  simp only [st_eq Variants.none c none i tbM htbM arg3 harg3 arg4 harg4 _ _ (harg3.unread x0) f 8 le_rfl, accs,
    dp0, dp1, dp2, dp3, dp4, dp5, dp6, dp7, dp8, write_access]
  rfl

/-- So the output block, read through its memref, holds `outBlk` of the table word and the coordinate block. -/
theorem read_out (c : Dev nD) (i : grid0.Coords) (arg3 : Memref sig .tc .vmem S1x1024x3 .f32) (harg3 : arg3.IsWhole)
    (arg4 : Memref sig .tc .vmem S1x3x3x128x1024 .f32) (harg4 : arg4.IsWhole)
    (x0 : Vec F S1x1024x3 .f32) (xt0 : TbBuf (F := F) c tbM) (f : BufTy.Contents (Elt F) arg4.view.ty) :
    arg4.view.read (Elt F) ((kernelRun c i arg3 harg3 arg4 harg4 x0 xt0).1 f)
      = outBlk i (nbW c i xt0) (rowsOf i x0) (colsOf x0) := by
  rw [out_eq, rowBlk_eq, colBlk_eq]
  exact read_outOf i _ _ _ arg4 harg4 f

end Cert.Kernel.Hand

end
-- ==== Proof.KB.Frame.lean ====
/-
  The program's run. The proof data of the one pipeline: after the body at a grid point the coordinate window's
  buffer still holds its block, and the output window's buffer holds `outBlk` of the batch's atom count and that
  block. The body obligation is the body's symbolic run; the launch theorem then gives the run of @main: every
  weakly fair execution terminates, the region's arrays end at what the proof data names, and every other buffer at
  what the two later host operations make of the region's exit contents.
-/
import proofs.«406191_j17231408791693_3_alg».proof.Proof.KB.Kit
import proofs.«406191_j17231408791693_3_alg».proof.Proof.KB.Out

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the output block holds after the body at point `t`. -/
def outAt (c : Dev nD) (t : Fin (cfgM m).N) : S1x3x3x128x1024.Idx → Elt F .f32 :=
  outBlk (grid0.coords t) (nbW c (grid0.coords t) (tbl m 0)) (rowsOf (grid0.coords t) (iblk m c 0 t)) (colsOf (iblk m c 0 t))

/-- The arrays as the region finds them; after the body the coordinate block in place and the output block at
    `outAt`; the invariant the class's scoped rest and the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_in (c : Dev nD) (t : Fin (cfgM m).N) : (dats m 0 c).after 0 t = iblk m c 0 t := by dsimp only [dats]; try rfl
theorem after_out (c : Dev nD) (t : Fin (cfgM m).N) : (dats m 0 c).after 1 t = outAt m c t := by dsimp only [dats]; try rfl

/-- The coordinate window's buffer holds its block at every point; -/
theorem before_in (c : Dev nD) (t : Fin (cfgM m).N) (d) : (dats m 0 c).before 0 t d = iblk m c 0 t :=
  before_in_of m (dats m 0 c) (A_eq m c 0) (after_in m c) t d

/-- the output window's buffer, written back at every point, is fresh at every point. -/
theorem before_out (c : Dev nD) (t : Fin (cfgM m).N) (d) : (dats m 0 c).before 1 t d = d :=
  (dats m 0 c).before_out_reset 1 rfl t
    (by
      by_cases h0 : t.val = 0
      · exact .inl h0
      · exact .inr ⟨h0, flush_out m _⟩) d

/-! ## The body obligation -/

/-- The body at any point: from the coordinate block, a fresh output buffer and the table's half, it runs to the
    coordinate block in place and the output block at `outAt`; the invariant passes through. -/
theorem sound_body (c : Dev nD) (t : Fin (cfgM m).N) :
    iprop((dats m 0 c).Φ t.castSucc ∗ (dats m 0 c).owesAt () t.castSucc
      ∗ (∃ d, owns (c : Thread nD τ) (ms0 m t) fullShare ((dats m 0 c).before 0 t d))
      ∗ (∃ d, owns (c : Thread nD τ) (ms1 m t) fullShare ((dats m 0 c).before 1 t d)))
    ⊢ wp frame (wpE (defs₀ (F := F)) Variants.none c none) Set.univ (bodyAt m t) (fun _ =>
        iprop((dats m 0 c).Φ t.succ ∗ (dats m 0 c).owesAt () t.succ
          ∗ owns (c : Thread nD τ) (ms0 m t) fullShare ((dats m 0 c).after 0 t)
          ∗ owns (c : Thread nD τ) (ms1 m t) fullShare ((dats m 0 c).after 1 t))) := by
  simp only [before_in, before_out]
  rw [show (dats m 0 c).Φ t.succ = (dats m 0 c).Φ t.castSucc from rfl,
    show (dats m 0 c).owesAt () t.succ = (dats m 0 c).owesAt () t.castSucc from rfl,
    after_in, after_out]
  rw [show (dats m 0 c).Φ t.castSucc = iprop(Pipeline.ΦA spec0 c ∗ Pipeline.ΦT pre0 (tbl m) c) from rfl, PhiT_eq]
  iintro ⟨⟨HΦ, HT0⟩, Ho, ⟨%d0, H0⟩, ⟨%d1, H1⟩⟩
  iapply ((kernelRun c (grid0.coords t) (ms0 m t) (hs0 m t) (ms1 m t) (hs1 m t) (iblk m c 0 t) (tbl m 0)).2 Set.univ _)
  isplitl [H0]; · iexact H0
  isplitl [H1]; · iexists _; iexact H1
  isplitl [HT0]; · iexact HT0
  iintro ⟨H0, ⟨%f, H1⟩, HT0⟩
  isplitl [HΦ HT0]
  · isplitl [HΦ]
    · iexact HΦ
    iexact HT0
  isplitl [Ho]; · iexact Ho
  isplitl [H0]; · iexact H0
  unfold owns
  iexists _
  isplitr
  · ipureintro
    exact read_out c (grid0.coords t) (ms0 m t) (hs0 m t) (ms1 m t) (hs1 m t) (iblk m c 0 t) (tbl m 0) f
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; the region's arrays end at what the proof data computes and
    every other unscoped buffer at what the transpose and the reshape after the region make of the exit contents. -/
theorem run_main : θ_run defs (onTc (τ := τ) (main (F := F))) (s₀ m ρ)
    (Pipeline.FramePost (Pipeline.pin pcfgs fun _ => adm m) (dats m) 0
      (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hpf := V_pre m) (hΦ := fun _ _ => rfl)

end Cert.Kernel.Hand

end
-- ==== Proof.KB.Final.lean ====
/-
  The frame claim: the program runs and its two argument arrays end as they began. Both are buffers the region
  does not stage as windows' arrays of its own writing; the two host operations after the region write neither, so
  what the run leaves in them is what the region's entry found, which is what the launch held.
-/
import proofs.«406191_j17231408791693_3_alg».proof.Proof.KB.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Neither later operation writes the coordinate array: it ends as launched. -/
theorem tail_arg0 (c : Dev nD) :
    Pipeline.afterTail pcfgs (fun _ => adm m) (dats m) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- Nor the atom-count array. -/
theorem tail_arg1 (c : Dev nD) :
    Pipeline.afterTail pcfgs (fun _ => adm m) (dats m) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- Every weakly fair execution terminates without a fault and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 (by decide : main_arg0 ∈ Pipeline.restRefs sig spec0)).trans (tail_arg0 m c),
       ((h c).2 main_arg1 (by decide : main_arg1 ∈ Pipeline.restRefs sig spec0)).trans (tail_arg1 m c)⟩)
    (run_main m ρ)

end Cert.Kernel.Hand

end
-- ==== Proof.KI.Base.lean ====
/-
  Shared vocabulary for the kernel's frame: the resource algebra, the prefetched
  table's memref as the body is handed it, and that memref's buffer held at the right half of the full share
  (the pipeline keeps the other half, so the body may read the table's words and never write them).
-/
import proofs.«406191_j17231408791693_3_alg».proof.Proof.Gen.KernelIdeal.Launch
import proofs.«406191_j17231408791693_3_alg».proof.Proof.Gen.KernelIdeal.Skeleton
import proofs.«406191_j17231408791693_3_alg».proof.Proof.Gen.KernelIdeal.Loops
import Idealize.ShloMosaic.Lib.Pipeline.FrameBody
import Idealize.ShloMosaic.Lib.Pipeline.FrameSuffix
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The number-of-atoms table as a memref over its whole buffer. -/
abbrev tbM : Memref sig .tc .smem S8 .i32 := Memref.whole main_arg1
abbrev htbM : tbM.IsWhole := Memref.isWhole_whole _

/-- The contents type of a table memref's buffer on core `c`. -/
abbrev TbBuf (c : Dev nD) {S : Shape} {e : EltTy} (M : Memref sig .tc .smem S e) : Type :=
  Buf (Elt F) (M.view.loc (c : Thread nD τ))

/-- The table's buffer held read-only: the right half of the full share, at contents `f`. -/
abbrev tbPt (c : Dev nD) {S : Shape} {e : EltTy} (M : Memref sig .tc .smem S e) (f : TbBuf (F := F) c M) :
    sProp (MT nD τ sig Unit (Elt F) ℕ (UR sig nD τ) ℕ) :=
  M.view.loc (c : Thread nD τ) ↦{fullShare.right} f

end Cert.KernelIdeal.Hand

end
-- ==== Proof.KI.Kit.lean ====
/-
  The program around its one region. @main reshapes the coordinates, runs the region over an 8×8 grid
  (batch × row tile), then transposes and reshapes the region's result. Here: the buffers' contents when the
  region is entered; that @main is the region continued by the two later host operations; that those operations
  touch only what they may; the prefetched table (the atom counts) as the region reads it; the block of
  coordinates a grid point is handed; and the staging memrefs a point works on.
-/
import proofs.«406191_j17231408791693_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- Core `c`'s buffers after the reshape that precedes the region, as a valuation, and read at a reference. -/
abbrev V0 (c : Dev nD) : Valuation τ sig (Elt F) := StableHlo.after (List.flatten [hostOps0]) (fun b => m (c, b))
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, then the transpose and the reshape: it reduces to the region continued by
    the later two, entered at `V`. -/
theorem hmain (𝒱₀ : Variants) :
    Pipeline.HMainPK (Ix := Unit) (Name := ℕ) (U := UR sig nD τ) (Lvl := ℕ) pcfgs 0 defs₀ 𝒱₀ m (main (F := F)) (V m)
      (fun _ => Pipeline.chain [StableHlo.seq hostOps1]) :=
  Pipeline.hmainP_around pcfgs 0 defs₀ 𝒱₀ m main [hostOps0] [hostOps1] (by simp only [List.Forall]; exact hostOps0_sub)
    (by simp only [List.Forall]; exact hostOps0_fresh) main_chain

/-! ## The two operations after the region -/

/-- They touch only the region's arrays and the buffers that bypass it, none of them the table; -/
theorem tail_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  refine Pipeline.sub_tailRefs pre0 spec0 op ((List.forall_iff_forall_mem.mp hostOps1_sub) op hop) ?_
  simp only [hostOps1, List.mem_cons, List.mem_nil_iff, or_false] at hop
  rcases hop with rfl | rfl
  all_goals intro j; fin_cases j <;> simp only [StableHlo.unary_bufs, StableHlo.reshape_bufs, Finset.mem_insert, Finset.mem_singleton, not_or] <;> and_intros <;> exact StableHlo.devRef_ne_of_ne (by decide)

/-- they allocate nothing; -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- and they write no array of the region (each writes its own result only). -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl
  all_goals intro w; fin_cases w <;> simp only [StableHlo.unary_writes, StableHlo.reshape_writes, Finset.mem_singleton] <;> exact StableHlo.devRef_ne_of_ne (by decide)

/-! ## The arguments as the region finds them -/

/-- The reshape before the region writes neither argument. -/
theorem V_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.Forall, StableHlo.reshape_writes, Finset.mem_singleton]
    exact StableHlo.devRef_ne_of_ne (by decide)))
theorem V_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.Forall, StableHlo.reshape_writes, Finset.mem_singleton]
    exact StableHlo.devRef_ne_of_ne (by decide)))

/-! ## The prefetched table -/

/-- The atom counts as the region reads them at entry (there is one device). -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- No index map reads the table, so every contents of it is admissible; the pipeline at the contents read. -/
abbrev adm : (pcfg0 (F := F)).Adm := ⟨tbl m, trivial⟩
abbrev cfgM : Pipeline.Cfg sig Λ₀ := cfg0 (adm m)

/-- The half of the table the region hands the body. -/
theorem PhiT_eq (c : Dev nD) : (Pipeline.ΦT pre0 (tbl m) c : sProp 𝕄) = iprop(tbPt c tbM (tbl m 0)) := by
  unfold Pipeline.ΦT Pipeline.prefHeld
  rw [show (Finset.univ : Finset (Fin 1)) = {(0 : Fin 1)} from by decide, bigSep_singleton]
  rfl

/-! ## A point's block of coordinates, its staging memrefs, and the body as the pipeline calls it -/

/-- Window `w`'s block at point `t`, read off its array as the region finds it. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-- The coordinate window's staging buffer holds its block at every point, fetched there or not, for any proof data
    over the entry contents whose body leaves the block in place. -/
theorem before_in_of {c : Dev nD} (dat : Dat τ (Elt F) Unit ℕ (UR sig nD τ) ℕ (cfgM m) c)
    (hA : dat.A 0 = V m c (Pipeline.arrRef spec0 0)) (hafter : ∀ t, dat.after 0 t = iblk m c 0 t)
    (t : Fin (cfgM m).N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)

/-- The output window is written back at every point, so its staging buffer is fresh at every point. -/
theorem flush_out : ∀ t : Fin (cfgM m).N, ((cfgM m).win 1).flush t = true :=
  (by decide +kernel : ∀ t : Fin grid0.N, Pipeline.Window.flushOf grid0 true cc0_transform_1 t = true)

/-- The current staging memrefs at point `t`, as the pipeline passes them, and their wholeness. -/
abbrev ms0 (t : Fin (cfgM m).N) : Memref sig .tc .vmem S1x1024x3 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x3x3x128x1024 .f32 := spec0_1.stage ((cfgM m).slots t 1)
abbrev hs1 (t : Fin (cfgM m).N) : (ms1 m t).IsWhole := hstage0_1 (((cfgM m).slots t 1).cast nbuf0_1)

/-- The kernel body at point `t`, on what the pipeline calls it with. -/
abbrev bodyAt (t : Fin (cfgM m).N) : Prog (TpuEff nD τ sig (Elt F) Λ₀ .tc) PUnit :=
  cc0__coords2stress_kernel (grid0.coords t) tbM htbM (ms0 m t) (hs0 m t) (ms1 m t) (hs1 m t)

end Cert.KernelIdeal.Hand

end
-- ==== Proof.KI.Body.lean ====
/-
  One grid point of the kernel, run symbolically. The body reads its block of coordinates and the
  number-of-atoms word, goes eight times through the column loop (each trip storing nine 128×128 slabs
  into the output block and adding their row sums to nine accumulators), then reads the nine diagonal
  slabs back, adds the negated accumulators on the local diagonal, and stores them again. What the
  output block holds afterwards is recorded as a function of what the block held before.
-/
import proofs.«406191_j17231408791693_3_alg».proof.Proof.KI.Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 1000000 in
/-- What one grid point leaves in the output block's buffer, as a function of what the buffer held before (the body
    loads the block before each store), with the proof that from the coordinate block at `x0`, the output block at
    anything and the table at `xt0`, the body runs to the continuation holding the coordinate block and the table as
    they were and the output block at those contents. -/
def kernelRun (c : Dev nD) (i : grid0.Coords) (arg3 : Memref sig .tc .vmem S1x1024x3 .f32) (harg3 : arg3.IsWhole)
    (arg4 : Memref sig .tc .vmem S1x3x3x128x1024 .f32) (harg4 : arg4.IsWhole)
    (x0 : Vec F S1x1024x3 .f32) (xt0 : TbBuf (F := F) c tbM) :
    { out : BufTy.Contents (Elt F) arg4.view.ty → BufTy.Contents (Elt F) arg4.view.ty //
      ∀ (E : Set ℕ) (K : PUnit → sProp 𝕄),
        iprop(owns (c : Thread nD τ) arg3 fullShare x0 ∗ (∃ d, owns (c : Thread nD τ) arg4 fullShare d) ∗ tbPt c tbM xt0
            ∗ (iprop(owns (c : Thread nD τ) arg3 fullShare x0
                ∗ (∃ f, arg4.view.loc (c : Thread nD τ) ↦[arg4.view.set]{fullShare} out f)
                ∗ tbPt c tbM xt0) -∗ K ⟨⟩))
          ⊢ wp frame (wpE (defs₀ (F := F)) Variants.none c none) E (cc0__coords2stress_kernel i tbM htbM arg3 harg3 arg4 harg4) K } := by
  refine ⟨?_, fun E K => ?run⟩
  case run =>
    simp only [cc0__coords2stress_kernel_eq_skeleton]; unfold cc0__coords2stress_kernel_skel
    simp only [k0_part4_eq_skeleton, k0_part5_eq_skeleton, k0_part6_eq_skeleton, k0_part7_eq_skeleton]
    unfold owns
    iintro ⟨⟨%f0, %hf0, H0⟩, ⟨%d1, %f1, -, H1⟩, HT0, Hk⟩
    obtain rfl := harg3.eq_unread hf0
    sl_exec
    sl_step
    iapply Hk
    isplitl [H0]
    · iexists _; isplitr; · ipureintro; exact harg3.read_unread _
      iexact H0
    isplitl [H1]
    · iexists f1; iexact H1
    iexact HT0

end Cert.KernelIdeal.Hand

end
-- ==== Proof.KI.Tile.lean ====
/-
  The values one grid point computes, in one vocabulary.

  A grid point handles 128 atoms (its rows) of one batch. For each of the eight tiles of 128 partner atoms
  (the columns) it forms the masked separations `sepT`, the squared distances plus ε `d2T`, and from them nine
  128×128 slabs `slabT p`, one per pair of axes `p = 3c + c'`: minus the product of the separations along `c`
  and `c'`, over the squared distance. Each slab is stored into the output block at plane `(c, c')`, columns of
  that tile, and its row sums are added to the running row sum `accT p`. After the last tile the diagonal slab
  of each plane (the tile that holds the rows' own atoms) is read back and the negated row sum, spread along
  the local diagonal, is added to it. `outBlk` is the block this leaves, as a function of the block's index.
-/
import proofs.«406191_j17231408791693_3_alg».proof.Proof.KI.Base
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-- The column loop makes eight trips. -/
theorem trips_eq : k0_t1_loop.trips = 8 := by decide

/-- A 128×128 slab as the one-plane, one-tile piece of the block it is stored as, and back. -/
abbrev up (s : FVec F S128x128 .f32) : FVec F S1x1x1x128x128 .f32 :=
  shapeCast S1x1x1x128x128 s shapeCasts_S128x128_S1x1x1x128x128
abbrev down (v : Vec F S1x1x1x128x128 .f32) : FVec F S128x128 .f32 :=
  shapeCast S128x128 v shapeCasts_S1x1x1x128x128_S128x128

/-- The all-zero column the row sums start from. -/
abbrev zeroCol : FVec F S128x1 .f32 := broadcast S128x1 (Scalar.ofBits .f32 0x00000000#32)

/-- One step of a running row sum: add the slab's row sums (each started from zero). -/
abbrev accStep (a : FVec F S128x1 .f32) (s : FVec F S128x128 .f32) : FVec F S128x1 .f32 :=
  addf a (shapeCast S128x1 (multiReduction .add [1] S128 s 0x00000000#32 reduces_S128x128_S128 (.inl rfl) rfl) shapeCasts_S128_S128x1)

/-- The negated row sum (zero minus it) spread along the rows and kept on the local diagonal only. -/
abbrev negDiag (a : FVec F S128x1 .f32) : FVec F S128x128 .f32 :=
  mulf (broadcastTo S128x128 (subf (broadcast S128x1 (Scalar.ofBits .f32 0x00000000#32)) a) broadcasts_S128x1_S128x128) (k0_pay29 (F := F))

/-- What is stored back on the diagonal tile: the slab read back plus the negated row sum on the diagonal. -/
abbrev diagPay (a : FVec F S128x1 .f32) (cur : Vec F S1x1x1x128x128 .f32) : FVec F S1x1x1x128x128 .f32 :=
  up (addf (down cur) (negDiag a))

section Point

variable (i : grid0.Coords) (nb : Elt F .i32) (v5 : Vec F S1x128x3 .f32)
  (xj : Fin k0_t1_loop.trips → Vec F S1x128x3 .f32)

/-- Masked separations of this point's rows against tile `k`'s columns, and their squared distances plus ε. -/
def sepT (k : Fin k0_t1_loop.trips) : FVec F S128x3x128 .f32 :=
  k0_pay2 nb (k0_pay27 v5) (k0_pay28 i nb) 0#32 1#32 k (xj k)
def d2T (k : Fin k0_t1_loop.trips) : FVec F S128x128 .f32 :=
  k0_pay3 nb (k0_pay27 v5) (k0_pay28 i nb) 0#32 1#32 k (xj k)

/-- The nine slabs of tile `k`: slab `p = 3c + c'` is minus the product of the separations along `c` and `c'`
    over the squared distance. -/
def slabT (p : Fin 9) (k : Fin k0_t1_loop.trips) : FVec F S128x128 .f32 :=
  match p with
  | 0 => k0_pay5 nb (k0_pay27 v5) (k0_pay28 i nb) 0#32 1#32 k (xj k)
  | 1 => k0_pay8 (sepT i nb v5 xj k) (d2T i nb v5 xj k) (k0_pay4 nb (k0_pay27 v5) (k0_pay28 i nb) 0#32 1#32 k (xj k))
  | 2 => k0_pay11 (sepT i nb v5 xj k) (d2T i nb v5 xj k) (k0_pay4 nb (k0_pay27 v5) (k0_pay28 i nb) 0#32 1#32 k (xj k))
  | 3 => k0_pay15 (sepT i nb v5 xj k) (d2T i nb v5 xj k)
  | 4 => k0_pay18 (sepT i nb v5 xj k) (d2T i nb v5 xj k) (k0_pay14 (sepT i nb v5 xj k))
  | 5 => k0_pay21 (sepT i nb v5 xj k) (d2T i nb v5 xj k) (k0_pay14 (sepT i nb v5 xj k))
  | 6 => k0_pay25 (sepT i nb v5 xj k) (d2T i nb v5 xj k)
  | 7 => k0_pay40 (sepT i nb v5 xj k) (d2T i nb v5 xj k) (k0_pay24 (sepT i nb v5 xj k))
  | 8 => k0_pay43 (sepT i nb v5 xj k) (d2T i nb v5 xj k) (k0_pay24 (sepT i nb v5 xj k))

/-- The running row sum of slab `p` after the first `k` tiles. -/
def accT (p : Fin 9) : ℕ → FVec F S128x1 .f32
  | 0 => zeroCol
  | k + 1 => if h : k < k0_t1_loop.trips then accStep (accT p k) (slabT i nb v5 xj p ⟨k, h⟩) else accT p k

/-- Where the block's entry `idx = (0, c, c', r, col)` comes from: slab `3c + c'`, tile `col / 128`, row `r`,
    column `col % 128` inside the tile. -/
def planeOf (idx : S1x3x3x128x1024.Idx) : Fin 9 :=
  ⟨3 * (idx 1).val + (idx 2).val, by have h1 : (idx 1).val < 3 := (idx 1).isLt; have h2 : (idx 2).val < 3 := (idx 2).isLt; omega⟩
def tileOf (idx : S1x3x3x128x1024.Idx) : Fin k0_t1_loop.trips :=
  ⟨(idx 4).val / 128, by rw [trips_eq]; have h : (idx 4).val < 1024 := (idx 4).isLt; omega⟩
def cellOf (idx : S1x3x3x128x1024.Idx) : S128x128.Idx :=
  ValueIdx.ix2 (⟨(idx 3).val, (idx 3).isLt⟩ : Fin 128) (⟨(idx 4).val % 128, Nat.mod_lt _ (by decide)⟩ : Fin 128)

/-- The block after the column loop: every entry its slab's. -/
def slabAll (idx : S1x3x3x128x1024.Idx) : F .f32 :=
  slabT i nb v5 xj (planeOf idx) (tileOf idx) (cellOf idx)

/-- The block the grid point leaves: on the tile that holds the point's own atoms the slab plus the negated row
    sum on the diagonal, elsewhere the slab. -/
def outBlk (idx : S1x3x3x128x1024.Idx) : F .f32 :=
  if (idx 4).val / 128 = (i 1).val then
    addf (slabT i nb v5 xj (planeOf idx) (tileOf idx)) (negDiag (accT i nb v5 xj (planeOf idx) 8)) (cellOf idx)
  else slabAll i nb v5 xj idx

end Point

/-! ## The point's rows and a tile's columns, read off the point's block of coordinates -/

/-- The point's own 128 atoms (rows `128·i₁ …` of the block), and the 128 partner atoms of tile `k`. -/
abbrev rowsOf (i : grid0.Coords) (x0 : Vec F S1x1024x3 .f32) : Vec F S1x128x3 .f32 :=
  View.ld x0 (Rect.unit (s := S1x1024x3) (k0_off2 i) S1x128x3.size (k0_off2_inb i))
abbrev colsOf (x0 : Vec F S1x1024x3 .f32) (k : Fin k0_t1_loop.trips) : Vec F S1x128x3 .f32 :=
  View.ld x0 (Rect.unit (s := S1x1024x3) (k0_off3 k) S1x128x3.size (k0_off3_inb k))

/-! ## The stores, as lists of pieces (latest first) -/

section Pieces

variable (i : grid0.Coords) (nb : Elt F .i32) (v5 : Vec F S1x128x3 .f32)
  (xj : Fin k0_t1_loop.trips → Vec F S1x128x3 .f32)

/-- The nine stores of tile `k`: slab `p` at plane `p`, the tile's columns. -/
def tilePieces (k : Fin k0_t1_loop.trips) : List (View.Piece (Elt F) S1x3x3x128x1024 .f32) :=
  [⟨Rect.unit (s := S1x3x3x128x1024) (k0_off12 k) S1x1x1x128x128.size (k0_off12_inb k), up (slabT i nb v5 xj 8 k)⟩,
   ⟨Rect.unit (s := S1x3x3x128x1024) (k0_off11 k) S1x1x1x128x128.size (k0_off11_inb k), up (slabT i nb v5 xj 7 k)⟩,
   ⟨Rect.unit (s := S1x3x3x128x1024) (k0_off10 k) S1x1x1x128x128.size (k0_off10_inb k), up (slabT i nb v5 xj 6 k)⟩,
   ⟨Rect.unit (s := S1x3x3x128x1024) (k0_off9 k) S1x1x1x128x128.size (k0_off9_inb k), up (slabT i nb v5 xj 5 k)⟩,
   ⟨Rect.unit (s := S1x3x3x128x1024) (k0_off8 k) S1x1x1x128x128.size (k0_off8_inb k), up (slabT i nb v5 xj 4 k)⟩,
   ⟨Rect.unit (s := S1x3x3x128x1024) (k0_off7 k) S1x1x1x128x128.size (k0_off7_inb k), up (slabT i nb v5 xj 3 k)⟩,
   ⟨Rect.unit (s := S1x3x3x128x1024) (k0_off6 k) S1x1x1x128x128.size (k0_off6_inb k), up (slabT i nb v5 xj 2 k)⟩,
   ⟨Rect.unit (s := S1x3x3x128x1024) (k0_off5 k) S1x1x1x128x128.size (k0_off5_inb k), up (slabT i nb v5 xj 1 k)⟩,
   ⟨Rect.unit (s := S1x3x3x128x1024) (k0_off4 k) S1x1x1x128x128.size (k0_off4_inb k), up (slabT i nb v5 xj 0 k)⟩]

/-- The stores of the first `k` tiles. -/
def loopPieces : ℕ → List (View.Piece (Elt F) S1x3x3x128x1024 .f32)
  | 0 => []
  | k + 1 => if h : k < k0_t1_loop.trips then tilePieces i nb v5 xj ⟨k, h⟩ ++ loopPieces k else loopPieces k

/-- The nine running row sums after the first `k` tiles. -/
def accs (k : ℕ) : FVec F S128x1 .f32 × FVec F S128x1 .f32 × FVec F S128x1 .f32 × FVec F S128x1 .f32 × FVec F S128x1 .f32 × FVec F S128x1 .f32 × FVec F S128x1 .f32 × FVec F S128x1 .f32 × FVec F S128x1 .f32 :=
  (accT i nb v5 xj 0 k, accT i nb v5 xj 1 k, accT i nb v5 xj 2 k, accT i nb v5 xj 3 k, accT i nb v5 xj 4 k,
   accT i nb v5 xj 5 k, accT i nb v5 xj 6 k, accT i nb v5 xj 7 k, accT i nb v5 xj 8 k)

variable (arg4 : Memref sig .tc .vmem S1x3x3x128x1024 .f32) (f : BufTy.Contents (Elt F) arg4.view.ty)

/-- The block's buffer after the column loop, over entry contents `f`. -/
def afterLoop : BufTy.Contents (Elt F) arg4.view.ty := arg4.view.writes (Elt F) f (loopPieces i nb v5 xj 8)

/-- … and after the first diagonal slab (plane 0) has been read back, corrected and stored. -/
def afterFirst : BufTy.Contents (Elt F) arg4.view.ty :=
  arg4.view.writes (Elt F) (afterLoop i nb v5 xj arg4 f)
    [⟨Rect.unit (s := S1x3x3x128x1024) (k0_off13 i) S1x1x1x128x128.size (k0_off13_inb i), diagPay (accT i nb v5 xj 0 8) (View.readAt (Elt F) arg4.view (Rect.unit (s := S1x3x3x128x1024) (k0_off13 i) S1x1x1x128x128.size (k0_off13_inb i)).toLoadRect (afterLoop i nb v5 xj arg4 f))⟩]

/-- … and at the end: the other eight diagonal slabs read back (after the first was stored), corrected and stored. -/
def outOf : BufTy.Contents (Elt F) arg4.view.ty :=
  arg4.view.writes (Elt F) (afterFirst i nb v5 xj arg4 f)
    [⟨Rect.unit (s := S1x3x3x128x1024) (k0_off21 i) S1x1x1x128x128.size (k0_off21_inb i), diagPay (accT i nb v5 xj 8 8) (View.readAt (Elt F) arg4.view (Rect.unit (s := S1x3x3x128x1024) (k0_off21 i) S1x1x1x128x128.size (k0_off21_inb i)).toLoadRect (afterFirst i nb v5 xj arg4 f))⟩,
     ⟨Rect.unit (s := S1x3x3x128x1024) (k0_off20 i) S1x1x1x128x128.size (k0_off20_inb i), diagPay (accT i nb v5 xj 7 8) (View.readAt (Elt F) arg4.view (Rect.unit (s := S1x3x3x128x1024) (k0_off20 i) S1x1x1x128x128.size (k0_off20_inb i)).toLoadRect (afterFirst i nb v5 xj arg4 f))⟩,
     ⟨Rect.unit (s := S1x3x3x128x1024) (k0_off19 i) S1x1x1x128x128.size (k0_off19_inb i), diagPay (accT i nb v5 xj 6 8) (View.readAt (Elt F) arg4.view (Rect.unit (s := S1x3x3x128x1024) (k0_off19 i) S1x1x1x128x128.size (k0_off19_inb i)).toLoadRect (afterFirst i nb v5 xj arg4 f))⟩,
     ⟨Rect.unit (s := S1x3x3x128x1024) (k0_off18 i) S1x1x1x128x128.size (k0_off18_inb i), diagPay (accT i nb v5 xj 5 8) (View.readAt (Elt F) arg4.view (Rect.unit (s := S1x3x3x128x1024) (k0_off18 i) S1x1x1x128x128.size (k0_off18_inb i)).toLoadRect (afterFirst i nb v5 xj arg4 f))⟩,
     ⟨Rect.unit (s := S1x3x3x128x1024) (k0_off17 i) S1x1x1x128x128.size (k0_off17_inb i), diagPay (accT i nb v5 xj 4 8) (View.readAt (Elt F) arg4.view (Rect.unit (s := S1x3x3x128x1024) (k0_off17 i) S1x1x1x128x128.size (k0_off17_inb i)).toLoadRect (afterFirst i nb v5 xj arg4 f))⟩,
     ⟨Rect.unit (s := S1x3x3x128x1024) (k0_off16 i) S1x1x1x128x128.size (k0_off16_inb i), diagPay (accT i nb v5 xj 3 8) (View.readAt (Elt F) arg4.view (Rect.unit (s := S1x3x3x128x1024) (k0_off16 i) S1x1x1x128x128.size (k0_off16_inb i)).toLoadRect (afterFirst i nb v5 xj arg4 f))⟩,
     ⟨Rect.unit (s := S1x3x3x128x1024) (k0_off15 i) S1x1x1x128x128.size (k0_off15_inb i), diagPay (accT i nb v5 xj 2 8) (View.readAt (Elt F) arg4.view (Rect.unit (s := S1x3x3x128x1024) (k0_off15 i) S1x1x1x128x128.size (k0_off15_inb i)).toLoadRect (afterFirst i nb v5 xj arg4 f))⟩,
     ⟨Rect.unit (s := S1x3x3x128x1024) (k0_off14 i) S1x1x1x128x128.size (k0_off14_inb i), diagPay (accT i nb v5 xj 1 8) (View.readAt (Elt F) arg4.view (Rect.unit (s := S1x3x3x128x1024) (k0_off14 i) S1x1x1x128x128.size (k0_off14_inb i)).toLoadRect (afterFirst i nb v5 xj arg4 f))⟩]

end Pieces

end Cert.KernelIdeal.Hand

end
-- ==== Proof.KI.Trip.lean ====
/-
  One trip of the column loop, and the loop's state after `k` trips, in the tile vocabulary: a trip stores the
  nine slabs of its tile and adds their row sums to the nine running sums; so after `k` trips the stores made
  are those of the first `k` tiles and the sums are the running sums over them.
-/
import proofs.«406191_j17231408791693_3_alg».proof.Proof.KI.Tile

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable {F : FTy → Type} [FloatOps F]

section

variable (𝒱 : Variants) (c : Dev nD) (bd : Option 𝒱.V) (i : grid0.Coords)
  (arg2 : Memref sig .tc .smem S8 .i32) (harg2 : arg2.IsWhole)
  (arg3 : Memref sig .tc .vmem S1x1024x3 .f32) (harg3 : arg3.IsWhole)
  (arg4 : Memref sig .tc .vmem S1x3x3x128x1024 .f32) (harg4 : arg4.IsWhole)
  (nb : Elt F .i32) (v5 : Vec F S1x128x3 .f32) (X3 : BufTy.Contents (Elt F) arg3.view.ty)

/-- The 128 partner atoms of tile `k`, read off the coordinate block's buffer. -/
abbrev colBlk (k : Fin k0_t1_loop.trips) : Vec F S1x128x3 .f32 :=
  View.readAt (Elt F) arg3.view (Rect.unit (s := S1x1024x3) (k0_off3 k) S1x128x3.size (k0_off3_inb k)).toLoadRect X3

/-- The stores a trip makes are its tile's nine slabs; -/
theorem tripL_eq (k : Fin k0_t1_loop.trips) (acc : FVec F S128x1 .f32 × FVec F S128x1 .f32 × FVec F S128x1 .f32 × FVec F S128x1 .f32 × FVec F S128x1 .f32 × FVec F S128x1 .f32 × FVec F S128x1 .f32 × FVec F S128x1 .f32 × FVec F S128x1 .f32) (f : BufTy.Contents (Elt F) arg4.view.ty) :
    tripL_k0_t1 (F := F) 𝒱 c bd i arg2 harg2 arg3 harg3 arg4 harg4 nb v5 X3 k acc f
      = tilePieces i nb v5 (colBlk arg3 X3) k := by
  unfold tripL_k0_t1 trip_k0_t1
  dsimp only
  sl_unfold_run_names
  rfl

/-- and what it yields are the nine running sums, each with its slab's row sums added. -/
theorem tripR_eq (k : Fin k0_t1_loop.trips) (acc : FVec F S128x1 .f32 × FVec F S128x1 .f32 × FVec F S128x1 .f32 × FVec F S128x1 .f32 × FVec F S128x1 .f32 × FVec F S128x1 .f32 × FVec F S128x1 .f32 × FVec F S128x1 .f32 × FVec F S128x1 .f32) (f : BufTy.Contents (Elt F) arg4.view.ty) :
    tripR_k0_t1 (F := F) 𝒱 c bd i arg2 harg2 arg3 harg3 arg4 harg4 nb v5 X3 k acc f
      = (accStep acc.1 (slabT i nb v5 (colBlk arg3 X3) 0 k),
       accStep acc.2.1 (slabT i nb v5 (colBlk arg3 X3) 1 k),
       accStep acc.2.2.1 (slabT i nb v5 (colBlk arg3 X3) 2 k),
       accStep acc.2.2.2.1 (slabT i nb v5 (colBlk arg3 X3) 3 k),
       accStep acc.2.2.2.2.1 (slabT i nb v5 (colBlk arg3 X3) 4 k),
       accStep acc.2.2.2.2.2.1 (slabT i nb v5 (colBlk arg3 X3) 5 k),
       accStep acc.2.2.2.2.2.2.1 (slabT i nb v5 (colBlk arg3 X3) 6 k),
       accStep acc.2.2.2.2.2.2.2.1 (slabT i nb v5 (colBlk arg3 X3) 7 k),
       accStep acc.2.2.2.2.2.2.2.2 (slabT i nb v5 (colBlk arg3 X3) 8 k)) := by
  unfold tripR_k0_t1 trip_k0_t1
  dsimp only
  sl_unfold_run_names
  rfl

/-- The loop's state before trip `k`: the running sums over the first `k` tiles and the stores of those tiles. -/
theorem st_eq (G : BufTy.Contents (Elt F) arg4.view.ty) : ∀ k : ℕ, k ≤ 8 →
    st_k0_t1 (F := F) 𝒱 c bd i arg2 harg2 arg3 harg3 arg4 harg4 nb v5 X3 G
        (k0_pay30, k0_pay31, k0_pay32, k0_pay33, k0_pay34, k0_pay35, k0_pay36, k0_pay37, k0_pay38) k
      = (accs i nb v5 (colBlk arg3 X3) k, loopPieces i nb v5 (colBlk arg3 X3) k)
  | 0, _ => rfl
  | k + 1, hk => by
    have hlt : k < k0_t1_loop.trips := by rw [trips_eq]; omega
    have ih := st_eq G k (by omega)
    have hs := st_k0_t1_succ (F := F) 𝒱 c bd i arg2 harg2 arg3 harg3 arg4 harg4 nb v5 X3 G
      (k0_pay30, k0_pay31, k0_pay32, k0_pay33, k0_pay34, k0_pay35, k0_pay36, k0_pay37, k0_pay38) ⟨k, hlt⟩
    rw [show (⟨k, hlt⟩ : Fin k0_t1_loop.trips).val + 1 = k + 1 from rfl] at hs
    rw [hs, show (⟨k, hlt⟩ : Fin k0_t1_loop.trips).val = k from rfl, ih, tripR_eq, tripL_eq]
    have hA : ∀ p : Fin 9, accT i nb v5 (colBlk arg3 X3) p (k + 1)
        = accStep (accT i nb v5 (colBlk arg3 X3) p k) (slabT i nb v5 (colBlk arg3 X3) p ⟨k, hlt⟩) := fun p => dif_pos hlt
    have hL : loopPieces i nb v5 (colBlk arg3 X3) (k + 1)
        = tilePieces i nb v5 (colBlk arg3 X3) ⟨k, hlt⟩ ++ loopPieces i nb v5 (colBlk arg3 X3) k := dif_pos hlt
    simp only [accs, hA, hL]

end

end Cert.KernelIdeal.Hand

end
-- ==== Proof.KI.Cover.lean ====
/-
  Reading the output block after all the stores. The 72 stores of the column loop tile the block: plane
  `(c, c')`, columns of tile `k`, hold slab `3c + c'` of tile `k`; so whatever the block held before, after the loop
  it reads `slabAll`. Each diagonal store then covers exactly one of those tiles (the tile of the point's own
  atoms, in its plane) with the slab read back plus the negated row sum on the diagonal. Hence `outBlk`.
-/
import proofs.«406191_j17231408791693_3_alg».proof.Proof.KI.Tile
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]

/-! ## Coordinates as numbers -/

/-- The block's coordinates are below its extents, written as numbers. -/
theorem idxS_lt (idx : S1x3x3x128x1024.Idx) :
    (idx 0).val < 1 ∧ (idx 1).val < 3 ∧ (idx 2).val < 3 ∧ (idx 3).val < 128 ∧ (idx 4).val < 1024 :=
  ⟨(idx 0).isLt, (idx 1).isLt, (idx 2).isLt, (idx 3).isLt, (idx 4).isLt⟩

/-- A one-plane, one-tile piece's coordinates are below its extents, written as numbers. -/
theorem idxT_lt (x : S1x1x1x128x128.Idx) :
    (x 0).val < 1 ∧ (x 1).val < 1 ∧ (x 2).val < 1 ∧ (x 3).val < 128 ∧ (x 4).val < 128 :=
  ⟨(x 0).isLt, (x 1).isLt, (x 2).isLt, (x 3).isLt, (x 4).isLt⟩

/-! ## The rectangle of plane `(a, b)`, tile `t` -/

/-- An index lies in the rectangle at offsets `(0, a, b, 0, 128 t)` of one plane and 128 × 128 entries exactly when it
    is in plane `(a, b)` and its column is in tile `t`. -/
theorem mem_tile {off : Fin 5 → ℕ} {inb : ∀ a, off a + S1x1x1x128x128.size a ≤ S1x3x3x128x1024.size a} {a b t : ℕ}
    (hoff : off = ![0, a, b, 0, 128 * t]) (idx : S1x3x3x128x1024.Idx) :
    idx ∈ (Rect.unit (s := S1x3x3x128x1024) off S1x1x1x128x128.size inb).set
      ↔ (idx 1).val = a ∧ (idx 2).val = b ∧ (idx 4).val / 128 = t := by
  subst hoff
  rw [Rect.mem_set_unit]
  obtain ⟨h0, h1, h2, h3, h4⟩ := idxS_lt idx
  constructor
  · intro h
    have e1 : a ≤ (idx 1).val ∧ (idx 1).val < a + 1 := h 1
    have e2 : b ≤ (idx 2).val ∧ (idx 2).val < b + 1 := h 2
    have e4 : 128 * t ≤ (idx 4).val ∧ (idx 4).val < 128 * t + 128 := h 4
    omega
  · rintro ⟨e1, e2, e4⟩
    have key : ∀ k : Fin 5, (![0, a, b, 0, 128 * t] : Fin 5 → ℕ) k ≤ (idx k).val
        ∧ (idx k).val < (![0, a, b, 0, 128 * t] : Fin 5 → ℕ) k + (![1, 1, 1, 128, 128] : Fin 5 → ℕ) k := by
      intro k
      match k with
      | ⟨0, _⟩ => exact (show 0 ≤ (idx 0).val ∧ (idx 0).val < 0 + 1 by omega)
      | ⟨1, _⟩ => exact (show a ≤ (idx 1).val ∧ (idx 1).val < a + 1 by omega)
      | ⟨2, _⟩ => exact (show b ≤ (idx 2).val ∧ (idx 2).val < b + 1 by omega)
      | ⟨3, _⟩ => exact (show 0 ≤ (idx 3).val ∧ (idx 3).val < 0 + 128 by omega)
      | ⟨4, _⟩ => exact (show 128 * t ≤ (idx 4).val ∧ (idx 4).val < 128 * t + 128 by omega)
    exact key

/-- The coordinates of the rectangle's own index `x` placed in the block. -/
theorem emb_tile {off : Fin 5 → ℕ} {inb : ∀ a, off a + S1x1x1x128x128.size a ≤ S1x3x3x128x1024.size a} {a b t : ℕ}
    (hoff : off = ![0, a, b, 0, 128 * t]) (x : S1x1x1x128x128.Idx) :
    ((Rect.unit (s := S1x3x3x128x1024) off S1x1x1x128x128.size inb).emb x 1).val = a
    ∧ ((Rect.unit (s := S1x3x3x128x1024) off S1x1x1x128x128.size inb).emb x 2).val = b
    ∧ ((Rect.unit (s := S1x3x3x128x1024) off S1x1x1x128x128.size inb).emb x 3).val = (x 3).val
    ∧ ((Rect.unit (s := S1x3x3x128x1024) off S1x1x1x128x128.size inb).emb x 4).val = 128 * t + (x 4).val := by
  subst hoff
  obtain ⟨h0, h1, h2, h3, h4⟩ := idxT_lt x
  refine ⟨?_, ?_, ?_, ?_⟩
  · show a + 1 * (x 1).val = a; omega
  · show b + 1 * (x 2).val = b; omega
  · show 0 + 1 * (x 3).val = (x 3).val; omega
  · show 128 * t + 1 * (x 4).val = 128 * t + (x 4).val; omega

/-! ## A slab as a piece, read at the piece's index -/

/-- A slab stored as a one-plane, one-tile piece reads, at the piece's index `x`, the slab at row `x 3`, column `x 4`. -/
theorem up_apply (s : FVec F S128x128 .f32) (x : S1x1x1x128x128.Idx) :
    up s x = s (ValueIdx.ix2 (⟨(x 3).val, (idxT_lt x).2.2.2.1⟩ : Fin 128) (⟨(x 4).val, (idxT_lt x).2.2.2.2⟩ : Fin 128)) := by
  obtain ⟨h0, h1, h2, h3, h4⟩ := idxT_lt x
  refine shapeCast_apply s _ x _ ?_
  rw [Shape.rowMajor_val_two, Shape.rowMajor_val_five]
  show (x 3).val * 128 + (x 4).val
    = (((((x 0).val * 1 + (x 1).val) * 1 + (x 2).val) * 128 + (x 3).val) * 128 + (x 4).val)
  omega

/-- Stored as a piece and read back as a slab, a slab is itself. -/
theorem down_up (s : FVec F S128x128 .f32) : down (up s) = s :=
  shapeCast_shapeCast s _ _

/-! ## Where a rectangle's index lands: plane, tile, cell -/

theorem planeOf_emb {off : Fin 5 → ℕ} {inb : ∀ a, off a + S1x1x1x128x128.size a ≤ S1x3x3x128x1024.size a} {a b t : ℕ}
    (hoff : off = ![0, a, b, 0, 128 * t]) (pl : Fin 9) (hpl : pl.val = 3 * a + b) (x : S1x1x1x128x128.Idx) :
    planeOf ((Rect.unit (s := S1x3x3x128x1024) off S1x1x1x128x128.size inb).emb x) = pl := by
  obtain ⟨e1, e2, e3, e4⟩ := emb_tile (inb := inb) hoff x
  apply Fin.ext
  show 3 * ((Rect.unit (s := S1x3x3x128x1024) off S1x1x1x128x128.size inb).emb x 1).val
    + ((Rect.unit (s := S1x3x3x128x1024) off S1x1x1x128x128.size inb).emb x 2).val = pl.val
  rw [e1, e2, hpl]

theorem tileOf_emb {off : Fin 5 → ℕ} {inb : ∀ a, off a + S1x1x1x128x128.size a ≤ S1x3x3x128x1024.size a} {a b : ℕ}
    (k : Fin k0_t1_loop.trips) (hoff : off = ![0, a, b, 0, 128 * k.val]) (x : S1x1x1x128x128.Idx) :
    tileOf ((Rect.unit (s := S1x3x3x128x1024) off S1x1x1x128x128.size inb).emb x) = k := by
  obtain ⟨e1, e2, e3, e4⟩ := emb_tile (inb := inb) hoff x
  obtain ⟨h0, h1, h2, h3, h4⟩ := idxT_lt x
  apply Fin.ext
  show ((Rect.unit (s := S1x3x3x128x1024) off S1x1x1x128x128.size inb).emb x 4).val / 128 = k.val
  rw [e4]; omega

theorem cellOf_emb {off : Fin 5 → ℕ} {inb : ∀ a, off a + S1x1x1x128x128.size a ≤ S1x3x3x128x1024.size a} {a b t : ℕ}
    (hoff : off = ![0, a, b, 0, 128 * t]) (x : S1x1x1x128x128.Idx) :
    cellOf ((Rect.unit (s := S1x3x3x128x1024) off S1x1x1x128x128.size inb).emb x)
      = ValueIdx.ix2 (⟨(x 3).val, (idxT_lt x).2.2.2.1⟩ : Fin 128) (⟨(x 4).val, (idxT_lt x).2.2.2.2⟩ : Fin 128) := by
  obtain ⟨e1, e2, e3, e4⟩ := emb_tile (inb := inb) hoff x
  obtain ⟨h0, h1, h2, h3, h4⟩ := idxT_lt x
  refine Shape.idx_ext₂ ?_ ?_
  · show ((Rect.unit (s := S1x3x3x128x1024) off S1x1x1x128x128.size inb).emb x 3).val = (x 3).val
    exact e3
  · show ((Rect.unit (s := S1x3x3x128x1024) off S1x1x1x128x128.size inb).emb x 4).val % 128 = (x 4).val
    rw [e4]; omega

section Point

variable (i : grid0.Coords) (nb : Elt F .i32) (v5 : Vec F S1x128x3 .f32)
  (xj : Fin k0_t1_loop.trips → Vec F S1x128x3 .f32)

/-! ## The loop's stores restrict `slabAll` and cover the block -/

/-- Slab `3a + b` of tile `k`, stored at plane `(a, b)`, tile `k`, is `slabAll` there. -/
theorem piece_slabAll {off : Fin 5 → ℕ} {inb : ∀ a, off a + S1x1x1x128x128.size a ≤ S1x3x3x128x1024.size a} {a b : ℕ}
    (k : Fin k0_t1_loop.trips) (hoff : off = ![0, a, b, 0, 128 * k.val]) (pl : Fin 9) (hpl : pl.val = 3 * a + b)
    (x : S1x1x1x128x128.Idx) :
    up (slabT i nb v5 xj pl k) x
      = slabAll i nb v5 xj ((Rect.unit (s := S1x3x3x128x1024) off S1x1x1x128x128.size inb).emb x) := by
  rw [slabAll, planeOf_emb hoff pl hpl x, tileOf_emb k hoff x, cellOf_emb hoff x, up_apply]

theorem tilePieces_slabAll (k : Fin k0_t1_loop.trips) :
    ∀ p ∈ tilePieces i nb v5 xj k, ∀ x : p.1.shape.Idx, p.2 x = slabAll i nb v5 xj (p.1.emb x) := by
  intro p hp
  simp only [tilePieces, List.mem_cons, List.not_mem_nil, or_false] at hp
  rcases hp with rfl | rfl | rfl | rfl | rfl | rfl | rfl | rfl | rfl
  · exact piece_slabAll i nb v5 xj (inb := k0_off12_inb k) k (k0_off12_eq k) 8 rfl
  · exact piece_slabAll i nb v5 xj (inb := k0_off11_inb k) k (k0_off11_eq k) 7 rfl
  · exact piece_slabAll i nb v5 xj (inb := k0_off10_inb k) k (k0_off10_eq k) 6 rfl
  · exact piece_slabAll i nb v5 xj (inb := k0_off9_inb k) k (k0_off9_eq k) 5 rfl
  · exact piece_slabAll i nb v5 xj (inb := k0_off8_inb k) k (k0_off8_eq k) 4 rfl
  · exact piece_slabAll i nb v5 xj (inb := k0_off7_inb k) k (k0_off7_eq k) 3 rfl
  · exact piece_slabAll i nb v5 xj (inb := k0_off6_inb k) k (k0_off6_eq k) 2 rfl
  · exact piece_slabAll i nb v5 xj (inb := k0_off5_inb k) k (k0_off5_eq k) 1 rfl
  · exact piece_slabAll i nb v5 xj (inb := k0_off4_inb k) k (k0_off4_eq k) 0 rfl

theorem loopPieces_slabAll : ∀ n : ℕ, ∀ p ∈ loopPieces i nb v5 xj n, ∀ x : p.1.shape.Idx,
    p.2 x = slabAll i nb v5 xj (p.1.emb x)
  | 0 => fun p hp => absurd hp List.not_mem_nil
  | n + 1 => fun p hp => by
    rw [loopPieces] at hp
    split at hp
    · rcases List.mem_append.mp hp with h | h
      · exact tilePieces_slabAll i nb v5 xj _ p h
      · exact loopPieces_slabAll n p h
    · exact loopPieces_slabAll n p hp

/-- Every entry in tile `k`'s columns lies under one of tile `k`'s nine stores: the one of its plane. -/
theorem tilePieces_cover (k : Fin k0_t1_loop.trips) (idx : S1x3x3x128x1024.Idx) (hk : (idx 4).val / 128 = k.val) :
    ∃ p ∈ tilePieces i nb v5 xj k, idx ∈ p.1.set := by
  obtain ⟨h0, h1, h2, h3, h4⟩ := idxS_lt idx
  have c1 : (idx 1).val = 0 ∨ (idx 1).val = 1 ∨ (idx 1).val = 2 := by omega
  have c2 : (idx 2).val = 0 ∨ (idx 2).val = 1 ∨ (idx 2).val = 2 := by omega
  rcases c1 with e1 | e1 | e1 <;> rcases c2 with e2 | e2 | e2
  · exact ⟨_, .tail _ (.tail _ (.tail _ (.tail _ (.tail _ (.tail _ (.tail _ (.tail _ (.head _)))))))),
      (mem_tile (inb := k0_off4_inb k) (k0_off4_eq k) idx).mpr ⟨e1, e2, hk⟩⟩
  · exact ⟨_, .tail _ (.tail _ (.tail _ (.tail _ (.tail _ (.tail _ (.tail _ (.head _))))))),
      (mem_tile (inb := k0_off5_inb k) (k0_off5_eq k) idx).mpr ⟨e1, e2, hk⟩⟩
  · exact ⟨_, .tail _ (.tail _ (.tail _ (.tail _ (.tail _ (.tail _ (.head _)))))),
      (mem_tile (inb := k0_off6_inb k) (k0_off6_eq k) idx).mpr ⟨e1, e2, hk⟩⟩
  · exact ⟨_, .tail _ (.tail _ (.tail _ (.tail _ (.tail _ (.head _))))),
      (mem_tile (inb := k0_off7_inb k) (k0_off7_eq k) idx).mpr ⟨e1, e2, hk⟩⟩
  · exact ⟨_, .tail _ (.tail _ (.tail _ (.tail _ (.head _)))),
      (mem_tile (inb := k0_off8_inb k) (k0_off8_eq k) idx).mpr ⟨e1, e2, hk⟩⟩
  · exact ⟨_, .tail _ (.tail _ (.tail _ (.head _))),
      (mem_tile (inb := k0_off9_inb k) (k0_off9_eq k) idx).mpr ⟨e1, e2, hk⟩⟩
  · exact ⟨_, .tail _ (.tail _ (.head _)),
      (mem_tile (inb := k0_off10_inb k) (k0_off10_eq k) idx).mpr ⟨e1, e2, hk⟩⟩
  · exact ⟨_, .tail _ (.head _),
      (mem_tile (inb := k0_off11_inb k) (k0_off11_eq k) idx).mpr ⟨e1, e2, hk⟩⟩
  · exact ⟨_, .head _,
      (mem_tile (inb := k0_off12_inb k) (k0_off12_eq k) idx).mpr ⟨e1, e2, hk⟩⟩

/-- Tile `k`'s stores are among the stores of the first `n` tiles once `k < n`. -/
theorem tilePieces_sub_loopPieces (k : Fin k0_t1_loop.trips) :
    ∀ n : ℕ, k.val < n → ∀ p ∈ tilePieces i nb v5 xj k, p ∈ loopPieces i nb v5 xj n
  | 0, h => absurd h (Nat.not_lt_zero _)
  | n + 1, h => fun p hp => by
    rw [loopPieces]
    by_cases hn : n < k0_t1_loop.trips
    · rw [dif_pos hn]
      by_cases hkn : k.val = n
      · obtain rfl : k = ⟨n, hn⟩ := Fin.ext hkn
        exact List.mem_append_left _ hp
      · exact List.mem_append_right _ (tilePieces_sub_loopPieces k n (by omega) p hp)
    · rw [dif_neg hn]
      exact tilePieces_sub_loopPieces k n (by have := k.isLt; omega) p hp

/-- The 72 stores of the loop cover the block. -/
theorem loopPieces_cover (idx : S1x3x3x128x1024.Idx) : ∃ p ∈ loopPieces i nb v5 xj 8, idx ∈ p.1.set := by
  obtain ⟨p, hp, hm⟩ := tilePieces_cover i nb v5 xj (tileOf idx) idx rfl
  exact ⟨p, tilePieces_sub_loopPieces i nb v5 xj (tileOf idx) 8 (by have h := (tileOf idx).isLt; have h8 := trips_eq; omega) p hp, hm⟩

variable (arg4 : Memref sig .tc .vmem S1x3x3x128x1024 .f32) (f : BufTy.Contents (Elt F) arg4.view.ty)

/-- After the loop the block reads `slabAll`, whatever it held before. -/
theorem read_afterLoop : arg4.view.read (Elt F) (afterLoop i nb v5 xj arg4 f) = slabAll i nb v5 xj :=
  funext fun y => View.read_writes_apply_of_pieces arg4.view f (slabAll i nb v5 xj) (loopPieces i nb v5 xj 8)
    (loopPieces_slabAll i nb v5 xj 8) y (loopPieces_cover i nb v5 xj y)

end Point

/-! ## The diagonal stores -/

section Diag

variable (i : grid0.Coords) (nb : Elt F .i32) (v5 : Vec F S1x128x3 .f32)
  (xj : Fin k0_t1_loop.trips → Vec F S1x128x3 .f32)

/-- The tile that holds the point's own atoms. -/
def diagTile : Fin k0_t1_loop.trips := ⟨(i 1).val, by rw [trips_eq]; exact (i 1).isLt⟩

/-- Plane `p`'s slab on the diagonal tile plus the negated row sum on the diagonal. -/
def diagSlab (p : Fin 9) : FVec F S128x128 .f32 :=
  addf (slabT i nb v5 xj p (diagTile i)) (negDiag (accT i nb v5 xj p 8))

/-- The function of the block's index that the nine corrected slabs restrict. -/
def diagAll (idx : S1x3x3x128x1024.Idx) : F .f32 :=
  addf (slabT i nb v5 xj (planeOf idx) (tileOf idx)) (negDiag (accT i nb v5 xj (planeOf idx) 8)) (cellOf idx)

/-- The corrected slab `3a + b`, stored at plane `(a, b)` of the diagonal tile, is `diagAll` there. -/
theorem piece_diagAll {off : Fin 5 → ℕ} {inb : ∀ a, off a + S1x1x1x128x128.size a ≤ S1x3x3x128x1024.size a} {a b : ℕ}
    (hoff : off = ![0, a, b, 0, 128 * (i 1).val]) (pl : Fin 9) (hpl : pl.val = 3 * a + b)
    (x : S1x1x1x128x128.Idx) :
    up (diagSlab i nb v5 xj pl) x
      = diagAll i nb v5 xj ((Rect.unit (s := S1x3x3x128x1024) off S1x1x1x128x128.size inb).emb x) := by
  rw [diagAll, planeOf_emb hoff pl hpl x, tileOf_emb (diagTile i) hoff x, cellOf_emb hoff x, up_apply]
  rfl

/-- The nine diagonal stores (latest first), each the corrected slab of its plane. -/
def diagPieces : List (View.Piece (Elt F) S1x3x3x128x1024 .f32) :=
  [
   ⟨Rect.unit (s := S1x3x3x128x1024) (k0_off21 i) S1x1x1x128x128.size (k0_off21_inb i), up (diagSlab i nb v5 xj 8)⟩,
   ⟨Rect.unit (s := S1x3x3x128x1024) (k0_off20 i) S1x1x1x128x128.size (k0_off20_inb i), up (diagSlab i nb v5 xj 7)⟩,
   ⟨Rect.unit (s := S1x3x3x128x1024) (k0_off19 i) S1x1x1x128x128.size (k0_off19_inb i), up (diagSlab i nb v5 xj 6)⟩,
   ⟨Rect.unit (s := S1x3x3x128x1024) (k0_off18 i) S1x1x1x128x128.size (k0_off18_inb i), up (diagSlab i nb v5 xj 5)⟩,
   ⟨Rect.unit (s := S1x3x3x128x1024) (k0_off17 i) S1x1x1x128x128.size (k0_off17_inb i), up (diagSlab i nb v5 xj 4)⟩,
   ⟨Rect.unit (s := S1x3x3x128x1024) (k0_off16 i) S1x1x1x128x128.size (k0_off16_inb i), up (diagSlab i nb v5 xj 3)⟩,
   ⟨Rect.unit (s := S1x3x3x128x1024) (k0_off15 i) S1x1x1x128x128.size (k0_off15_inb i), up (diagSlab i nb v5 xj 2)⟩,
   ⟨Rect.unit (s := S1x3x3x128x1024) (k0_off14 i) S1x1x1x128x128.size (k0_off14_inb i), up (diagSlab i nb v5 xj 1)⟩,
   ⟨Rect.unit (s := S1x3x3x128x1024) (k0_off13 i) S1x1x1x128x128.size (k0_off13_inb i), up (diagSlab i nb v5 xj 0)⟩]

theorem diagPieces_diagAll :
    ∀ p ∈ diagPieces i nb v5 xj, ∀ x : p.1.shape.Idx, p.2 x = diagAll i nb v5 xj (p.1.emb x) := by
  intro p hp
  simp only [diagPieces, List.mem_cons, List.not_mem_nil, or_false] at hp
  rcases hp with rfl | rfl | rfl | rfl | rfl | rfl | rfl | rfl | rfl
  · exact piece_diagAll i nb v5 xj (inb := k0_off21_inb i) (k0_off21_eq i) 8 rfl
  · exact piece_diagAll i nb v5 xj (inb := k0_off20_inb i) (k0_off20_eq i) 7 rfl
  · exact piece_diagAll i nb v5 xj (inb := k0_off19_inb i) (k0_off19_eq i) 6 rfl
  · exact piece_diagAll i nb v5 xj (inb := k0_off18_inb i) (k0_off18_eq i) 5 rfl
  · exact piece_diagAll i nb v5 xj (inb := k0_off17_inb i) (k0_off17_eq i) 4 rfl
  · exact piece_diagAll i nb v5 xj (inb := k0_off16_inb i) (k0_off16_eq i) 3 rfl
  · exact piece_diagAll i nb v5 xj (inb := k0_off15_inb i) (k0_off15_eq i) 2 rfl
  · exact piece_diagAll i nb v5 xj (inb := k0_off14_inb i) (k0_off14_eq i) 1 rfl
  · exact piece_diagAll i nb v5 xj (inb := k0_off13_inb i) (k0_off13_eq i) 0 rfl

/-- An entry in the diagonal tile's columns lies under the diagonal store of its plane; -/
theorem diagPieces_cover (idx : S1x3x3x128x1024.Idx) (h : (idx 4).val / 128 = (i 1).val) :
    ∃ p ∈ diagPieces i nb v5 xj, idx ∈ p.1.set := by
  obtain ⟨h0, h1, h2, h3, h4⟩ := idxS_lt idx
  have c1 : (idx 1).val = 0 ∨ (idx 1).val = 1 ∨ (idx 1).val = 2 := by omega
  have c2 : (idx 2).val = 0 ∨ (idx 2).val = 1 ∨ (idx 2).val = 2 := by omega
  rcases c1 with e1 | e1 | e1 <;> rcases c2 with e2 | e2 | e2
  · exact ⟨_, .tail _ (.tail _ (.tail _ (.tail _ (.tail _ (.tail _ (.tail _ (.tail _ (.head _)))))))),
      (mem_tile (inb := k0_off13_inb i) (k0_off13_eq i) idx).mpr ⟨e1, e2, h⟩⟩
  · exact ⟨_, .tail _ (.tail _ (.tail _ (.tail _ (.tail _ (.tail _ (.tail _ (.head _))))))),
      (mem_tile (inb := k0_off14_inb i) (k0_off14_eq i) idx).mpr ⟨e1, e2, h⟩⟩
  · exact ⟨_, .tail _ (.tail _ (.tail _ (.tail _ (.tail _ (.tail _ (.head _)))))),
      (mem_tile (inb := k0_off15_inb i) (k0_off15_eq i) idx).mpr ⟨e1, e2, h⟩⟩
  · exact ⟨_, .tail _ (.tail _ (.tail _ (.tail _ (.tail _ (.head _))))),
      (mem_tile (inb := k0_off16_inb i) (k0_off16_eq i) idx).mpr ⟨e1, e2, h⟩⟩
  · exact ⟨_, .tail _ (.tail _ (.tail _ (.tail _ (.head _)))),
      (mem_tile (inb := k0_off17_inb i) (k0_off17_eq i) idx).mpr ⟨e1, e2, h⟩⟩
  · exact ⟨_, .tail _ (.tail _ (.tail _ (.head _))),
      (mem_tile (inb := k0_off18_inb i) (k0_off18_eq i) idx).mpr ⟨e1, e2, h⟩⟩
  · exact ⟨_, .tail _ (.tail _ (.head _)),
      (mem_tile (inb := k0_off19_inb i) (k0_off19_eq i) idx).mpr ⟨e1, e2, h⟩⟩
  · exact ⟨_, .tail _ (.head _),
      (mem_tile (inb := k0_off20_inb i) (k0_off20_eq i) idx).mpr ⟨e1, e2, h⟩⟩
  · exact ⟨_, .head _,
      (mem_tile (inb := k0_off21_inb i) (k0_off21_eq i) idx).mpr ⟨e1, e2, h⟩⟩

/-- an entry in another tile's columns lies under none. -/
theorem diagPieces_miss (idx : S1x3x3x128x1024.Idx) (h : ¬ (idx 4).val / 128 = (i 1).val) :
    ∀ p ∈ diagPieces i nb v5 xj, idx ∉ p.1.set := by
  intro p hp
  simp only [diagPieces, List.mem_cons, List.not_mem_nil, or_false] at hp
  rcases hp with rfl | rfl | rfl | rfl | rfl | rfl | rfl | rfl | rfl
  · exact fun hm => h ((mem_tile (inb := k0_off21_inb i) (k0_off21_eq i) idx).mp hm).2.2
  · exact fun hm => h ((mem_tile (inb := k0_off20_inb i) (k0_off20_eq i) idx).mp hm).2.2
  · exact fun hm => h ((mem_tile (inb := k0_off19_inb i) (k0_off19_eq i) idx).mp hm).2.2
  · exact fun hm => h ((mem_tile (inb := k0_off18_inb i) (k0_off18_eq i) idx).mp hm).2.2
  · exact fun hm => h ((mem_tile (inb := k0_off17_inb i) (k0_off17_eq i) idx).mp hm).2.2
  · exact fun hm => h ((mem_tile (inb := k0_off16_inb i) (k0_off16_eq i) idx).mp hm).2.2
  · exact fun hm => h ((mem_tile (inb := k0_off15_inb i) (k0_off15_eq i) idx).mp hm).2.2
  · exact fun hm => h ((mem_tile (inb := k0_off14_inb i) (k0_off14_eq i) idx).mp hm).2.2
  · exact fun hm => h ((mem_tile (inb := k0_off13_inb i) (k0_off13_eq i) idx).mp hm).2.2

variable (arg4 : Memref sig .tc .vmem S1x3x3x128x1024 .f32) (f : BufTy.Contents (Elt F) arg4.view.ty)

/-- Read back after the loop, the load of plane `(a, b)`, tile `k` is the slab stored there. -/
theorem readAt_afterLoop {off : Fin 5 → ℕ} {inb : ∀ a, off a + S1x1x1x128x128.size a ≤ S1x3x3x128x1024.size a} {a b : ℕ}
    (k : Fin k0_t1_loop.trips) (hoff : off = ![0, a, b, 0, 128 * k.val]) (pl : Fin 9) (hpl : pl.val = 3 * a + b) :
    View.readAt (Elt F) arg4.view (Rect.unit (s := S1x3x3x128x1024) off S1x1x1x128x128.size inb).toLoadRect
      (afterLoop i nb v5 xj arg4 f) = up (slabT i nb v5 xj pl k) := by
  funext x
  rw [View.readAt_apply, read_afterLoop]
  exact (piece_slabAll i nb v5 xj (inb := inb) k hoff pl hpl x).symm

/-- After the first diagonal store, an entry outside plane `(0, 0)` still reads its slab. -/
theorem read_afterFirst_of_plane_ne (idx : S1x3x3x128x1024.Idx) (h : ¬ ((idx 1).val = 0 ∧ (idx 2).val = 0)) :
    arg4.view.read (Elt F) (afterFirst i nb v5 xj arg4 f) idx = slabAll i nb v5 xj idx := by
  unfold afterFirst
  refine (View.read_writes_apply_of_forall_not_mem arg4.view _ idx _ ?_).trans
    (congrFun (read_afterLoop i nb v5 xj arg4 f) idx)
  intro p hp
  obtain rfl := List.mem_singleton.mp hp
  exact fun hm => h ⟨((mem_tile (inb := k0_off13_inb i) (k0_off13_eq i) idx).mp hm).1,
    ((mem_tile (inb := k0_off13_inb i) (k0_off13_eq i) idx).mp hm).2.1⟩

/-- So the loads of the other eight planes' diagonal tiles, made after the first diagonal store, are the slabs the
    loop stored there. -/
theorem readAt_afterFirst {off : Fin 5 → ℕ} {inb : ∀ a, off a + S1x1x1x128x128.size a ≤ S1x3x3x128x1024.size a} {a b : ℕ}
    (hoff : off = ![0, a, b, 0, 128 * (i 1).val]) (pl : Fin 9) (hpl : pl.val = 3 * a + b) (hne : ¬ (a = 0 ∧ b = 0)) :
    View.readAt (Elt F) arg4.view (Rect.unit (s := S1x3x3x128x1024) off S1x1x1x128x128.size inb).toLoadRect
      (afterFirst i nb v5 xj arg4 f) = up (slabT i nb v5 xj pl (diagTile i)) := by
  funext x
  obtain ⟨e1, e2, e3, e4⟩ := emb_tile (inb := inb) hoff x
  rw [View.readAt_apply]
  refine (read_afterFirst_of_plane_ne i nb v5 xj arg4 f
    ((Rect.unit (s := S1x3x3x128x1024) off S1x1x1x128x128.size inb).emb x) (by rw [e1, e2]; exact hne)).trans ?_
  exact (piece_slabAll i nb v5 xj (inb := inb) (diagTile i) hoff pl hpl x).symm

/-- The buffer at the end is the nine corrected slabs stored over what the loop left. -/
theorem outOf_eq : outOf i nb v5 xj arg4 f
    = arg4.view.writes (Elt F) (afterLoop i nb v5 xj arg4 f) (diagPieces i nb v5 xj) := by
  unfold outOf
  rw [readAt_afterFirst i nb v5 xj arg4 f (inb := k0_off21_inb i) (k0_off21_eq i) 8 rfl (by decide),
    readAt_afterFirst i nb v5 xj arg4 f (inb := k0_off20_inb i) (k0_off20_eq i) 7 rfl (by decide),
    readAt_afterFirst i nb v5 xj arg4 f (inb := k0_off19_inb i) (k0_off19_eq i) 6 rfl (by decide),
    readAt_afterFirst i nb v5 xj arg4 f (inb := k0_off18_inb i) (k0_off18_eq i) 5 rfl (by decide),
    readAt_afterFirst i nb v5 xj arg4 f (inb := k0_off17_inb i) (k0_off17_eq i) 4 rfl (by decide),
    readAt_afterFirst i nb v5 xj arg4 f (inb := k0_off16_inb i) (k0_off16_eq i) 3 rfl (by decide),
    readAt_afterFirst i nb v5 xj arg4 f (inb := k0_off15_inb i) (k0_off15_eq i) 2 rfl (by decide),
    readAt_afterFirst i nb v5 xj arg4 f (inb := k0_off14_inb i) (k0_off14_eq i) 1 rfl (by decide)]
  unfold afterFirst
  rw [readAt_afterLoop i nb v5 xj arg4 f (inb := k0_off13_inb i) (diagTile i) (k0_off13_eq i) 0 rfl]
  simp only [diagPay, down_up]
  rw [← View.writes_append]
  unfold diagPieces diagSlab
  simp only [List.cons_append, List.nil_append]

end Diag

/-- The block's buffer at the end, read through its memref, is `outBlk`, whatever it held at the start. -/
theorem read_outOf (i : grid0.Coords) (nb : Elt F .i32) (v5 : Vec F S1x128x3 .f32)
    (xj : Fin k0_t1_loop.trips → Vec F S1x128x3 .f32)
    (arg4 : Memref sig .tc .vmem S1x3x3x128x1024 .f32) (harg4 : arg4.IsWhole)
    (f : BufTy.Contents (Elt F) arg4.view.ty) :
    arg4.view.read (Elt F) (outOf i nb v5 xj arg4 f) = outBlk i nb v5 xj := by
  funext idx
  rw [outOf_eq]
  unfold outBlk
  by_cases h : (idx 4).val / 128 = (i 1).val
  · rw [if_pos h]
    exact View.read_writes_apply_of_pieces arg4.view _ (diagAll i nb v5 xj) (diagPieces i nb v5 xj)
      (diagPieces_diagAll i nb v5 xj) idx (diagPieces_cover i nb v5 xj idx h)
  · rw [if_neg h]
    exact (View.read_writes_apply_of_forall_not_mem arg4.view _ idx _ (diagPieces_miss i nb v5 xj idx h)).trans
      (congrFun (read_afterLoop i nb v5 xj arg4 f) idx)

end Cert.KernelIdeal.Hand

end
-- ==== Proof.KI.Out.lean ====
/-
  What one grid point leaves in the output block, in the tile vocabulary: the run's result, opened once, is the
  stores of the eight tiles, then the nine diagonal slabs read back, corrected by the negated row sums and
  stored again; read as a function of the block's index it is `outBlk`.
-/
import proofs.«406191_j17231408791693_3_alg».proof.Proof.KI.Body
import proofs.«406191_j17231408791693_3_alg».proof.Proof.KI.Trip
import proofs.«406191_j17231408791693_3_alg».proof.Proof.KI.Cover

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable {F : FTy → Type} [FloatOps F]

/-- The atom count of the point's batch, as the body loads it from the table. -/
abbrev nbW (c : Dev nD) (i : grid0.Coords) (xt0 : TbBuf (F := F) c tbM) : Elt F .i32 :=
  View.readAt (Elt F) tbM.view (Rect.unit (s := S8) (k0_off1 i) S1.size (k0_off1_inb i)).toLoadRect xt0
    (Shape.Idx.first (numel1_S1.symm ▸ Nat.one_pos))

/-- The point's own 128 atoms, read off the coordinate block's buffer. -/
abbrev rowBlk (i : grid0.Coords) (arg3 : Memref sig .tc .vmem S1x1024x3 .f32) (X3 : BufTy.Contents (Elt F) arg3.view.ty) :
    Vec F S1x128x3 .f32 :=
  View.readAt (Elt F) arg3.view (Rect.unit (s := S1x1024x3) (k0_off2 i) S1x128x3.size (k0_off2_inb i)).toLoadRect X3

/-- Read off the buffer of a whole memref, they are the reads off the block itself. -/
theorem rowBlk_eq (i : grid0.Coords) (arg3 : Memref sig .tc .vmem S1x1024x3 .f32) (harg3 : arg3.IsWhole) (x0 : Vec F S1x1024x3 .f32) :
    rowBlk i arg3 (harg3.unread x0) = rowsOf i x0 := by
  unfold rowBlk rowsOf; rw [View.readAt_eq_ld, harg3.read_unread]
theorem colBlk_eq (arg3 : Memref sig .tc .vmem S1x1024x3 .f32) (harg3 : arg3.IsWhole) (x0 : Vec F S1x1024x3 .f32) :
    colBlk arg3 (harg3.unread x0) = colsOf x0 := by
  funext k; unfold colBlk colsOf; rw [View.readAt_eq_ld, harg3.read_unread]

/-- The nine diagonal payloads as the body spells them are all `diagPay`: the slab read back plus the negated row sum
    on the diagonal. -/
theorem dp0 (a : FVec F S128x1 .f32) (cur : Vec F S1x1x1x128x128 .f32) : k0_pay47 (k0_pay46 a) cur = diagPay a cur := rfl
theorem dp1 (a : FVec F S128x1 .f32) (cur : Vec F S1x1x1x128x128 .f32) : k0_pay48 (k0_pay29 (F := F)) a cur = diagPay a cur := rfl
theorem dp2 (a : FVec F S128x1 .f32) (cur : Vec F S1x1x1x128x128 .f32) : k0_pay49 (k0_pay29 (F := F)) a cur = diagPay a cur := rfl
theorem dp3 (a : FVec F S128x1 .f32) (cur : Vec F S1x1x1x128x128 .f32) :
    k0_pay50 (k0_pay29 (F := F)) a (FloatOps.ofBits FTy.f32 0#32) cur = diagPay a cur := rfl
theorem dp4 (a : FVec F S128x1 .f32) (cur : Vec F S1x1x1x128x128 .f32) : k0_pay51 (k0_pay29 (F := F)) a cur = diagPay a cur := rfl
theorem dp5 (a : FVec F S128x1 .f32) (cur : Vec F S1x1x1x128x128 .f32) : k0_pay53 (k0_pay52 (k0_pay29 (F := F)) a cur) = diagPay a cur := rfl
theorem dp6 (a : FVec F S128x1 .f32) (cur : Vec F S1x1x1x128x128 .f32) : k0_pay54 (k0_pay29 (F := F)) a cur = diagPay a cur := rfl
theorem dp7 (a : FVec F S128x1 .f32) (cur : Vec F S1x1x1x128x128 .f32) : k0_pay55 (k0_pay29 (F := F)) a cur = diagPay a cur := rfl
theorem dp8 (a : FVec F S128x1 .f32) (cur : Vec F S1x1x1x128x128 .f32) : k0_pay1 (k0_pay56 (k0_pay29 (F := F)) a) cur = diagPay a cur := rfl

/-- A single store through a rectangle is the one-piece list of stores. -/
theorem write_access (arg4 : Memref sig .tc .vmem S1x3x3x128x1024 .f32) (r : Rect S1x3x3x128x1024)
    (g : BufTy.Contents (Elt F) arg4.view.ty) (w : r.shape.Idx → Elt F .f32) :
    View.write (Elt F) (arg4.access r) g w Finset.univ = arg4.view.writes (Elt F) g [⟨r, w⟩] := rfl

set_option maxHeartbeats 1000000 in
/-- The run's result, opened once: the explicit chain of stores. -/
theorem out_eq (c : Dev nD) (i : grid0.Coords) (arg3 : Memref sig .tc .vmem S1x1024x3 .f32) (harg3 : arg3.IsWhole)
    (arg4 : Memref sig .tc .vmem S1x3x3x128x1024 .f32) (harg4 : arg4.IsWhole)
    (x0 : Vec F S1x1024x3 .f32) (xt0 : TbBuf (F := F) c tbM) (f : BufTy.Contents (Elt F) arg4.view.ty) :
    (kernelRun c i arg3 harg3 arg4 harg4 x0 xt0).1 f
      = outOf i (nbW c i xt0) (rowBlk i arg3 (harg3.unread x0)) (colBlk arg3 (harg3.unread x0)) arg4 f := by
  unfold kernelRun
  dsimp only
  sl_unfold_run_names
  rw [show Scf.trips k0_t1_loop.lb k0_t1_loop.ub k0_t1_loop.st = 8 from trips_eq]
  simp only [st_eq Variants.none c none i tbM htbM arg3 harg3 arg4 harg4 _ _ (harg3.unread x0) f 8 le_rfl, accs,
    dp0, dp1, dp2, dp3, dp4, dp5, dp6, dp7, dp8, write_access]
  rfl

/-- So the output block, read through its memref, holds `outBlk` of the table word and the coordinate block. -/
theorem read_out (c : Dev nD) (i : grid0.Coords) (arg3 : Memref sig .tc .vmem S1x1024x3 .f32) (harg3 : arg3.IsWhole)
    (arg4 : Memref sig .tc .vmem S1x3x3x128x1024 .f32) (harg4 : arg4.IsWhole)
    (x0 : Vec F S1x1024x3 .f32) (xt0 : TbBuf (F := F) c tbM) (f : BufTy.Contents (Elt F) arg4.view.ty) :
    arg4.view.read (Elt F) ((kernelRun c i arg3 harg3 arg4 harg4 x0 xt0).1 f)
      = outBlk i (nbW c i xt0) (rowsOf i x0) (colsOf x0) := by
  rw [out_eq, rowBlk_eq, colBlk_eq]
  exact read_outOf i _ _ _ arg4 harg4 f

end Cert.KernelIdeal.Hand

end
-- ==== Proof.KI.Frame.lean ====
/-
  The program's run. The proof data of the one pipeline: after the body at a grid point the coordinate window's
  buffer still holds its block, and the output window's buffer holds `outBlk` of the batch's atom count and that
  block. The body obligation is the body's symbolic run; the launch theorem then gives the run of @main: every
  weakly fair execution terminates, the region's arrays end at what the proof data names, and every other buffer at
  what the two later host operations make of the region's exit contents.
-/
import proofs.«406191_j17231408791693_3_alg».proof.Proof.KI.Kit
import proofs.«406191_j17231408791693_3_alg».proof.Proof.KI.Out

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- What the output block holds after the body at point `t`. -/
def outAt (c : Dev nD) (t : Fin (cfgM m).N) : S1x3x3x128x1024.Idx → Elt F .f32 :=
  outBlk (grid0.coords t) (nbW c (grid0.coords t) (tbl m 0)) (rowsOf (grid0.coords t) (iblk m c 0 t)) (colsOf (iblk m c 0 t))

/-- The arrays as the region finds them; after the body the coordinate block in place and the output block at
    `outAt`; the invariant the class's scoped rest and the table's half; nothing owed; full shares. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => outAt m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]
theorem after_in (c : Dev nD) (t : Fin (cfgM m).N) : (dats m 0 c).after 0 t = iblk m c 0 t := by dsimp only [dats]; try rfl
theorem after_out (c : Dev nD) (t : Fin (cfgM m).N) : (dats m 0 c).after 1 t = outAt m c t := by dsimp only [dats]; try rfl

/-- The coordinate window's buffer holds its block at every point; -/
theorem before_in (c : Dev nD) (t : Fin (cfgM m).N) (d) : (dats m 0 c).before 0 t d = iblk m c 0 t :=
  before_in_of m (dats m 0 c) (A_eq m c 0) (after_in m c) t d

/-- the output window's buffer, written back at every point, is fresh at every point. -/
theorem before_out (c : Dev nD) (t : Fin (cfgM m).N) (d) : (dats m 0 c).before 1 t d = d :=
  (dats m 0 c).before_out_reset 1 rfl t
    (by
      by_cases h0 : t.val = 0
      · exact .inl h0
      · exact .inr ⟨h0, flush_out m _⟩) d

/-! ## The body obligation -/

/-- The body at any point: from the coordinate block, a fresh output buffer and the table's half, it runs to the
    coordinate block in place and the output block at `outAt`; the invariant passes through. -/
theorem sound_body (c : Dev nD) (t : Fin (cfgM m).N) :
    iprop((dats m 0 c).Φ t.castSucc ∗ (dats m 0 c).owesAt () t.castSucc
      ∗ (∃ d, owns (c : Thread nD τ) (ms0 m t) fullShare ((dats m 0 c).before 0 t d))
      ∗ (∃ d, owns (c : Thread nD τ) (ms1 m t) fullShare ((dats m 0 c).before 1 t d)))
    ⊢ wp frame (wpE (defs₀ (F := F)) Variants.none c none) Set.univ (bodyAt m t) (fun _ =>
        iprop((dats m 0 c).Φ t.succ ∗ (dats m 0 c).owesAt () t.succ
          ∗ owns (c : Thread nD τ) (ms0 m t) fullShare ((dats m 0 c).after 0 t)
          ∗ owns (c : Thread nD τ) (ms1 m t) fullShare ((dats m 0 c).after 1 t))) := by
  simp only [before_in, before_out]
  rw [show (dats m 0 c).Φ t.succ = (dats m 0 c).Φ t.castSucc from rfl,
    show (dats m 0 c).owesAt () t.succ = (dats m 0 c).owesAt () t.castSucc from rfl,
    after_in, after_out]
  rw [show (dats m 0 c).Φ t.castSucc = iprop(Pipeline.ΦA spec0 c ∗ Pipeline.ΦT pre0 (tbl m) c) from rfl, PhiT_eq]
  iintro ⟨⟨HΦ, HT0⟩, Ho, ⟨%d0, H0⟩, ⟨%d1, H1⟩⟩
  iapply ((kernelRun c (grid0.coords t) (ms0 m t) (hs0 m t) (ms1 m t) (hs1 m t) (iblk m c 0 t) (tbl m 0)).2 Set.univ _)
  isplitl [H0]; · iexact H0
  isplitl [H1]; · iexists _; iexact H1
  isplitl [HT0]; · iexact HT0
  iintro ⟨H0, ⟨%f, H1⟩, HT0⟩
  isplitl [HΦ HT0]
  · isplitl [HΦ]
    · iexact HΦ
    iexact HT0
  isplitl [Ho]; · iexact Ho
  isplitl [H0]; · iexact H0
  unfold owns
  iexists _
  isplitr
  · ipureintro
    exact read_out c (grid0.coords t) (ms0 m t) (hs0 m t) (ms1 m t) (hs1 m t) (iblk m c 0 t) (tbl m 0) f
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; the region's arrays end at what the proof data computes and
    every other unscoped buffer at what the transpose and the reshape after the region make of the exit contents. -/
theorem run_main : θ_run defs (onTc (τ := τ) (main (F := F))) (s₀ m ρ)
    (Pipeline.FramePost (Pipeline.pin pcfgs fun _ => adm m) (dats m) 0
      (Pipeline.afterTail pcfgs (fun _ => adm m) (dats m) 0 (V0 m) [hostOps1])) :=
  Pipeline.θ_run_frameP_around pcfgs (fun _ => adm m) (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := hmain m Variants.none) (hA := A_eq m) (hpf := V_pre m) (hΦ := fun _ _ => rfl)

end Cert.KernelIdeal.Hand

end
-- ==== Proof.Spec.lean ====
/-
  The Hessian blocks of the pair potential, entry by entry, over the extended reals.

  `x b a k` is coordinate `k` of atom `a` in batch `b`; `n b` is the number of atoms of batch `b` (a signed
  32-bit word). Atom `a` counts when `a < n b`; a pair counts when both atoms do. For a pair `(i, j)`

    sep k   = (x i k - x j k) · [pair counts]
    dist2   = Σₖ sep k² + ε
    hs c c' = -(sep c · sep c') / dist2

  and the result has `hs` off the diagonal `i ≠ j` and, on it, minus the sum of row `i`'s blocks over all
  partners `j` (the partner `j = i` included, whose block is zero when the coordinates are real numbers).

  Two closed forms are stated. `Href` is the one above. `Hker` is the form a computation tiled in 128 columns
  produces: every entry starts as `hs`; a running row sum gains one tile's sum per step; and on the tile that holds the
  diagonal the negated row sum, times the indicator of the diagonal, is added to what is there.
-/
import Idealize.ShloMosaic.PureOps.Ideal
import Idealize.ShloMosaic.Lib.ValueIdx
import Mathlib.Algebra.BigOperators.Fin

noncomputable section

namespace Cert.Stress

open Idealize.ShloMosaic

/-- The small constant added to the squared distance: the float32 nearest 1e-5, read exactly. -/
def eps : EReal := Ideal.ofBits .f32 0x3727C5AC#32

/-- Atom `a` is one of the first `n` (a signed comparison of 32-bit words; `a` is below 1024). -/
def counts (n : BitVec 32) (a : ℕ) : Prop := (BitVec.ofNat 32 a).slt n = true

instance (n : BitVec 32) (a : ℕ) : Decidable (counts n a) := by unfold counts; infer_instance

/-- The pair mask: one when both atoms count, zero otherwise. -/
def mask (n : BitVec 32) (i j : ℕ) : EReal := if counts n i ∧ counts n j then 1 else 0

section

variable (x : Fin 8 → Fin 1024 → Fin 3 → EReal) (n : Fin 8 → BitVec 32)

/-- Masked separation of atoms `i` and `j` along axis `k`. -/
def sep (b : Fin 8) (i j : Fin 1024) (k : Fin 3) : EReal := (x b i k - x b j k) * mask (n b) i.val j.val

/-- Squared masked distance plus ε. -/
def dist2 (b : Fin 8) (i j : Fin 1024) : EReal := (∑ k : Fin 3, sep x n b i j k * sep x n b i j k) + eps

/-- The 3×3 block of the pair `(i, j)`, entry `(c, c')`. -/
def hs (b : Fin 8) (i j : Fin 1024) (c c' : Fin 3) : EReal :=
  Ideal.div (-(sep x n b i j c * sep x n b i j c')) (dist2 x n b i j)

/-- Row `i`'s blocks summed over all partners. -/
def rowsum (b : Fin 8) (i : Fin 1024) (c c' : Fin 3) : EReal := ∑ j : Fin 1024, hs x n b i j c c'

/-- The result: minus the row sum on the diagonal, the pair's block off it. -/
def Href (b : Fin 8) (i j : Fin 1024) (c c' : Fin 3) : EReal :=
  if i = j then -(rowsum x n b i c c') else hs x n b i j c c'

/-- Column `p` of tile `t` (eight tiles of 128 columns). -/
def col (t : ℕ) (p : Fin 128) (ht : t < 8) : Fin 1024 := ⟨128 * t + p.val, by have := p.isLt; omega⟩

/-- The sum of row `i`'s blocks over the 128 partners of tile `t` (zero past the last tile). -/
def tilesum (b : Fin 8) (i : Fin 1024) (c c' : Fin 3) (t : ℕ) : EReal :=
  if ht : t < 8 then ∑ p : Fin 128, hs x n b i (col t p ht) c c' else 0

/-- The running row sum after `k` tiles: it starts at zero and gains zero plus a tile's sum per step. -/
def acc (b : Fin 8) (i : Fin 1024) (c c' : Fin 3) : ℕ → EReal
  | 0 => 0
  | k + 1 => acc b i c c' k + (0 + tilesum x n b i c c' k)

/-- The tiled form of the result: the pair's block, and on the tile that holds the diagonal also the negated
    row sum (zero minus it) times the diagonal's indicator. -/
def Hker (b : Fin 8) (i j : Fin 1024) (c c' : Fin 3) : EReal :=
  if i.val / 128 = j.val / 128 then
    hs x n b i j c c' + (0 - acc x n b i c c' 8) * (if i.val % 128 = j.val % 128 then 1 else 0)
  else hs x n b i j c c'

end

/-! ## The same over the argument arrays and the result array

The coordinates arrive as one row of 3072 numbers per batch, atom `a`'s three coordinates at places `3a, 3a+1, 3a+2`;
the result is one 3072×3072 matrix per batch, the block of the pair `(i, j)` at rows `3i … 3i+2` and columns
`3j … 3j+2`. -/

/-- The shapes of the coordinate array, the atom-count array and the result array. -/
abbrev SX : Shape := ⟨2, ![8, 3072]⟩
abbrev SN : Shape := ⟨1, ![8]⟩
abbrev SR : Shape := ⟨3, ![8, 3072, 3072]⟩

/-- Coordinate `k` of atom `a` of batch `b`, read off the coordinate array. -/
def xOf (X : SX.Idx → EReal) : Fin 8 → Fin 1024 → Fin 3 → EReal :=
  fun b a k => X (ValueIdx.ix2 b ⟨3 * a.val + k.val, by have := a.isLt; have := k.isLt; omega⟩)

/-- The atom count of batch `b`, read off the atom-count array. -/
def nOf (N : SN.Idx → BitVec 32) : Fin 8 → BitVec 32 := fun b => N (ValueIdx.ix1 b)

/-- A family of 3×3 blocks per batch and pair, laid out as the result array: row `p` belongs to atom `p / 3`,
    axis `p % 3`, and likewise the column. -/
def unflat (H : Fin 8 → Fin 1024 → Fin 1024 → Fin 3 → Fin 3 → EReal) : SR.Idx → EReal := fun idx =>
  H ⟨(idx 0).val, (idx 0).isLt⟩
    ⟨(idx 1).val / 3, by have : (idx 1).val < 3072 := (idx 1).isLt; omega⟩
    ⟨(idx 2).val / 3, by have : (idx 2).val < 3072 := (idx 2).isLt; omega⟩
    ⟨(idx 1).val % 3, Nat.mod_lt _ (by decide)⟩
    ⟨(idx 2).val % 3, Nat.mod_lt _ (by decide)⟩

/-- The result array in the plain form and in the tiled form. -/
def resultRef (X : SX.Idx → EReal) (N : SN.Idx → BitVec 32) : SR.Idx → EReal := unflat (Href (xOf X) (nOf N))
def resultKer (X : SX.Idx → EReal) (N : SN.Idx → BitVec 32) : SR.Idx → EReal := unflat (Hker (xOf X) (nOf N))

end Cert.Stress

end
-- ==== Proof.KI.SlabValue.lean ====
/-
  One slab entry at the ideal instance: entry `(r, cc)` of slab `p = 3c + c'` of tile `k`, for the point's rows
  `128·i₁ + r` and the tile's partners `128·k + cc`, is the specification's pair block `hs` at those two atoms and axes
  `(c, c')`.
-/
import proofs.«406191_j17231408791693_3_alg».proof.Proof.KI.Tile
import proofs.«406191_j17231408791693_3_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem

/-- The coordinates in a point's block: atom `a`, axis `k`. -/
def xBlk (x0 : Vec Ideal S1x1024x3 .f32) : Fin 1024 → Fin 3 → EReal := fun a k => x0 (ValueIdx.ix3 (0 : Fin 1) a k)

/-- Row `r` of the point `i` is atom `128·i₁ + r`; column `cc` of tile `k` is atom `128·k + cc`. -/
def rowAt (i : grid0.Coords) (r : Fin 128) : Fin 1024 :=
  ⟨128 * (i 1).val + r.val, by have h1 : (i 1).val < 8 := (i 1).isLt; have := r.isLt; omega⟩
def colAt (k : Fin k0_t1_loop.trips) (cc : Fin 128) : Fin 1024 :=
  ⟨128 * k.val + cc.val, by have hk : k.val < 8 := trips_eq ▸ k.isLt; have := cc.isLt; omega⟩

namespace Slab

open Idealize.ShloMosaic.ValueIdx

/-! ## Words -/

/-- The word of `t` times 128 plus the word of `r` is the word of `128·t + r`. -/
theorem word_tile (t r : ℕ) :
    IntOp.addi (Scalar.muli (BitVec.ofNat 32 t) 128#32) (BitVec.ofNat 32 r) = BitVec.ofNat 32 (128 * t + r) := by
  show BitVec.ofNat 32 t * BitVec.ofNat 32 128 + BitVec.ofNat 32 r = _
  rw [← BitVec.ofNat_mul, ← BitVec.ofNat_add, Nat.mul_comm]

/-- The induction variable of trip `k` of a loop from 0 by 1 is the word of `k`. -/
theorem iv_word (k : ℕ) : Scf.iv 0#32 1#32 k = BitVec.ofNat 32 k := by
  simp [Scf.iv]

/-- A one-bit word widened to 32 bits and converted to a float is 1 or 0. -/
theorem sitofp_bit (b : Bool) :
    FloatOps.sitofp (F := Ideal) .f32 ((BitVec.ofBool b).setWidth 32) = if b = true then (1 : EReal) else 0 := by
  cases b
  · show (((BitVec.setWidth 32 (BitVec.ofBool false)).toInt : ℝ) : EReal) = _
    have h : (BitVec.setWidth 32 (BitVec.ofBool false)).toInt = 0 := by decide
    rw [h]; simp
  · show (((BitVec.setWidth 32 (BitVec.ofBool true)).toInt : ℝ) : EReal) = _
    have h : (BitVec.setWidth 32 (BitVec.ofBool true)).toInt = 1 := by decide
    rw [h]; simp

/-- "Atom `a` counts" as a float: the signed comparison of the word of `a` with the count, widened and converted. -/
theorem valid_word (nb : BitVec 32) (a : ℕ) :
    FloatOps.sitofp (F := Ideal) .f32 ((IntOp.cmpi .slt (BitVec.ofNat 32 a) nb).setWidth 32)
      = if Cert.Stress.counts nb a then (1 : EReal) else 0 := by
  show FloatOps.sitofp (F := Ideal) .f32 ((BitVec.ofBool ((BitVec.ofNat 32 a).slt nb)).setWidth 32) = _
  rw [sitofp_bit]
  by_cases h : Cert.Stress.counts nb a
  · rw [if_pos h, if_pos (show (BitVec.ofNat 32 a).slt nb = true from h)]
  · rw [if_neg h, if_neg (show ¬(BitVec.ofNat 32 a).slt nb = true from h)]

/-! ## The validity of rows and columns -/

/-- Row `r` of the rows' validity column: one when atom `128·i₁ + r` counts. -/
theorem pay28_apply (i : grid0.Coords) (nb : BitVec 32) (r : Fin 128) (z : Fin 1) :
    k0_pay28 (F := Ideal) i nb (ix2 r z) = if Cert.Stress.counts nb (128 * (i 1).val + r.val) then (1 : EReal) else 0 := by
  unfold k0_pay28
  show FloatOps.sitofp (F := Ideal) .f32 ((IntOp.cmpi .slt (IntOp.addi (Scalar.muli (BitVec.ofNat 32 (i 1).val) 128#32)
    (iota .tc S128x1 32 [0] iota_S128x1_d0_w32 (ix2 r z))) nb).setWidth 32) = _
  rw [iota_single_apply]
  show FloatOps.sitofp (F := Ideal) .f32 ((IntOp.cmpi .slt (IntOp.addi (Scalar.muli (BitVec.ofNat 32 (i 1).val) 128#32)
    (BitVec.ofNat 32 r.val)) nb).setWidth 32) = _
  rw [word_tile, valid_word]

/-! ## Layout operations at an index given by coordinates -/

section Layout
variable {α : Type}

/-- A column `[a, 1]` broadcast to `[a, b]` reads, at `(p, c)`, the column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- `[a, b, 1]` broadcast to `[a, b, c]` reads, at `(p, q, e)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (e : Fin c) :
    broadcastTo ⟨3, ![a, b, c]⟩ v h (ix3 p q e) = v (ix3 p q (0 : Fin 1)) := by
  refine broadcastTo_apply v h (ix3 p q e) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[1, b, c]` broadcast to `[a, b, c]` reads, at `(p, q, e)`, the operand at `(0, q, e)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (e : Fin c) :
    broadcastTo ⟨3, ![a, b, c]⟩ v h (ix3 p q e) = v (ix3 (0 : Fin 1) q e) := by
  refine broadcastTo_apply v h (ix3 p q e) (ix3 (0 : Fin 1) q e) fun ax => ?_
  match ax with
  | ⟨0, _⟩ => rfl
  | ⟨1, _⟩ =>
    show q.val = if b = 1 then 0 else q.val
    split
    · have := q.isLt; omega
    · rfl
  | ⟨2, _⟩ =>
    show e.val = if c = 1 then 0 else e.val
    split
    · have := e.isLt; omega
    · rfl

/-- `[a, 1, c]` broadcast to `[a, b, c]` reads, at `(p, q, e)`, the operand at `(p, 0, e)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (e : Fin c) :
    broadcastTo ⟨3, ![a, b, c]⟩ v h (ix3 p q e) = v (ix3 p (0 : Fin 1) e) := by
  refine broadcastTo_apply v h (ix3 p q e) (ix3 p (0 : Fin 1) e) fun ax => ?_
  match ax with
  | ⟨0, _⟩ =>
    show p.val = if a = 1 then 0 else p.val
    split
    · have := p.isLt; omega
    · rfl
  | ⟨1, _⟩ => rfl
  | ⟨2, _⟩ =>
    show e.val = if c = 1 then 0 else e.val
    split
    · have := e.isLt; omega
    · rfl

/-- `[a, b]` cast to `[a, b, 1]` reads, at `(p, q, z)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) :=
  shapeCast_apply x h _ _ (by
    have hz : z.val = 0 := by omega
    rw [Shape.rowMajor_val_three, Shape.rowMajor_val_two]
    show p.val * b + q.val = (p.val * b + q.val) * 1 + z.val
    rw [hz, Nat.mul_one, Nat.add_zero])

/-- `[a, c]` cast to `[a, 1, c]` reads, at `(p, z, e)`, the operand at `(p, e)`. -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (e : Fin c) :
    shapeCast ⟨3, ![a, 1, c]⟩ x h (ix3 p z e) = x (ix2 p e) :=
  shapeCast_apply x h _ _ (by
    have hz : z.val = 0 := by omega
    rw [Shape.rowMajor_val_three, Shape.rowMajor_val_two]
    show p.val * c + e.val = (p.val * 1 + z.val) * c + e.val
    rw [hz, Nat.mul_one, Nat.add_zero])

/-- `[a, 1, c]` cast to `[a, c]` reads, at `(p, e)`, the operand at `(p, 0, e)`. -/
theorem shapeCast_a1c_ac_apply {a c : ℕ} (x : (⟨3, ![a, 1, c]⟩ : Shape).Idx → α)
    (h : (⟨3, ![a, 1, c]⟩ : Shape).ShapeCasts ⟨2, ![a, c]⟩) (p : Fin a) (e : Fin c) :
    shapeCast ⟨2, ![a, c]⟩ x h (ix2 p e) = x (ix3 p (0 : Fin 1) e) :=
  shapeCast_apply x h _ _ (by
    rw [Shape.rowMajor_val_three, Shape.rowMajor_val_two]
    show (p.val * 1 + 0) * c + e.val = p.val * c + e.val
    rw [Nat.mul_one, Nat.add_zero])

end Layout

/-! ## The point's rows and a tile's columns -/

/-- Row `r`, axis `a` of the point's rows is coordinate `a` of atom `128·i₁ + r`. -/
theorem rowsOf_apply (i : grid0.Coords) (x0 : Vec Ideal S1x1024x3 .f32) (u : Fin 1) (r : Fin 128) (a : Fin 3) :
    rowsOf i x0 (ix3 u r a) = xBlk x0 (rowAt i r) a := by
  show x0 _ = x0 (ix3 (0 : Fin 1) (rowAt i r) a)
  refine congrArg x0 (funext fun ax => Fin.ext ?_)
  have hu : u.val = 0 := by omega
  match ax with
  | ⟨0, _⟩ =>
    show k0_off2 i 0 + 1 * u.val = 0
    rw [k0_off2_eq, hu]; rfl
  | ⟨1, _⟩ =>
    show k0_off2 i 1 + 1 * r.val = 128 * (i 1).val + r.val
    rw [k0_off2_eq, Nat.one_mul]; rfl
  | ⟨2, _⟩ =>
    show k0_off2 i 2 + 1 * a.val = a.val
    rw [k0_off2_eq, Nat.one_mul]; exact Nat.zero_add _

/-- Column `cc`, axis `a` of tile `k`'s columns is coordinate `a` of atom `128·k + cc`. -/
theorem colsOf_apply (x0 : Vec Ideal S1x1024x3 .f32) (k : Fin k0_t1_loop.trips) (u : Fin 1) (cc : Fin 128) (a : Fin 3) :
    colsOf x0 k (ix3 u cc a) = xBlk x0 (colAt k cc) a := by
  show x0 _ = x0 (ix3 (0 : Fin 1) (colAt k cc) a)
  refine congrArg x0 (funext fun ax => Fin.ext ?_)
  have hu : u.val = 0 := by omega
  match ax with
  | ⟨0, _⟩ =>
    show k0_off3 k 0 + 1 * u.val = 0
    rw [k0_off3_eq, hu]; rfl
  | ⟨1, _⟩ =>
    show k0_off3 k 1 + 1 * cc.val = 128 * k.val + cc.val
    rw [k0_off3_eq, Nat.one_mul]; rfl
  | ⟨2, _⟩ =>
    show k0_off3 k 2 + 1 * a.val = a.val
    rw [k0_off3_eq, Nat.one_mul]; exact Nat.zero_add _

/-- The rows as a `[128, 3]` array. -/
theorem pay27_apply (v5 : Vec Ideal S1x128x3 .f32) (r : Fin 128) (a : Fin 3) :
    k0_pay27 (F := Ideal) v5 (ix2 r a) = v5 (ix3 (0 : Fin 1) r a) := by
  unfold k0_pay27
  exact shapeCast_1ab_ab_apply v5 _ r a

/-! ## The masked separations and the squared distances of a tile -/

/-- The columns' validity row: one when atom `128·k + cc` counts. -/
theorem colValid_apply (nb : BitVec 32) (k : Fin k0_t1_loop.trips) (u : Fin 1) (cc : Fin 128) :
    (sitofp (F := Ideal) .f32 (extui 32 (cmpi .slt (addi (broadcast S1x128 (Scalar.muli (Scf.iv 0#32 1#32 k) 128#32))
        (iota .tc S1x128 32 [1] iota_S1x128_d1_w32)) (broadcast S1x128 nb)) natLt_1_32)) (ix2 u cc)
      = if Cert.Stress.counts nb (128 * k.val + cc.val) then (1 : EReal) else 0 := by
  show FloatOps.sitofp (F := Ideal) .f32 ((IntOp.cmpi .slt (IntOp.addi (Scalar.muli (Scf.iv 0#32 1#32 k) 128#32)
    (iota .tc S1x128 32 [1] iota_S1x128_d1_w32 (ix2 u cc))) nb).setWidth 32) = _
  rw [iota_single_apply, iv_word]
  show FloatOps.sitofp (F := Ideal) .f32 ((IntOp.cmpi .slt (IntOp.addi (Scalar.muli (BitVec.ofNat 32 k.val) 128#32)
    (BitVec.ofNat 32 cc.val)) nb).setWidth 32) = _
  rw [word_tile, valid_word]

/-- The product of two validities is the pair mask. -/
theorem valid_mul (P Q : Prop) [Decidable P] [Decidable Q] :
    (if P then (1 : EReal) else 0) * (if Q then (1 : EReal) else 0) = if P ∧ Q then (1 : EReal) else 0 := by
  by_cases hP : P <;> by_cases hQ : Q <;> simp [hP, hQ]

/-- The masked separations at `(r, a, cc)`: rows minus columns along axis `a`, times the two validities. -/
theorem pay2_apply (nb : BitVec 32) (v6 : FVec Ideal S128x3 .f32) (v14 : FVec Ideal S128x1 .f32)
    (k : Fin k0_t1_loop.trips) (v144 : Vec Ideal S1x128x3 .f32) (r : Fin 128) (a : Fin 3) (cc : Fin 128) :
    k0_pay2 (F := Ideal) nb v6 v14 0#32 1#32 k v144 (ix3 r a cc)
      = (v6 (ix2 r a) - v144 (ix3 (0 : Fin 1) cc a))
          * (v14 (ix2 r (0 : Fin 1)) * (if Cert.Stress.counts nb (128 * k.val + cc.val) then (1 : EReal) else 0)) := by
  unfold k0_pay2
  show (broadcastTo S128x3x128 (shapeCast S128x3x1 v6 _) _ (ix3 r a cc)
        - broadcastTo S128x3x128 (shapeCast S1x3x128 (transpose S3x128 [1, 0] (shapeCast S128x3 v144 _) _) _) _ (ix3 r a cc))
      * broadcastTo S128x3x128 (shapeCast S128x1x128 (mulf (broadcastTo S128x128 v14 _)
          (broadcastTo S128x128 (sitofp (F := Ideal) .f32 (extui 32 (cmpi .slt (addi (broadcast S1x128 (Scalar.muli (Scf.iv 0#32 1#32 k) 128#32))
            (iota .tc S1x128 32 [1] iota_S1x128_d1_w32)) (broadcast S1x128 nb)) natLt_1_32)) _)) _) _ (ix3 r a cc) = _
  rw [broadcastTo_ab1_abc_apply, shapeCast_ab_ab1_apply, broadcastTo_1bc_abc_apply, shapeCast_ab_1ab_apply,
    transpose_ix2_apply, shapeCast_1ab_ab_apply, broadcastTo_a1c_abc_apply, shapeCast_ac_a1c_apply]
  show _ * (broadcastTo S128x128 v14 _ (ix2 r cc) * broadcastTo S128x128 _ _ (ix2 r cc)) = _
  rw [broadcastTo_a1_ab_apply, broadcastTo_1b_ab_apply, colValid_apply]

/-- A sum over the middle axis of a `[128, 3, 128]` array, at `(r, cc)`. -/
theorem sum_mid (src : FVec Ideal S128x3x128 .f32) (h : S128x3x128.Reduces [1] S128x128) (hφ : FKind.Formats .f32)
    (hacc : (0x00000000#32 : BitVec 32) = FKind.add.neutral .f32 hφ) (r cc : Fin 128) :
    multiReduction (F := Ideal) .add [1] S128x128 src 0x00000000#32 h hφ hacc (ix2 r cc) = ∑ a : Fin 3, src (ix3 r a cc) :=
  (Ideal.multiReduction_add_single src _ h hφ hacc (ix2 r cc)).trans
    (Finset.sum_congr rfl fun a _ => congrArg src (funext fun c => Fin.ext (by
      match c with
      | ⟨0, _⟩ => rfl
      | ⟨1, _⟩ => rfl
      | ⟨2, _⟩ => rfl)))

/-- The squared distances at `(r, cc)`: the sum over the three axes of the squared masked separations, plus ε. -/
theorem pay3_apply (nb : BitVec 32) (v6 : FVec Ideal S128x3 .f32) (v14 : FVec Ideal S128x1 .f32)
    (k : Fin k0_t1_loop.trips) (v144 : Vec Ideal S1x128x3 .f32) (r cc : Fin 128) :
    k0_pay3 (F := Ideal) nb v6 v14 0#32 1#32 k v144 (ix2 r cc)
      = (∑ a : Fin 3, k0_pay2 (F := Ideal) nb v6 v14 0#32 1#32 k v144 (ix3 r a cc)
            * k0_pay2 (F := Ideal) nb v6 v14 0#32 1#32 k v144 (ix3 r a cc)) + Cert.Stress.eps := by
  unfold k0_pay3
  exact congrArg (fun t => t + Ideal.ofBits .f32 0x3727C5AC#32) (sum_mid _ _ _ _ r cc)

/-- The masked separation of the point's row `r` and tile `k`'s column `cc` along axis `a`. -/
theorem sepT_apply (i : grid0.Coords) (nb : BitVec 32) (x0 : Vec Ideal S1x1024x3 .f32) (k : Fin k0_t1_loop.trips)
    (r : Fin 128) (a : Fin 3) (cc : Fin 128) :
    sepT (F := Ideal) i nb (rowsOf i x0) (colsOf x0) k (ix3 r a cc)
      = Cert.Stress.sep (fun _ => xBlk x0) (fun _ => nb) 0 (rowAt i r) (colAt k cc) a := by
  unfold sepT
  rw [pay2_apply, pay27_apply, pay28_apply, rowsOf_apply, colsOf_apply, valid_mul]
  rfl

/-- The squared distance plus ε of the point's row `r` and tile `k`'s column `cc`. -/
theorem d2T_apply (i : grid0.Coords) (nb : BitVec 32) (x0 : Vec Ideal S1x1024x3 .f32) (k : Fin k0_t1_loop.trips)
    (r cc : Fin 128) :
    d2T (F := Ideal) i nb (rowsOf i x0) (colsOf x0) k (ix2 r cc)
      = Cert.Stress.dist2 (fun _ => xBlk x0) (fun _ => nb) 0 (rowAt i r) (colAt k cc) := by
  unfold d2T
  rw [pay3_apply]
  unfold Cert.Stress.dist2
  refine congrArg (fun t => t + Cert.Stress.eps) (Finset.sum_congr rfl fun a _ => ?_)
  have h := sepT_apply i nb x0 k r a cc
  unfold sepT at h
  rw [h]

/-! ## The nine slabs -/

/-- Component `c` of a `[128, 3, 128]` array as a `[128, 128]` array (a cut along the middle axis, the unit axis dropped). -/
theorem comp_apply (o : ℕ) (v : FVec Ideal S128x3x128 .f32) (h : S128x3x128.Slices ![0, o, 0] S128x1x128)
    (h' : S128x1x128.ShapeCasts S128x128) (c : Fin 3) (hc : c.val = o) (r cc : Fin 128) :
    shapeCast S128x128 (extractStridedSlice S128x1x128 ![0, o, 0] v h) h' (ix2 r cc) = v (ix3 r c cc) :=
  (shapeCast_a1c_ac_apply _ h' r cc).trans (slice3_axis1_apply o v h r (0 : Fin 1) cc c (by rw [hc]; rfl))

/-- Zero minus a product, over a third array: minus the product over it. -/
theorem slab_apply (A B D : FVec Ideal S128x128 .f32) (j : S128x128.Idx) :
    divf (subf (broadcast S128x128 (Scalar.ofBits (F := Ideal) .f32 0x00000000#32)) (mulf A B)) D j
      = Ideal.div (-(A j * B j)) (D j) := by
  show Ideal.div (Ideal.ofBits .f32 0x00000000#32 - A j * B j) (D j) = _
  rw [Ideal.ofBits_zero_f32, zero_sub]

theorem pay4_apply (nb : BitVec 32) (v6 : FVec Ideal S128x3 .f32) (v14 : FVec Ideal S128x1 .f32)
    (k : Fin k0_t1_loop.trips) (v144 : Vec Ideal S1x128x3 .f32) (r cc : Fin 128) :
    k0_pay4 (F := Ideal) nb v6 v14 0#32 1#32 k v144 (ix2 r cc)
      = k0_pay2 (F := Ideal) nb v6 v14 0#32 1#32 k v144 (ix3 r (0 : Fin 3) cc) := by
  unfold k0_pay4
  exact comp_apply 0 _ _ _ (0 : Fin 3) rfl r cc

theorem pay14_apply (v165 : FVec Ideal S128x3x128 .f32) (r cc : Fin 128) :
    k0_pay14 (F := Ideal) v165 (ix2 r cc) = v165 (ix3 r (1 : Fin 3) cc) := by
  unfold k0_pay14
  exact comp_apply 1 _ _ _ (1 : Fin 3) rfl r cc

theorem pay24_apply (v165 : FVec Ideal S128x3x128 .f32) (r cc : Fin 128) :
    k0_pay24 (F := Ideal) v165 (ix2 r cc) = v165 (ix3 r (2 : Fin 3) cc) := by
  unfold k0_pay24
  exact comp_apply 2 _ _ _ (2 : Fin 3) rfl r cc

theorem pay5_apply (nb : BitVec 32) (v6 : FVec Ideal S128x3 .f32) (v14 : FVec Ideal S128x1 .f32)
    (k : Fin k0_t1_loop.trips) (v144 : Vec Ideal S1x128x3 .f32) (r cc : Fin 128) :
    k0_pay5 (F := Ideal) nb v6 v14 0#32 1#32 k v144 (ix2 r cc)
      = Ideal.div (-(k0_pay2 (F := Ideal) nb v6 v14 0#32 1#32 k v144 (ix3 r (0 : Fin 3) cc)
            * k0_pay2 (F := Ideal) nb v6 v14 0#32 1#32 k v144 (ix3 r (0 : Fin 3) cc)))
          (k0_pay3 (F := Ideal) nb v6 v14 0#32 1#32 k v144 (ix2 r cc)) := by
  unfold k0_pay5
  refine (slab_apply _ _ _ _).trans ?_
  rw [pay4_apply, comp_apply 0 _ _ _ (0 : Fin 3) rfl r cc]

theorem pay8_apply (v165 : FVec Ideal S128x3x128 .f32) (v169 v173 : FVec Ideal S128x128 .f32) (r cc : Fin 128) :
    k0_pay8 (F := Ideal) v165 v169 v173 (ix2 r cc)
      = Ideal.div (-(v173 (ix2 r cc) * v165 (ix3 r (1 : Fin 3) cc))) (v169 (ix2 r cc)) := by
  unfold k0_pay8
  refine (slab_apply _ _ _ _).trans ?_
  rw [comp_apply 1 _ _ _ (1 : Fin 3) rfl r cc]

theorem pay11_apply (v165 : FVec Ideal S128x3x128 .f32) (v169 v173 : FVec Ideal S128x128 .f32) (r cc : Fin 128) :
    k0_pay11 (F := Ideal) v165 v169 v173 (ix2 r cc)
      = Ideal.div (-(v173 (ix2 r cc) * v165 (ix3 r (2 : Fin 3) cc))) (v169 (ix2 r cc)) := by
  unfold k0_pay11
  refine (slab_apply _ _ _ _).trans ?_
  rw [comp_apply 2 _ _ _ (2 : Fin 3) rfl r cc]

theorem pay15_apply (v165 : FVec Ideal S128x3x128 .f32) (v169 : FVec Ideal S128x128 .f32) (r cc : Fin 128) :
    k0_pay15 (F := Ideal) v165 v169 (ix2 r cc)
      = Ideal.div (-(v165 (ix3 r (1 : Fin 3) cc) * v165 (ix3 r (0 : Fin 3) cc))) (v169 (ix2 r cc)) := by
  unfold k0_pay15
  refine (slab_apply _ _ _ _).trans ?_
  rw [pay14_apply, comp_apply 0 _ _ _ (0 : Fin 3) rfl r cc]

theorem pay18_apply (v165 : FVec Ideal S128x3x128 .f32) (v169 v214 : FVec Ideal S128x128 .f32) (r cc : Fin 128) :
    k0_pay18 (F := Ideal) v165 v169 v214 (ix2 r cc)
      = Ideal.div (-(v214 (ix2 r cc) * v165 (ix3 r (1 : Fin 3) cc))) (v169 (ix2 r cc)) := by
  unfold k0_pay18
  refine (slab_apply _ _ _ _).trans ?_
  rw [comp_apply 1 _ _ _ (1 : Fin 3) rfl r cc]

theorem pay21_apply (v165 : FVec Ideal S128x3x128 .f32) (v169 v214 : FVec Ideal S128x128 .f32) (r cc : Fin 128) :
    k0_pay21 (F := Ideal) v165 v169 v214 (ix2 r cc)
      = Ideal.div (-(v214 (ix2 r cc) * v165 (ix3 r (2 : Fin 3) cc))) (v169 (ix2 r cc)) := by
  unfold k0_pay21
  refine (slab_apply _ _ _ _).trans ?_
  rw [comp_apply 2 _ _ _ (2 : Fin 3) rfl r cc]

theorem pay25_apply (v165 : FVec Ideal S128x3x128 .f32) (v169 : FVec Ideal S128x128 .f32) (r cc : Fin 128) :
    k0_pay25 (F := Ideal) v165 v169 (ix2 r cc)
      = Ideal.div (-(v165 (ix3 r (2 : Fin 3) cc) * v165 (ix3 r (0 : Fin 3) cc))) (v169 (ix2 r cc)) := by
  unfold k0_pay25
  refine (slab_apply _ _ _ _).trans ?_
  rw [pay24_apply, comp_apply 0 _ _ _ (0 : Fin 3) rfl r cc]

theorem pay40_apply (v165 : FVec Ideal S128x3x128 .f32) (v169 v255 : FVec Ideal S128x128 .f32) (r cc : Fin 128) :
    k0_pay40 (F := Ideal) v165 v169 v255 (ix2 r cc)
      = Ideal.div (-(v255 (ix2 r cc) * v165 (ix3 r (1 : Fin 3) cc))) (v169 (ix2 r cc)) := by
  unfold k0_pay40
  refine (slab_apply _ _ _ _).trans ?_
  rw [comp_apply 1 _ _ _ (1 : Fin 3) rfl r cc]

theorem pay43_apply (v165 : FVec Ideal S128x3x128 .f32) (v169 v255 : FVec Ideal S128x128 .f32) (r cc : Fin 128) :
    k0_pay43 (F := Ideal) v165 v169 v255 (ix2 r cc)
      = Ideal.div (-(v255 (ix2 r cc) * v165 (ix3 r (2 : Fin 3) cc))) (v169 (ix2 r cc)) := by
  unfold k0_pay43
  refine (slab_apply _ _ _ _).trans ?_
  rw [comp_apply 2 _ _ _ (2 : Fin 3) rfl r cc]

/-- The first slab's operands are the masked separations and squared distances under their tile names. -/
theorem pay2_eq_sepT (i : grid0.Coords) (nb : BitVec 32) (v5 : Vec Ideal S1x128x3 .f32)
    (xj : Fin k0_t1_loop.trips → Vec Ideal S1x128x3 .f32) (k : Fin k0_t1_loop.trips) :
    k0_pay2 (F := Ideal) nb (k0_pay27 v5) (k0_pay28 i nb) 0#32 1#32 k (xj k) = sepT (F := Ideal) i nb v5 xj k := rfl
theorem pay3_eq_d2T (i : grid0.Coords) (nb : BitVec 32) (v5 : Vec Ideal S1x128x3 .f32)
    (xj : Fin k0_t1_loop.trips → Vec Ideal S1x128x3 .f32) (k : Fin k0_t1_loop.trips) :
    k0_pay3 (F := Ideal) nb (k0_pay27 v5) (k0_pay28 i nb) 0#32 1#32 k (xj k) = d2T (F := Ideal) i nb v5 xj k := rfl

end Slab

/-- Slab `p` of tile `k` at `(r, cc)` is the pair block of the two atoms at axes `(p / 3, p % 3)`. -/
theorem slabT_ideal (i : grid0.Coords) (nb : BitVec 32) (x0 : Vec Ideal S1x1024x3 .f32) (p : Fin 9)
    (k : Fin k0_t1_loop.trips) (r cc : Fin 128) :
    slabT (F := Ideal) i nb (rowsOf i x0) (colsOf x0) p k (ValueIdx.ix2 r cc)
      = Cert.Stress.hs (fun _ => xBlk x0) (fun _ => nb) 0 (rowAt i r) (colAt k cc)
          ⟨p.val / 3, by have := p.isLt; omega⟩ ⟨p.val % 3, Nat.mod_lt _ (by decide)⟩ := by
  unfold Cert.Stress.hs
  rw [← Slab.sepT_apply i nb x0 k r, ← Slab.sepT_apply i nb x0 k r, ← Slab.d2T_apply i nb x0 k r cc]
  fin_cases p
  · show k0_pay5 (F := Ideal) nb (k0_pay27 (rowsOf i x0)) (k0_pay28 i nb) 0#32 1#32 k (colsOf x0 k) (ValueIdx.ix2 r cc) = _
    rw [Slab.pay5_apply, Slab.pay2_eq_sepT, Slab.pay3_eq_d2T]
    rfl
  · show k0_pay8 (F := Ideal) _ _ _ (ValueIdx.ix2 r cc) = _
    rw [Slab.pay8_apply, Slab.pay4_apply, Slab.pay2_eq_sepT]
    rfl
  · show k0_pay11 (F := Ideal) _ _ _ (ValueIdx.ix2 r cc) = _
    rw [Slab.pay11_apply, Slab.pay4_apply, Slab.pay2_eq_sepT]
    rfl
  · show k0_pay15 (F := Ideal) _ _ (ValueIdx.ix2 r cc) = _
    rw [Slab.pay15_apply]
    rfl
  · show k0_pay18 (F := Ideal) _ _ _ (ValueIdx.ix2 r cc) = _
    rw [Slab.pay18_apply, Slab.pay14_apply]
    rfl
  · show k0_pay21 (F := Ideal) _ _ _ (ValueIdx.ix2 r cc) = _
    rw [Slab.pay21_apply, Slab.pay14_apply]
    rfl
  · show k0_pay25 (F := Ideal) _ _ (ValueIdx.ix2 r cc) = _
    rw [Slab.pay25_apply]
    rfl
  · show k0_pay40 (F := Ideal) _ _ _ (ValueIdx.ix2 r cc) = _
    rw [Slab.pay40_apply, Slab.pay24_apply]
    rfl
  · show k0_pay43 (F := Ideal) _ _ _ (ValueIdx.ix2 r cc) = _
    rw [Slab.pay43_apply, Slab.pay24_apply]
    rfl

end Cert.KernelIdeal.Hand

end
-- ==== Proof.KI.BlkValue.lean ====
/-
  The block a grid point leaves, read at the ideal instance: entry `(0, c, c', r, col)` of the block of the point
  `(b, i₁)` is the tiled form of the specification at atom `128·i₁ + r`, partner `col`, axes `(c, c')`, for the
  coordinates in the point's block and the batch's atom count.
-/
import proofs.«406191_j17231408791693_3_alg».proof.Proof.KI.SlabValue
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem

/-- The atom a block row stands for, the partner a block column stands for, and the two axes of a plane. -/
def rowAtom (i : grid0.Coords) (idx : S1x3x3x128x1024.Idx) : Fin 1024 :=
  ⟨128 * (i 1).val + (idx 3).val, by have h1 : (i 1).val < 8 := (i 1).isLt; have h3 : (idx 3).val < 128 := (idx 3).isLt; omega⟩
def colAtom (idx : S1x3x3x128x1024.Idx) : Fin 1024 := ⟨(idx 4).val, (idx 4).isLt⟩
def axisA (idx : S1x3x3x128x1024.Idx) : Fin 3 := ⟨(idx 1).val, (idx 1).isLt⟩
def axisB (idx : S1x3x3x128x1024.Idx) : Fin 3 := ⟨(idx 2).val, (idx 2).isLt⟩

open Idealize.ShloMosaic.ValueIdx

namespace Blk

/-! ## Two layout readings: a vector made a column, a column spread over the rows' entries -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The diagonal's indicator -/

/-- A one-bit word widened to 32 bits, read as a signed integer and made a float: one for a set bit, zero otherwise. -/
theorem bit_float (b : Bool) :
    FloatOps.sitofp (F := Ideal) .f32 ((BitVec.ofBool b).setWidth 32) = if b = true then (1 : EReal) else 0 := by
  cases b
  · have h : ((BitVec.ofBool false).setWidth 32).toInt = 0 := by decide
    show (((((BitVec.ofBool false).setWidth 32).toInt : ℤ) : ℝ) : EReal) = 0
    rw [h, Int.cast_zero, EReal.coe_zero]
  · have h : ((BitVec.ofBool true).setWidth 32).toInt = 1 := by decide
    show (((((BitVec.ofBool true).setWidth 32).toInt : ℤ) : ℝ) : EReal) = 1
    rw [h, Int.cast_one, EReal.coe_one]

/-- Two numbers below 128 have the same 32-bit word exactly when they are equal. -/
theorem word_eq_iff (m n : ℕ) (hm : m < 128) (hn : n < 128) :
    (BitVec.ofNat 32 m == BitVec.ofNat 32 n) = true ↔ m = n := by
  constructor
  · intro hb
    have e := congrArg BitVec.toNat (beq_iff_eq.mp hb)
    rw [BitVec.toNat_ofNat, BitVec.toNat_ofNat] at e
    omega
  · intro e
    rw [e]
    exact beq_self_eq_true _

/-- The diagonal's indicator at `(r, cc)`: one where the row is the column, zero elsewhere. -/
theorem pay29_apply (r cc : Fin 128) :
    k0_pay29 (F := Ideal) (ix2 r cc) = if r.val = cc.val then (1 : EReal) else 0 := by
  show FloatOps.sitofp (F := Ideal) .f32 ((IntOp.cmpi .eq (iota .tc S128x128 32 [0] iota_S128x128_d0_w32 (ix2 r cc))
      (iota .tc S128x128 32 [1] iota_S128x128_d1_w32 (ix2 r cc))).setWidth 32) = _
  rw [iota_single_apply, iota_single_apply]
  show FloatOps.sitofp (F := Ideal) .f32
    ((BitVec.ofBool (BitVec.ofNat 32 r.val == BitVec.ofNat 32 cc.val)).setWidth 32) = _
  rw [bit_float]
  exact if_congr (word_eq_iff r.val cc.val r.isLt cc.isLt) rfl rfl

/-! ## One step of a running row sum, and the negated row sum on the diagonal -/

/-- Row `r` of the slab with the column `cc` put back on the summed axis is the entry `(r, cc)`. -/
theorem lift_row (r cc : Fin 128) : reduces_S128x128_S128.lift (ix1 r) cc = ix2 r cc := by
  funext a
  match a with
  | ⟨0, _⟩ => exact Fin.ext rfl
  | ⟨1, _⟩ => exact Fin.ext rfl

/-- One step adds, in row `r`, the sum of the slab's row `r`. -/
theorem accStep_apply (a : FVec Ideal S128x1 .f32) (s : FVec Ideal S128x128 .f32) (r : Fin 128) (z : Fin 1) :
    accStep (F := Ideal) a s (ix2 r z) = a (ix2 r z) + ∑ cc : Fin 128, s (ix2 r cc) := by
  show a (ix2 r z) + shapeCast S128x1 (multiReduction (F := Ideal) .add [1] S128 s 0x00000000#32 reduces_S128x128_S128 (.inl rfl) rfl)
    shapeCasts_S128_S128x1 (ix2 r z) = _
  rw [shapeCast_a_a1_apply]
  refine congrArg (a (ix2 r z) + ·) ?_
  refine (Ideal.multiReduction_add_single s 0x00000000#32 reduces_S128x128_S128 (.inl rfl) rfl (ix1 r)).trans ?_
  exact Finset.sum_congr rfl fun cc _ => congrArg s (lift_row r cc)

/-- The starting column is zero everywhere. -/
theorem zeroCol_apply (r : Fin 128) (z : Fin 1) : zeroCol (F := Ideal) (ix2 r z) = (0 : EReal) := by
  show Ideal.ofBits .f32 0x00000000#32 = 0
  exact Ideal.ofBits_zero_f32

/-- The negated row sum on the diagonal: zero minus row `r`'s sum where the column is the row, zero elsewhere. -/
theorem negDiag_apply (a : FVec Ideal S128x1 .f32) (r cc : Fin 128) :
    negDiag (F := Ideal) a (ix2 r cc) = (0 - a (ix2 r (0 : Fin 1))) * (if r.val = cc.val then (1 : EReal) else 0) := by
  show broadcastTo S128x128 (subf (broadcast S128x1 (Scalar.ofBits .f32 0x00000000#32)) a) broadcasts_S128x1_S128x128 (ix2 r cc)
    * k0_pay29 (F := Ideal) (ix2 r cc) = _
  rw [broadcastTo_a1_ab_apply, pay29_apply]
  show (Ideal.ofBits .f32 0x00000000#32 - a (ix2 r (0 : Fin 1))) * _ = _
  rw [Ideal.ofBits_zero_f32]

/-! ## The running row sum is the specification's -/

/-- After one more tile the running row sum has taken one step with that tile's slab. -/
theorem accT_succ (i : grid0.Coords) (nb : BitVec 32) (v5 : Vec Ideal S1x128x3 .f32)
    (xj : Fin k0_t1_loop.trips → Vec Ideal S1x128x3 .f32) (p : Fin 9) (n : ℕ) (h : n < k0_t1_loop.trips) :
    accT (F := Ideal) i nb v5 xj p (n + 1) = accStep (accT i nb v5 xj p n) (slabT i nb v5 xj p ⟨n, h⟩) := by
  show (if h : n < k0_t1_loop.trips then accStep (accT (F := Ideal) i nb v5 xj p n) (slabT i nb v5 xj p ⟨n, h⟩)
    else accT i nb v5 xj p n) = _
  exact dif_pos h

/-- Row `r` of the running row sum of slab `p` after `n` tiles is the specification's running sum for atom
    `128·i₁ + r` and axes `(p / 3, p % 3)`: both start at zero, and a step adds the tile's 128 pair blocks. -/
theorem accT_ideal (i : grid0.Coords) (nb : BitVec 32) (x0 : Vec Ideal S1x1024x3 .f32) (p : Fin 9) (r : Fin 128) (z : Fin 1)
    (n : ℕ) (hn : n ≤ 8) :
    accT (F := Ideal) i nb (rowsOf i x0) (colsOf x0) p n (ix2 r z)
      = Cert.Stress.acc (fun _ => xBlk x0) (fun _ => nb) 0 (rowAt i r)
          ⟨p.val / 3, by have := p.isLt; omega⟩ ⟨p.val % 3, Nat.mod_lt _ (by decide)⟩ n := by
  induction n with
  | zero => exact zeroCol_apply r z
  | succ n ih =>
    have h8 : n < 8 := by omega
    have h : n < k0_t1_loop.trips := by rw [trips_eq]; exact h8
    rw [accT_succ i nb _ _ p n h, accStep_apply, ih (by omega)]
    show _ = Cert.Stress.acc _ _ 0 _ _ _ n + (0 + Cert.Stress.tilesum _ _ 0 _ _ _ n)
    rw [zero_add]
    refine congrArg (fun t : EReal => _ + t) ?_
    unfold Cert.Stress.tilesum
    rw [dif_pos h8]
    refine Finset.sum_congr rfl fun cc _ => ?_
    rw [slabT_ideal]
    exact congrArg (fun j => Cert.Stress.hs _ _ 0 _ j _ _) (Fin.ext rfl)

end Blk

/-- Entry by entry, the block is the specification's tiled form. -/
theorem outBlk_ideal (i : grid0.Coords) (nb : BitVec 32) (x0 : Vec Ideal S1x1024x3 .f32) (idx : S1x3x3x128x1024.Idx) :
    outBlk (F := Ideal) i nb (rowsOf i x0) (colsOf x0) idx
      = Cert.Stress.Hker (fun _ => xBlk x0) (fun _ => nb) 0 (rowAtom i idx) (colAtom idx) (axisA idx) (axisB idx) := by
  have h1 : (i 1).val < 8 := (i 1).isLt
  have hc : (idx 1).val < 3 := (idx 1).isLt
  have hc' : (idx 2).val < 3 := (idx 2).isLt
  have hr : (idx 3).val < 128 := (idx 3).isLt
  have hcol : (idx 4).val < 1024 := (idx 4).isLt
  have hm : (idx 4).val % 128 < 128 := Nat.mod_lt _ (by decide)
  -- the row, the column and the two axes the entry's slab cell stands for
  have e1 : rowAt i ⟨(idx 3).val, hr⟩ = rowAtom i idx := Fin.ext rfl
  have e2 : colAt (tileOf idx) ⟨(idx 4).val % 128, hm⟩ = colAtom idx := Fin.ext (by
    show 128 * ((idx 4).val / 128) + (idx 4).val % 128 = (idx 4).val
    omega)
  have e3 : ∀ h, (⟨(planeOf idx).val / 3, h⟩ : Fin 3) = axisA idx := fun h => Fin.ext (by
    show (3 * (idx 1).val + (idx 2).val) / 3 = (idx 1).val
    omega)
  have e4 : ∀ h, (⟨(planeOf idx).val % 3, h⟩ : Fin 3) = axisB idx := fun h => Fin.ext (by
    show (3 * (idx 1).val + (idx 2).val) % 3 = (idx 2).val
    omega)
  -- the entry's slab cell is the pair block
  have hslab : slabT (F := Ideal) i nb (rowsOf i x0) (colsOf x0) (planeOf idx) (tileOf idx) (cellOf idx)
      = Cert.Stress.hs (fun _ => xBlk x0) (fun _ => nb) 0 (rowAtom i idx) (colAtom idx) (axisA idx) (axisB idx) := by
    refine (slabT_ideal i nb x0 (planeOf idx) (tileOf idx) ⟨(idx 3).val, hr⟩ ⟨(idx 4).val % 128, hm⟩).trans ?_
    rw [e1, e2, e3, e4]
  -- the negated row sum on the diagonal is the specification's correction
  have hneg : negDiag (F := Ideal) (accT (F := Ideal) i nb (rowsOf i x0) (colsOf x0) (planeOf idx) 8) (cellOf idx)
      = (0 - Cert.Stress.acc (fun _ => xBlk x0) (fun _ => nb) 0 (rowAtom i idx) (axisA idx) (axisB idx) 8)
          * (if (rowAtom i idx).val % 128 = (colAtom idx).val % 128 then (1 : EReal) else 0) := by
    refine (Blk.negDiag_apply _ ⟨(idx 3).val, hr⟩ ⟨(idx 4).val % 128, hm⟩).trans ?_
    have hiff : (⟨(idx 3).val, hr⟩ : Fin 128).val = (⟨(idx 4).val % 128, hm⟩ : Fin 128).val
        ↔ (rowAtom i idx).val % 128 = (colAtom idx).val % 128 := by
      show (idx 3).val = (idx 4).val % 128 ↔ (128 * (i 1).val + (idx 3).val) % 128 = (idx 4).val % 128
      omega
    rw [Blk.accT_ideal i nb x0 (planeOf idx) ⟨(idx 3).val, hr⟩ 0 8 (Nat.le_refl 8), e1, e3, e4, if_congr hiff rfl rfl]
  unfold outBlk Cert.Stress.Hker
  by_cases hd : (idx 4).val / 128 = (i 1).val
  · have hd' : (rowAtom i idx).val / 128 = (colAtom idx).val / 128 := by
      show (128 * (i 1).val + (idx 3).val) / 128 = (idx 4).val / 128
      omega
    rw [if_pos hd, if_pos hd']
    show slabT (F := Ideal) i nb (rowsOf i x0) (colsOf x0) (planeOf idx) (tileOf idx) (cellOf idx)
      + negDiag (F := Ideal) (accT (F := Ideal) i nb (rowsOf i x0) (colsOf x0) (planeOf idx) 8) (cellOf idx) = _
    rw [hslab, hneg]
  · have hd' : ¬ (rowAtom i idx).val / 128 = (colAtom idx).val / 128 := by
      show ¬ (128 * (i 1).val + (idx 3).val) / 128 = (idx 4).val / 128
      omega
    rw [if_neg hd, if_neg hd']
    exact hslab

end Cert.KernelIdeal.Hand

end
-- ==== Proof.KI.ArrValue.lean ====
/-
  The region's result array after the run, at the ideal instance: entry `(b, c, c', i, j)` of the 8×3×3×1024×1024
  array is the tiled form of the specification at batch `b`, atoms `i, j`, axes `(c, c')`. Each grid point
  `(b, i₁)` writes back the block of 128 rows `128·i₁ …` of all nine planes of batch `b`; the 64 blocks tile the
  array; and what a point writes back is that block of one whole-array function.
-/
import proofs.«406191_j17231408791693_3_alg».proof.Proof.KI.Frame
import proofs.«406191_j17231408791693_3_alg».proof.Proof.KI.BlkValue

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ)

/-- The whole-array function the blocks restrict: plane-major layout of the tiled form. -/
def Gker (X : Cert.Stress.SX.Idx → EReal) (N : Cert.Stress.SN.Idx → BitVec 32) : S8x3x3x1024x1024.Idx → EReal := fun idx =>
  Cert.Stress.Hker (Cert.Stress.xOf X) (Cert.Stress.nOf N) ⟨(idx 0).val, (idx 0).isLt⟩ ⟨(idx 3).val, (idx 3).isLt⟩
    ⟨(idx 4).val, (idx 4).isLt⟩ ⟨(idx 1).val, (idx 1).isLt⟩ ⟨(idx 2).val, (idx 2).isLt⟩

/-! ## The index maps in closed form -/

/-- The coordinate window's block index at `(b, i₁)` is `(b, 0, 0)`, the result window's `(b, 0, 0, i₁, 0)`. -/
theorem tr0_eq : ∀ i : grid0.Coords, cc0_transform_0 i = ![(i 0).val, 0, 0] := by decide +kernel
theorem tr1_eq : ∀ i : grid0.Coords, cc0_transform_1 i = ![(i 0).val, 0, 0, (i 1).val, 0] := by decide +kernel

/-! ## The tiled form at one batch reads that batch only -/

section Congr
open Cert.Stress
variable {x x' : Fin 8 → Fin 1024 → Fin 3 → EReal} {n n' : Fin 8 → BitVec 32} {b b' : Fin 8}

theorem sep_congr (hx : x b = x' b') (hn : n b = n' b') : sep x n b = sep x' n' b' := by
  funext i j k; unfold sep; rw [hx, hn]
theorem dist2_congr (hx : x b = x' b') (hn : n b = n' b') : dist2 x n b = dist2 x' n' b' := by
  funext i j; unfold dist2; rw [sep_congr hx hn]
theorem hs_congr (hx : x b = x' b') (hn : n b = n' b') : hs x n b = hs x' n' b' := by
  funext i j c c'; unfold hs; rw [sep_congr hx hn, dist2_congr hx hn]
theorem tilesum_congr (hx : x b = x' b') (hn : n b = n' b') : tilesum x n b = tilesum x' n' b' := by
  funext i c c' t; unfold tilesum; rw [hs_congr hx hn]
theorem acc_congr (hx : x b = x' b') (hn : n b = n' b') (i : Fin 1024) (c c' : Fin 3) :
    ∀ k, acc x n b i c c' k = acc x' n' b' i c c' k
  | 0 => rfl
  | k + 1 => by
    show acc x n b i c c' k + (0 + tilesum x n b i c c' k) = acc x' n' b' i c c' k + (0 + tilesum x' n' b' i c c' k)
    rw [acc_congr hx hn i c c' k, tilesum_congr hx hn]
/-- The tiled form at batch `b` reads the coordinates and the counts at batch `b` only. -/
theorem Hker_congr (hx : x b = x' b') (hn : n b = n' b') (i j : Fin 1024) (c c' : Fin 3) :
    Hker x n b i j c c' = Hker x' n' b' i j c c' := by
  unfold Hker; rw [hs_congr hx hn, acc_congr hx hn]
end Congr

/-! ## The arguments as a grid point reads them -/

/-- The coordinates as the region finds them: the argument reshaped. -/
theorem V_v0 (c : Dev nD) :
    (V m c main_v0 : S8x1024x3.Idx → EReal) = shapeCast S8x1024x3 (m ((c : Thread nD τ).loc main_arg0)) shapeCasts_S8x3072_S8x1024x3 := by
  dsimp only [V, V0]
  simp only [hostOps0, List.flatten_cons, List.flatten_nil, List.append_nil]
  after_results
  rfl

/-- The block indices axis by axis. -/
theorem tr0_0 (i : grid0.Coords) : cc0_transform_0 i 0 = (i 0).val := by rw [tr0_eq]; rfl
theorem tr0_1 (i : grid0.Coords) : cc0_transform_0 i 1 = 0 := by rw [tr0_eq]; rfl
theorem tr0_2 (i : grid0.Coords) : cc0_transform_0 i 2 = 0 := by rw [tr0_eq]; rfl
theorem tr1_0 (i : grid0.Coords) : cc0_transform_1 i 0 = (i 0).val := by rw [tr1_eq]; rfl
theorem tr1_1 (i : grid0.Coords) : cc0_transform_1 i 1 = 0 := by rw [tr1_eq]; rfl
theorem tr1_2 (i : grid0.Coords) : cc0_transform_1 i 2 = 0 := by rw [tr1_eq]; rfl
theorem tr1_3 (i : grid0.Coords) : cc0_transform_1 i 3 = (i 1).val := by rw [tr1_eq]; rfl
theorem tr1_4 (i : grid0.Coords) : cc0_transform_1 i 4 = 0 := by rw [tr1_eq]; rfl

/-- The batch and the row tile of a grid point. -/
def ptB (t : Fin grid0.N) : Fin 8 := ⟨((grid0.coords t) 0).val, ((grid0.coords t) 0).isLt⟩
def ptQ (t : Fin grid0.N) : Fin 8 := ⟨((grid0.coords t) 1).val, ((grid0.coords t) 1).isLt⟩

set_option backward.isDefEq.respectTransparency.types false in
/-- The point's block of coordinates is the batch's row of the coordinate array. -/
theorem xBlk_iblk (c : Dev nD) (t : Fin (cfgM m).N) :
    xBlk (iblk m c 0 t) = Cert.Stress.xOf (m ((c : Thread nD τ).loc main_arg0)) (ptB t) := by
  funext a k
  have hb : ((grid0.coords t) 0).val < 8 := ((grid0.coords t) 0).isLt
  have ha := a.isLt; have hk := k.isLt
  unfold xBlk iblk Cert.Stress.xOf
  rw [View.read_apply]
  show (V m c main_v0 : S8x1024x3.Idx → EReal) _ = _
  rw [V_v0]
  refine shapeCast_apply (s := S8x3072) (t := S8x1024x3) _ _ _
    (ValueIdx.ix2 (ptB t) (⟨3 * a.val + k.val, by omega⟩ : Fin 3072)) ?_
  rw [Shape.rowMajor_val_two, Shape.rowMajor_val_three]
  show ((grid0.coords t) 0).val * 3072 + (3 * a.val + k.val)
    = ((cc0_transform_0 (grid0.coords t) 0 * 1 + 1 * 0) * 1024 + (cc0_transform_0 (grid0.coords t) 1 * 1024 + 1 * a.val)) * 3
      + (cc0_transform_0 (grid0.coords t) 2 * 3 + 1 * k.val)
  rw [tr0_0, tr0_1, tr0_2]
  omega

set_option backward.isDefEq.respectTransparency.types false in
/-- The word the body loads from the table is the batch's atom count. -/
theorem nbW_eq (c : Dev nD) (t : Fin (cfgM m).N) :
    nbW c (grid0.coords t) (tbl m 0) = Cert.Stress.nOf (m ((c : Thread nD τ).loc main_arg1)) (ptB t) := by
  obtain rfl : c = 0 := Subsingleton.elim _ _
  have htbl : tbl m 0 = m (((0 : Dev nD) : Thread nD τ).loc main_arg1) := V_arg1 m 0
  unfold nbW Cert.Stress.nOf
  rw [View.readAt_apply, View.read_apply, htbl]
  show (m (((0 : Dev nD) : Thread nD τ).loc main_arg1) : S8.Idx → BitVec 32) _ = _
  refine congrArg _ (funext fun a => Fin.ext ?_)
  match a with
  | ⟨0, _⟩ =>
    show k0_off1 (grid0.coords t) 0 + 1 * 0 = ((grid0.coords t) 0).val
    rw [k0_off1_eq]; rfl

/-! ## What a point writes back, and the cover -/

set_option backward.isDefEq.respectTransparency.types false in
/-- What a point leaves in its output block, entry `y`, is the whole-array function at the array index `e` the
    entry sits at: batch the point's, planes `y`'s, row `128·i₁ + y₃`, column `y₄`. -/
theorem outAt_eq (c : Dev nD) (t : Fin (cfgM m).N) (y : S1x3x3x128x1024.Idx) (e : S8x3x3x1024x1024.Idx)
    (h0 : (e 0).val = (ptB t).val) (h1 : (e 1).val = (y 1).val) (h2 : (e 2).val = (y 2).val)
    (h3 : (e 3).val = 128 * (ptQ t).val + (y 3).val) (h4 : (e 4).val = (y 4).val) :
    outAt m c t y = Gker (m ((c.tc : Thread nD τ).loc main_arg0)) (m ((c.tc : Thread nD τ).loc main_arg1)) e := by
  unfold outAt Gker
  rw [outBlk_ideal, nbW_eq]
  have hb : ptB t = (⟨(e 0).val, (e 0).isLt⟩ : Fin 8) := Fin.ext h0.symm
  rw [show rowAtom (grid0.coords t) y = (⟨(e 3).val, (e 3).isLt⟩ : Fin 1024) from Fin.ext h3.symm,
    show colAtom y = (⟨(e 4).val, (e 4).isLt⟩ : Fin 1024) from Fin.ext h4.symm,
    show axisA y = (⟨(e 1).val, (e 1).isLt⟩ : Fin 3) from Fin.ext h1.symm,
    show axisB y = (⟨(e 2).val, (e 2).isLt⟩ : Fin 3) from Fin.ext h2.symm]
  have hx : (fun _ : Fin 8 => xBlk (iblk m c 0 t)) 0
      = Cert.Stress.xOf (m ((c.tc : Thread nD τ).loc main_arg0)) (⟨(e 0).val, (e 0).isLt⟩ : Fin 8) := by
    show xBlk (iblk m c 0 t) = _
    rw [xBlk_iblk, hb]
  have hn : (fun _ : Fin 8 => Cert.Stress.nOf (m ((c.tc : Thread nD τ).loc main_arg1)) (ptB t)) 0
      = Cert.Stress.nOf (m ((c.tc : Thread nD τ).loc main_arg1)) (⟨(e 0).val, (e 0).isLt⟩ : Fin 8) := by
    show Cert.Stress.nOf _ (ptB t) = _
    rw [hb]
  exact Hker_congr (x := fun _ => xBlk (iblk m c 0 t)) (x' := Cert.Stress.xOf (m ((c.tc : Thread nD τ).loc main_arg0)))
    (n := fun _ => Cert.Stress.nOf (m ((c.tc : Thread nD τ).loc main_arg1)) (ptB t))
    (n' := Cert.Stress.nOf (m ((c.tc : Thread nD τ).loc main_arg1))) (b := 0) (b' := ⟨(e 0).val, (e 0).isLt⟩) hx hn _ _ _ _

set_option backward.isDefEq.respectTransparency.types false in
/-- WHAT POINT `t` WRITES BACK is its block of the whole-array function. -/
theorem flushed_eq (c : Dev nD) (t : Fin (cfgM m).N) :
    (dats (F := Ideal) m 0 c).flushed 1 t
      = (((cfgM m).win 1).blk t).view.read (Elt Ideal)
          (Gker (m ((c.tc : Thread nD τ).loc main_arg0)) (m ((c.tc : Thread nD τ).loc main_arg1))) := by
  show ((cfgM m).win 1).cut ((cfgM m).grid.coords t) ((dats m 0 c).after 1 t) = _
  rw [after_out]
  refine funext fun (y : S1x3x3x128x1024.Idx) => ?_
  rw [View.read_apply]
  show outAt m c t y = Gker _ _ ((((cfgM m).win 1).blk t).view.emb y)
  have y0 : (y 0).val < 1 := (y 0).isLt
  refine outAt_eq m c t y _ ?_ ?_ ?_ ?_ ?_
  · show cc0_transform_1 (grid0.coords t) 0 * 1 + 1 * (y 0).val = ((grid0.coords t) 0).val
    rw [tr1_0]; omega
  · show cc0_transform_1 (grid0.coords t) 1 * 3 + 1 * (y 1).val = _
    rw [tr1_1]; omega
  · show cc0_transform_1 (grid0.coords t) 2 * 3 + 1 * (y 2).val = _
    rw [tr1_2]; omega
  · show cc0_transform_1 (grid0.coords t) 3 * 128 + 1 * (y 3).val = 128 * ((grid0.coords t) 1).val + (y 3).val
    rw [tr1_3]; omega
  · show cc0_transform_1 (grid0.coords t) 4 * 1024 + 1 * (y 4).val = _
    rw [tr1_4]; omega

set_option backward.isDefEq.respectTransparency.types false in
/-- An index of the array is in point `t`'s block iff each coordinate is in the block's range on its axis. -/
theorem mem_blk_out (t : Fin (cfgM m).N) (i : S8x3x3x1024x1024.Idx) :
    i ∈ (((cfgM m).win 1).blk t).view.set ↔
      ∀ a : Fin 5, cc0_transform_1 (grid0.coords t) a * S1x3x3x128x1024.size a ≤ (i a).val
        ∧ (i a).val < cc0_transform_1 (grid0.coords t) a * S1x3x3x128x1024.size a + S1x3x3x128x1024.size a := by
  show i ∈ ((View.whole main_v1).slice (((cfgM m).win 1).rect t)).set ↔ _
  rw [View.set_slice_whole]
  exact Rect.mem_set_unit

/-- Every (batch, row tile) is some grid point's. -/
theorem coords_onto : ∀ (b q : Fin 8), ∃ t : Fin (cfgM m).N, ptB t = b ∧ ptQ t = q :=
  (by decide +kernel : ∀ (b q : Fin 8), ∃ t : Fin grid0.N, ptB t = b ∧ ptQ t = q)

/-- The 64 blocks cover the array: index `(b, c, c', i, j)` lies in the block of the point `(b, i / 128)`. -/
theorem cover_out (i : S8x3x3x1024x1024.Idx) :
    ∃ t : Fin (cfgM m).N, ((cfgM m).win 1).flush t = true ∧ i ∈ (((cfgM m).win 1).blk t).view.set := by
  have h0 : (i 0).val < 8 := (i 0).isLt
  have h1 : (i 1).val < 3 := (i 1).isLt
  have h2 : (i 2).val < 3 := (i 2).isLt
  have h3 : (i 3).val < 1024 := (i 3).isLt
  have h4 : (i 4).val < 1024 := (i 4).isLt
  obtain ⟨t, hb, hq⟩ := coords_onto m ⟨(i 0).val, h0⟩ ⟨(i 3).val / 128, by omega⟩
  have hb' : ((grid0.coords t) 0).val = (i 0).val := congrArg Fin.val hb
  have hq' : ((grid0.coords t) 1).val = (i 3).val / 128 := congrArg Fin.val hq
  refine ⟨t, flush_out m t, ?_⟩
  rw [mem_blk_out]
  intro a
  match a with
  | ⟨0, _⟩ =>
    show cc0_transform_1 (grid0.coords t) 0 * 1 ≤ (i 0).val ∧ (i 0).val < cc0_transform_1 (grid0.coords t) 0 * 1 + 1
    rw [tr1_0, hb']; omega
  | ⟨1, _⟩ =>
    show cc0_transform_1 (grid0.coords t) 1 * 3 ≤ (i 1).val ∧ (i 1).val < cc0_transform_1 (grid0.coords t) 1 * 3 + 3
    rw [tr1_1]; omega
  | ⟨2, _⟩ =>
    show cc0_transform_1 (grid0.coords t) 2 * 3 ≤ (i 2).val ∧ (i 2).val < cc0_transform_1 (grid0.coords t) 2 * 3 + 3
    rw [tr1_2]; omega
  | ⟨3, _⟩ =>
    show cc0_transform_1 (grid0.coords t) 3 * 128 ≤ (i 3).val ∧ (i 3).val < cc0_transform_1 (grid0.coords t) 3 * 128 + 128
    rw [tr1_3, hq']; omega
  | ⟨4, _⟩ =>
    show cc0_transform_1 (grid0.coords t) 4 * 1024 ≤ (i 4).val ∧ (i 4).val < cc0_transform_1 (grid0.coords t) 4 * 1024 + 1024
    rw [tr1_4]; omega

/-- After the run the region's result array holds `Gker` of the two argument arrays. -/
theorem arrAt_out (c : Dev nD) :
    (dats (F := Ideal) m 0 c).arrAt 1 (cfgM m).N
      = Gker (m ((c.tc : Thread nD τ).loc main_arg0)) (m ((c.tc : Thread nD τ).loc main_arg1)) :=
  (dats m 0 c).arrAt_eq_of_cover 1 _ (fun t _ => flushed_eq m c t) (cover_out m)

end Cert.KernelIdeal.Hand

end
-- ==== Proof.KI.Final.lean ====
/-
  The frame claim: the program runs and its two argument arrays end as they began. Both are buffers the region
  does not stage as windows' arrays of its own writing; the two host operations after the region write neither, so
  what the run leaves in them is what the region's entry found, which is what the launch held.
-/
import proofs.«406191_j17231408791693_3_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- Neither later operation writes the coordinate array: it ends as launched. -/
theorem tail_arg0 (c : Dev nD) :
    Pipeline.afterTail pcfgs (fun _ => adm m) (dats m) 0 (V0 m) [hostOps1] c main_arg0 = m ((c : Thread nD τ).loc main_arg0) := by
  unfold Pipeline.afterTail
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_arg0 m c

/-- Nor the atom-count array. -/
theorem tail_arg1 (c : Dev nD) :
    Pipeline.afterTail pcfgs (fun _ => adm m) (dats m) 0 (V0 m) [hostOps1] c main_arg1 = m ((c : Thread nD τ).loc main_arg1) := by
  unfold Pipeline.afterTail
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_arg1 m c

/-- Every weakly fair execution terminates without a fault and leaves both argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_arg0 (by decide : main_arg0 ∈ Pipeline.restRefs sig spec0)).trans (tail_arg0 m c),
       ((h c).2 main_arg1 (by decide : main_arg1 ∈ Pipeline.restRefs sig spec0)).trans (tail_arg1 m c)⟩)
    (run_main m ρ)

end Cert.KernelIdeal.Hand

end
-- ==== Proof.KI.TailValue.lean ====
/-
  The program's result at the ideal instance. After the region, @main transposes the 8×3×3×1024×1024 array to
  8×1024×3×1024×3 (entry `(b, i, c, j, c')` from `(b, c, c', i, j)`) and reshapes it to 8×3072×3072 (row `3i + c`,
  column `3j + c'`): so entry `(b, p, q)` of the result is the tiled form at atoms `p / 3, q / 3` and axes
  `p % 3, q % 3`, which is `resultKer`.
-/
import proofs.«406191_j17231408791693_3_alg».proof.Proof.KI.ArrValue
import proofs.«406191_j17231408791693_3_alg».proof.Proof.KI.Final

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-- The reshape of the transposed array read at entry `(b, p, q)`: row `p = 3·(p / 3) + p % 3` and column
    `q = 3·(q / 3) + q % 3` have the same row-major position in 8×3072×3072 as `(b, p / 3, p % 3, q / 3, q % 3)` has in
    8×1024×3×1024×3, and the transpose `[0, 3, 1, 4, 2]` takes that entry from `(b, p % 3, q % 3, p / 3, q / 3)`. -/
theorem tail_read {α : Type} (A : S8x3x3x1024x1024.Idx → α) (b : Fin 8) (p q : Fin 3072) :
    shapeCast S8x3072x3072
        (transpose S8x1024x3x1024x3 [0, 3, 1, 4, 2] A transposes_S8x3x3x1024x1024_S8x1024x3x1024x3_0_3_1_4_2)
        shapeCasts_S8x1024x3x1024x3_S8x3072x3072 (ValueIdx.ix3 b p q)
      = A (ValueIdx.ix5 b (⟨p.val % 3, Nat.mod_lt _ (by decide)⟩ : Fin 3) (⟨q.val % 3, Nat.mod_lt _ (by decide)⟩ : Fin 3)
            (⟨p.val / 3, by have := p.isLt; omega⟩ : Fin 1024) (⟨q.val / 3, by have := q.isLt; omega⟩ : Fin 1024)) := by
  have hp := p.isLt
  have hq := q.isLt
  have hb := b.isLt
  refine (shapeCast_apply _ shapeCasts_S8x1024x3x1024x3_S8x3072x3072 (ValueIdx.ix3 b p q)
    (ValueIdx.ix5 b (⟨p.val / 3, by omega⟩ : Fin 1024) (⟨p.val % 3, Nat.mod_lt _ (by decide)⟩ : Fin 3)
      (⟨q.val / 3, by omega⟩ : Fin 1024) (⟨q.val % 3, Nat.mod_lt _ (by decide)⟩ : Fin 3)) ?_).trans ?_
  · rw [Shape.rowMajor_val_five, Shape.rowMajor_val_three]
    show (((b.val * 1024 + p.val / 3) * 3 + p.val % 3) * 1024 + q.val / 3) * 3 + q.val % 3 = (b.val * 3072 + p.val) * 3072 + q.val
    omega
  · refine transpose_apply [0, 3, 1, 4, 2] A transposes_S8x3x3x1024x1024_S8x1024x3x1024x3_0_3_1_4_2 _ _ (fun a => ?_)
    match a with
    | ⟨0, _⟩ => rfl
    | ⟨1, _⟩ => rfl
    | ⟨2, _⟩ => rfl
    | ⟨3, _⟩ => rfl
    | ⟨4, _⟩ => rfl

/-- What the two later operations leave in the result buffer: the result is the reshape of the transpose of the
    region's array, which holds `Gker`; read at `(b, p, q)` that is the tiled form at batch `b`, atoms `p / 3, q / 3`
    and axes `p % 3, q % 3`, the entry of `resultKer`. -/
theorem tail_value (c : Dev nD) :
    Pipeline.afterTail pcfgs (fun _ => adm m) (dats (F := Ideal) m) 0 (V0 m) [hostOps1] c main_v3
      = Cert.Stress.resultKer (m ((c.tc : Thread nD τ).loc main_arg0)) (m ((c.tc : Thread nD τ).loc main_arg1)) := by
  unfold Pipeline.afterTail
  simp only [List.flatten_cons, List.flatten_nil, List.append_nil]
  after_results
  -- the transpose's operand is the region's result array as the region leaves it
  rw [show Pipeline.withArrays (Pipeline.pin pcfgs (fun _ => adm m) 0).spec c (V0 m c)
        (fun w => (dats m 0 c).arrAt w (Pipeline.pin pcfgs (fun _ => adm m) 0).N) (Proc.devRef .tc main_v1)
      = Gker (m ((c.tc : Thread nD τ).loc main_arg0)) (m ((c.tc : Thread nD τ).loc main_arg1))
    from (Pipeline.withArrays_arr spec0 (launch0 (F := Ideal)).win.arr_inj c _ _ 1).trans (arrAt_out m c)]
  funext idx
  obtain ⟨b, p, q, rfl⟩ : ∃ (b : Fin 8) (p q : Fin 3072), idx = ValueIdx.ix3 b p q :=
    ⟨idx 0, idx 1, idx 2, ValueIdx.eq_ix3 idx⟩
  -- both sides are the tiled form at `(b, p / 3, q / 3, p % 3, q % 3)`
  exact (tail_read _ b p q).trans rfl

/-- The run with the result named: it ends at `resultKer` of the argument arrays, which end unchanged. -/
theorem run_value : θ_run defs (onTc (τ := τ) (main (F := Ideal))) ⟨m, fun _ => 0, ρ⟩ (fun r => ∀ c : Dev nD,
      r.2.mem ((c.tc : Thread nD τ).loc main_v3)
          = Cert.Stress.resultKer (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨((h c).2 main_v3 (by decide : main_v3 ∈ Pipeline.restRefs sig spec0)).trans (tail_value m c),
       ((h c).2 main_arg0 (by decide : main_arg0 ∈ Pipeline.restRefs sig spec0)).trans (tail_arg0 m c),
       ((h c).2 main_arg1 (by decide : main_arg1 ∈ Pipeline.restRefs sig spec0)).trans (tail_arg1 m c)⟩)
    (run_main (F := Ideal) m ρ)

end Cert.KernelIdeal.Hand

end
-- ==== Proof.LibScatterSet.lean ====
/-
  A scatter whose body returns the update ("set"), read at one element.

  The host scatter is a left fold, over the update indices in row-major order, of point updates: update index
  `j` lands at the result index `d.resultIdx? j idx` (or nowhere). Read at ONE result index `i`, a fold of steps
  that each either leave `i` alone or overwrite it with a value is: the start value when no step hits `i`; and,
  when some step hits `i` and every step that hits `i` writes the same value `w`, that value `w`. Both are
  proved by induction on the list of steps, for abstract steps, and then read off for the scatter.
-/
import Idealize.ShloMosaic.PureOps.ShapeOps

namespace Cert.Hand.LibScatterSet

open Idealize.ShloMosaic

section Fold
variable {ι κ α : Type}

/-- A fold of steps none of which touches place `i` leaves the start value there. -/
theorem foldl_apply_of_miss (step : (κ → α) → ι → (κ → α)) (hit : ι → Prop) (i : κ)
    (hmiss : ∀ r n, ¬ hit n → step r n i = r i) :
    ∀ (L : List ι) (x : κ → α), (∀ n ∈ L, ¬ hit n) → L.foldl step x i = x i
  | [], _, _ => rfl
  | a :: L, x, h => by
    rw [List.foldl_cons, foldl_apply_of_miss step hit i hmiss L (step x a) (fun n hn => h n (List.mem_cons_of_mem a hn))]
    exact hmiss x a (h a List.mem_cons_self)

/-- A fold of steps, at least one of which overwrites place `i`, and all of those that do with the same value `w`,
    has `w` there. -/
theorem foldl_apply_of_hit (step : (κ → α) → ι → (κ → α)) (hit : ι → Prop) (v : ι → α) (i : κ) (w : α)
    (hmiss : ∀ r n, ¬ hit n → step r n i = r i) (hhit : ∀ r n, hit n → step r n i = v n)
    (hw : ∀ n, hit n → v n = w) :
    ∀ (L : List ι) (x : κ → α), (∃ n ∈ L, hit n) → L.foldl step x i = w
  | [], _, h => by obtain ⟨n, hn, _⟩ := h; cases hn
  | a :: L, x, h => by
    rw [List.foldl_cons]
    by_cases hL : ∃ n ∈ L, hit n
    · exact foldl_apply_of_hit step hit v i w hmiss hhit hw L (step x a) hL
    · rw [foldl_apply_of_miss step hit i hmiss L (step x a) (fun n hn hh => hL ⟨n, hn, hh⟩)]
      obtain ⟨n, hn, hh⟩ := h
      rcases List.mem_cons.1 hn with rfl | hn'
      · rw [hhit x n hh, hw n hh]
      · exact absurd ⟨n, hn', hh⟩ hL

end Fold

section Scatter
variable {s si u : Shape} {α : Type} {w : Nat}

/-- The scatter's one step at result index `i`: an update that does not land on `i` leaves it. -/
private theorem step_miss (d : ScatterDims s si u) (idx : IVec si w) (upd : u.Idx → α) (i : s.Idx)
    (r : s.Idx → α) (n : Fin u.numel) (h : ¬ d.resultIdx? (u.rowMajor.symm n) idx = some i) :
    (match d.resultIdx? (u.rowMajor.symm n) idx with
      | some i₀ => fun i' => if i' = i₀ then (fun _ b => b) (r i₀) (upd (u.rowMajor.symm n)) else r i'
      | none => r) i = r i := by
  cases hr : d.resultIdx? (u.rowMajor.symm n) idx with
  | none => rfl
  | some i₀ =>
    rw [hr] at h
    show (if i = i₀ then _ else r i) = r i
    rw [if_neg (fun e => h (congrArg some e.symm))]

/-- The scatter's one step at result index `i`: an update that lands on `i` puts its element there. -/
private theorem step_hit (d : ScatterDims s si u) (idx : IVec si w) (upd : u.Idx → α) (i : s.Idx)
    (r : s.Idx → α) (n : Fin u.numel) (h : d.resultIdx? (u.rowMajor.symm n) idx = some i) :
    (match d.resultIdx? (u.rowMajor.symm n) idx with
      | some i₀ => fun i' => if i' = i₀ then (fun _ b => b) (r i₀) (upd (u.rowMajor.symm n)) else r i'
      | none => r) i = upd (u.rowMajor.symm n) := by
  rw [h]
  show (if i = i then _ else r i) = _
  rw [if_pos rfl]

/-- A "set" scatter at a result index no update lands on is the operand there. -/
theorem scatter_set_apply_of_miss (d : ScatterDims s si u) (x : s.Idx → α) (idx : IVec si w) (upd : u.Idx → α)
    (i : s.Idx) (h : ∀ j, d.resultIdx? j idx ≠ some i) :
    Host.scatter d (fun _ b => b) x idx upd i = x i := by
  unfold Host.scatter
  exact foldl_apply_of_miss _ (fun n => d.resultIdx? (u.rowMajor.symm n) idx = some i) i
    (fun r n hn => step_miss d idx upd i r n hn) (List.finRange u.numel) x (fun n _ => h _)

/-- A "set" scatter at a result index that update index `j` lands on, every update landing there carrying the
    same element as `j`'s, is that element. -/
theorem scatter_set_apply_of_hit (d : ScatterDims s si u) (x : s.Idx → α) (idx : IVec si w) (upd : u.Idx → α)
    (i : s.Idx) (j : u.Idx) (hj : d.resultIdx? j idx = some i)
    (huniq : ∀ j', d.resultIdx? j' idx = some i → upd j' = upd j) :
    Host.scatter d (fun _ b => b) x idx upd i = upd j := by
  unfold Host.scatter
  exact foldl_apply_of_hit _ (fun n => d.resultIdx? (u.rowMajor.symm n) idx = some i)
    (fun n => upd (u.rowMajor.symm n)) i (upd j)
    (fun r n hn => step_miss d idx upd i r n hn) (fun r n hn => step_hit d idx upd i r n hn)
    (fun n hn => huniq _ hn) (List.finRange u.numel) x
    ⟨u.rowMajor j, List.mem_finRange _, by show d.resultIdx? (u.rowMajor.symm (u.rowMajor j)) idx = some i; rw [Equiv.symm_apply_apply]; exact hj⟩

end Scatter

end Cert.Hand.LibScatterSet
-- ==== Proof.RefValue.lean ====
/-
  The reference program's result, read entry by entry: it is the plain form of the specification.

  The program's stages are read at an index, outermost first: the result array is a reshape of a transpose of a
  "set" scatter; the scatter writes, for every batch `b`, atom `n` and axes `c c'`, the negated row sum at the
  diagonal place `(b, n, n, c, c')` of the array of pair blocks (its index array holds `n` in both columns, and
  those places are pairwise distinct), and leaves every other place; the pair blocks and the row sums read, through
  broadcasts and elementwise stages, as the specification's `hs` and `rowsum`.
-/
import proofs.«406191_j17231408791693_3_alg».proof.Proof.Gen.ReferenceIdeal.Run
import proofs.«406191_j17231408791693_3_alg».proof.Proof.Gen.ReferenceIdeal.Read
import proofs.«406191_j17231408791693_3_alg».proof.Proof.Spec
import proofs.«406191_j17231408791693_3_alg».proof.Proof.LibScatterSet

noncomputable section

namespace Cert.Stress.Ref

open Idealize.ShloMosaic Cert.ReferenceIdeal Cert.ReferenceIdeal.Gen Idealize.ShloMosaic.ValueIdx

/-! ## The masked separations -/

/-- The reshaped coordinate array at (batch, atom, axis) is the coordinate. -/
theorem v0_apply (X : (⟨S8x3072, .f32⟩ : BufTy).Contents (Elt Ideal)) (b : Fin 8) (a : Fin 1024) (k : Fin 3) :
    Read.val_main_v0 (F := Ideal) X (ix3 b a k) = xOf X b a k := by
  rw [Read.val_main_v0_apply]
  unfold xOf
  refine congrArg X (funext fun d => ?_)
  have hb := b.isLt; have ha := a.isLt; have hk := k.isLt
  match d with
  | ⟨0, _⟩ => exact Fin.ext (by show ((b.val * 1024 + a.val) * 3 + k.val) / 3072 = b.val; omega)
  | ⟨1, _⟩ => exact Fin.ext (by show ((b.val * 1024 + a.val) * 3 + k.val) % 3072 = 3 * a.val + k.val; omega)

/-- The validity bit of atom `a` in batch `b`. -/
theorem v6_apply (N : (⟨S8, .i32⟩ : BufTy).Contents (Elt Ideal)) (b : Fin 8) (a : Fin 1024) :
    Read.val_main_v6 (F := Ideal) N (ix2 b a) = IntOp.cmpi .slt (BitVec.ofNat 32 a.val) (nOf N b) := by
  rw [Read.val_main_v6_apply, Read.val_main_v4_apply, Read.val_main_v2_apply, Read.val_main_v1_apply,
    Read.val_main_v5_apply, Read.val_main_v3_apply]
  unfold nOf
  refine congrArg (fun t => IntOp.cmpi .slt (BitVec.ofNat 32 a.val) (N t)) (funext fun d => ?_)
  match d with
  | ⟨0, _⟩ => rfl

/-- The float of the AND of two one-bit words is one when both bits are set and zero otherwise. -/
theorem uitofp_and (p q : Bool) :
    FloatOps.uitofp (F := Ideal) .f32 (IntOp.andi (BitVec.ofBool p) (BitVec.ofBool q)) = if p = true ∧ q = true then (1 : EReal) else 0 := by
  cases p <;> cases q <;>
    (show (((IntOp.andi (BitVec.ofBool _) (BitVec.ofBool _)).toNat : ℝ) : EReal) = _) <;> simp [IntOp.andi]

/-- The float of the AND of two validity bits is the pair mask. -/
theorem mask_word (n : BitVec 32) (i j : ℕ) :
    FloatOps.uitofp (F := Ideal) .f32 (IntOp.andi (IntOp.cmpi .slt (BitVec.ofNat 32 i) n) (IntOp.cmpi .slt (BitVec.ofNat 32 j) n))
      = mask n i j := by
  have hc : ∀ a : ℕ, IntOp.cmpi .slt (BitVec.ofNat 32 a) n = BitVec.ofBool ((BitVec.ofNat 32 a).slt n) := fun _ => rfl
  rw [hc, hc, uitofp_and]
  exact if_congr Iff.rfl rfl rfl

/-- The pair mask of atoms `i`, `j` in batch `b`: the float of the AND of their validity bits. -/
theorem v12_apply (N : (⟨S8, .i32⟩ : BufTy).Contents (Elt Ideal)) (b : Fin 8) (i j : Fin 1024) :
    Read.val_main_v12 (F := Ideal) N (ix3 b i j) = mask (nOf N b) i.val j.val := by
  rw [Read.val_main_v12_apply, Read.val_main_v11_apply, Read.val_main_v9_apply, Read.val_main_v7_apply,
    Read.val_main_v10_apply, Read.val_main_v8_apply]
  rw [show Read.idx_main_v7 (Read.idx_main_v9 (ix3 b i j)) = ix2 b i from
      funext fun d => by match d with | ⟨0, _⟩ => rfl | ⟨1, _⟩ => rfl,
    show Read.idx_main_v8 (Read.idx_main_v10 (ix3 b i j)) = ix2 b j from
      funext fun d => by match d with | ⟨0, _⟩ => rfl | ⟨1, _⟩ => rfl,
    v6_apply, v6_apply, mask_word]

/-- The masked separation of atoms `i`, `j` along axis `k`. -/
theorem v20_apply (X : (⟨S8x3072, .f32⟩ : BufTy).Contents (Elt Ideal)) (N : (⟨S8, .i32⟩ : BufTy).Contents (Elt Ideal))
    (b : Fin 8) (i j : Fin 1024) (k : Fin 3) :
    Read.val_main_v20 (F := Ideal) X N (ix4 b i j k) = sep (xOf X) (nOf N) b i j k := by
  rw [Read.val_main_v20_apply, Read.val_main_v17_apply, Read.val_main_v15_apply, Read.val_main_v13_apply,
    Read.val_main_v16_apply, Read.val_main_v14_apply, Read.val_main_v19_apply, Read.val_main_v18_apply]
  rw [show Read.idx_main_v13 (Read.idx_main_v15 (ix4 b i j k)) = ix3 b i k from
      funext fun d => by match d with | ⟨0, _⟩ => rfl | ⟨1, _⟩ => rfl | ⟨2, _⟩ => rfl,
    show Read.idx_main_v14 (Read.idx_main_v16 (ix4 b i j k)) = ix3 b j k from
      funext fun d => by match d with | ⟨0, _⟩ => rfl | ⟨1, _⟩ => rfl | ⟨2, _⟩ => rfl,
    show Read.idx_main_v18 (Read.idx_main_v19 (ix4 b i j k)) = ix3 b i j from
      funext fun d => by match d with | ⟨0, _⟩ => rfl | ⟨1, _⟩ => rfl | ⟨2, _⟩ => rfl,
    v0_apply, v0_apply, v12_apply]
  rfl

/-! ## Where the scatter's updates land -/

/-- The scatter's dimension numbers: update axes 0, 2, 3 are window axes, operand axes 1, 2 are inserted and are the ones the index vector (axis 1 of the index array) addresses. -/
abbrev D : ScatterDims S8x1024x1024x3x3 S1024x2 S8x1024x3x3 := scatter_S8x1024x1024x3x3_S1024x2_S8x1024x3x3_023_12_12_1

/-- A coordinate read at equal axes. -/
theorem coord_congr {s : Shape} (j : s.Idx) (a a' : Fin s.rank) (h : a = a') : (j a).val = (j a').val := by subst h; rfl

/-- Operand axes 0, 3, 4 are not addressed by the index vector: the window starts at 0 there. -/
theorem start_0 {w : Nat} (j : S8x1024x3x3.Idx) (idx : IVec S1024x2 w) : D.start j idx 0 = 0 := by
  unfold ScatterDims.start
  exact dif_neg (by decide)
theorem start_3 {w : Nat} (j : S8x1024x3x3.Idx) (idx : IVec S1024x2 w) : D.start j idx 3 = 0 := by
  unfold ScatterDims.start
  exact dif_neg (by decide)
theorem start_4 {w : Nat} (j : S8x1024x3x3.Idx) (idx : IVec S1024x2 w) : D.start j idx 4 = 0 := by
  unfold ScatterDims.start
  exact dif_neg (by decide)

/-- The window coordinate: update axes 0, 2, 3 go to operand axes 0, 3, 4; the inserted axes 1, 2 have none. -/
theorem window_0 (j : S8x1024x3x3.Idx) : D.window j 0 = (j 0).val := by
  unfold ScatterDims.window
  rw [dif_pos (by decide)]
  exact coord_congr j _ _ (by decide)
theorem window_1 (j : S8x1024x3x3.Idx) : D.window j 1 = 0 := by
  unfold ScatterDims.window
  exact dif_neg (by decide)
theorem window_2 (j : S8x1024x3x3.Idx) : D.window j 2 = 0 := by
  unfold ScatterDims.window
  exact dif_neg (by decide)
theorem window_3 (j : S8x1024x3x3.Idx) : D.window j 3 = (j 2).val := by
  unfold ScatterDims.window
  rw [dif_pos (by decide)]
  exact coord_congr j _ _ (by decide)
theorem window_4 (j : S8x1024x3x3.Idx) : D.window j 4 = (j 3).val := by
  unfold ScatterDims.window
  rw [dif_pos (by decide)]
  exact coord_congr j _ _ (by decide)

/-- Update index `j` reads component `c` of its start index at row `j 1`, column `c` of the index array. -/
theorem siIdx_eq (j : S8x1024x3x3.Idx) (c : Fin D.scatterDimsToOperandDims.length) :
    D.siIdx j c = ix2 (j 1) ⟨c.val, c.isLt⟩ := by
  funext b
  match b with
  | ⟨0, _⟩ =>
    apply Fin.ext
    unfold ScatterDims.siIdx
    rw [dif_neg (by decide +revert)]
    unfold ScatterDims.siCoord
    exact coord_congr j _ _ (by decide +revert)
  | ⟨1, _⟩ =>
    apply Fin.ext
    unfold ScatterDims.siIdx
    rw [dif_pos (by decide +revert)]

/-- On operand axes 1 and 2 the window starts at the two entries of row `j 1` of the index array, read signed. -/
theorem start_1 {w : Nat} (j : S8x1024x3x3.Idx) (idx : IVec S1024x2 w) : D.start j idx 1 = (idx (ix2 (j 1) 0)).toInt := by
  unfold ScatterDims.start
  rw [dif_pos (by decide), siIdx_eq]
  rfl
theorem start_2 {w : Nat} (j : S8x1024x3x3.Idx) (idx : IVec S1024x2 w) : D.start j idx 2 = (idx (ix2 (j 1) 1)).toInt := by
  unfold ScatterDims.start
  rw [dif_pos (by decide), siIdx_eq]
  rfl

/-- A 32-bit word below 1024 is not negative, and its signed value is itself. -/
theorem slt_zero_lane : ∀ l : Fin 1024, (BitVec.ofNat 32 l.val).slt 0#32 = false := by decide +kernel
theorem toInt_lane : ∀ l : Fin 1024, (BitVec.ofNat 32 l.val).toInt = (l.val : Int) := by decide +kernel

/-- With `n` in both columns of row `n` of the index array, update index `(b, n, c, c')` lands at `(b, n, n, c, c')`, inside the operand. -/
theorem resultIdx_eq (idx : IVec S1024x2 32) (hidx : ∀ (n : Fin 1024) (c : Fin 2), idx (ix2 n c) = BitVec.ofNat 32 n.val)
    (b : Fin 8) (n : Fin 1024) (c c' : Fin 3) :
    D.resultIdx? (ix4 b n c c') idx = some (ix5 b n n c c') := by
  have h1 : D.start (ix4 b n c c') idx 1 = (n.val : Int) :=
    (start_1 _ idx).trans (by show (idx (ix2 n 0)).toInt = _; rw [hidx, toInt_lane])
  have h2 : D.start (ix4 b n c c') idx 2 = (n.val : Int) :=
    (start_2 _ idx).trans (by show (idx (ix2 n 1)).toInt = _; rw [hidx, toInt_lane])
  have hb := b.isLt; have hn := n.isLt; have hc := c.isLt; have hc' := c'.isLt
  have e0 : D.start (ix4 b n c c') idx 0 + (D.window (ix4 b n c c') 0 : Int) = (b.val : Int) := by
    rw [start_0, window_0]; show (0 : Int) + (b.val : Int) = _; omega
  have e1 : D.start (ix4 b n c c') idx 1 + (D.window (ix4 b n c c') 1 : Int) = (n.val : Int) := by
    rw [h1, window_1]; omega
  have e2 : D.start (ix4 b n c c') idx 2 + (D.window (ix4 b n c c') 2 : Int) = (n.val : Int) := by
    rw [h2, window_2]; omega
  have e3 : D.start (ix4 b n c c') idx 3 + (D.window (ix4 b n c c') 3 : Int) = (c.val : Int) := by
    rw [start_3, window_3]; show (0 : Int) + (c.val : Int) = _; omega
  have e4 : D.start (ix4 b n c c') idx 4 + (D.window (ix4 b n c c') 4 : Int) = (c'.val : Int) := by
    rw [start_4, window_4]; show (0 : Int) + (c'.val : Int) = _; omega
  have H : ∀ a, 0 ≤ D.start (ix4 b n c c') idx a + (D.window (ix4 b n c c') a : Int) ∧
      D.start (ix4 b n c c') idx a + (D.window (ix4 b n c c') a : Int) < S8x1024x1024x3x3.size a := by
    intro a
    match a with
    | ⟨0, _⟩ => show 0 ≤ D.start (ix4 b n c c') idx 0 + (D.window (ix4 b n c c') 0 : Int) ∧ D.start (ix4 b n c c') idx 0 + (D.window (ix4 b n c c') 0 : Int) < (8 : Nat); rw [e0]; omega
    | ⟨1, _⟩ => show 0 ≤ D.start (ix4 b n c c') idx 1 + (D.window (ix4 b n c c') 1 : Int) ∧ D.start (ix4 b n c c') idx 1 + (D.window (ix4 b n c c') 1 : Int) < (1024 : Nat); rw [e1]; omega
    | ⟨2, _⟩ => show 0 ≤ D.start (ix4 b n c c') idx 2 + (D.window (ix4 b n c c') 2 : Int) ∧ D.start (ix4 b n c c') idx 2 + (D.window (ix4 b n c c') 2 : Int) < (1024 : Nat); rw [e2]; omega
    | ⟨3, _⟩ => show 0 ≤ D.start (ix4 b n c c') idx 3 + (D.window (ix4 b n c c') 3 : Int) ∧ D.start (ix4 b n c c') idx 3 + (D.window (ix4 b n c c') 3 : Int) < (3 : Nat); rw [e3]; omega
    | ⟨4, _⟩ => show 0 ≤ D.start (ix4 b n c c') idx 4 + (D.window (ix4 b n c c') 4 : Int) ∧ D.start (ix4 b n c c') idx 4 + (D.window (ix4 b n c c') 4 : Int) < (3 : Nat); rw [e4]; omega
  unfold ScatterDims.resultIdx?
  rw [dif_pos H]
  refine congrArg some (funext fun a => Fin.ext ?_)
  match a with
  | ⟨0, _⟩ => show (D.start (ix4 b n c c') idx 0 + (D.window (ix4 b n c c') 0 : Int)).toNat = b.val; rw [e0]; omega
  | ⟨1, _⟩ => show (D.start (ix4 b n c c') idx 1 + (D.window (ix4 b n c c') 1 : Int)).toNat = n.val; rw [e1]; omega
  | ⟨2, _⟩ => show (D.start (ix4 b n c c') idx 2 + (D.window (ix4 b n c c') 2 : Int)).toNat = n.val; rw [e2]; omega
  | ⟨3, _⟩ => show (D.start (ix4 b n c c') idx 3 + (D.window (ix4 b n c c') 3 : Int)).toNat = c.val; rw [e3]; omega
  | ⟨4, _⟩ => show (D.start (ix4 b n c c') idx 4 + (D.window (ix4 b n c c') 4 : Int)).toNat = c'.val; rw [e4]; omega

/-! ## The squared distance, the pair blocks and the row sums -/

/-- The squared masked distance plus ε (the sum's initial value is the zero word). -/
theorem v24_apply (X : (⟨S8x3072, .f32⟩ : BufTy).Contents (Elt Ideal)) (N : (⟨S8, .i32⟩ : BufTy).Contents (Elt Ideal))
    (b : Fin 8) (i j : Fin 1024) :
    Read.val_main_v24 (F := Ideal) X N (ix3 b i j) = dist2 (xOf X) (nOf N) b i j := by
  have hk : ∀ k : Fin 3, Read.val_main_v21 (F := Ideal) X N (Read.idx_main_v22 (ix3 b i j) k)
      = sep (xOf X) (nOf N) b i j k * sep (xOf X) (nOf N) b i j k := by
    intro k
    rw [Read.val_main_v21_apply, show Read.idx_main_v22 (ix3 b i j) k = ix4 b i j k from
      funext fun d => by match d with | ⟨0, _⟩ => rfl | ⟨1, _⟩ => rfl | ⟨2, _⟩ => rfl | ⟨3, _⟩ => rfl, v20_apply]
    rfl
  rw [Read.val_main_v24_apply, Read.val_main_v22_apply, Read.val_main_cst_apply, Read.val_main_v23_apply,
    Read.val_main_cst_0_apply]
  simp only [hk]
  rw [Ideal.ofBits_def, Ideal.ofBits_zero_f32, zero_add]
  rfl

/-- The pair's 3×3 block. -/
theorem v33_apply (X : (⟨S8x3072, .f32⟩ : BufTy).Contents (Elt Ideal)) (N : (⟨S8, .i32⟩ : BufTy).Contents (Elt Ideal))
    (b : Fin 8) (i j : Fin 1024) (c c' : Fin 3) :
    Read.val_main_v33 (F := Ideal) X N (ix5 b i j c c') = hs (xOf X) (nOf N) b i j c c' := by
  rw [Read.val_main_v33_apply, Read.val_main_v30_apply, Read.val_main_v29_apply, Read.val_main_v27_apply,
    Read.val_main_v25_apply, Read.val_main_v28_apply, Read.val_main_v26_apply, Read.val_main_v32_apply,
    Read.val_main_v31_apply]
  rw [show Read.idx_main_v25 (Read.idx_main_v27 (ix5 b i j c c')) = ix4 b i j c from
      funext fun d => by match d with | ⟨0, _⟩ => rfl | ⟨1, _⟩ => rfl | ⟨2, _⟩ => rfl | ⟨3, _⟩ => rfl,
    show Read.idx_main_v26 (Read.idx_main_v28 (ix5 b i j c c')) = ix4 b i j c' from
      funext fun d => by match d with | ⟨0, _⟩ => rfl | ⟨1, _⟩ => rfl | ⟨2, _⟩ => rfl | ⟨3, _⟩ => rfl,
    show Read.idx_main_v31 (Read.idx_main_v32 (ix5 b i j c c')) = ix3 b i j from
      funext fun d => by match d with | ⟨0, _⟩ => rfl | ⟨1, _⟩ => rfl | ⟨2, _⟩ => rfl,
    v20_apply, v20_apply, v24_apply]
  rfl

/-- Minus the row sum of the blocks over all partners (the sum's initial value is the zero word). -/
theorem v35_apply (X : (⟨S8x3072, .f32⟩ : BufTy).Contents (Elt Ideal)) (N : (⟨S8, .i32⟩ : BufTy).Contents (Elt Ideal))
    (b : Fin 8) (i : Fin 1024) (c c' : Fin 3) :
    Read.val_main_v35 (F := Ideal) X N (ix4 b i c c') = -(rowsum (xOf X) (nOf N) b i c c') := by
  have hk : ∀ k : Fin 1024, Read.val_main_v33 (F := Ideal) X N (Read.idx_main_v34 (ix4 b i c c') k)
      = hs (xOf X) (nOf N) b i k c c' := by
    intro k
    rw [show Read.idx_main_v34 (ix4 b i c c') k = ix5 b i k c c' from
      funext fun d => by match d with | ⟨0, _⟩ => rfl | ⟨1, _⟩ => rfl | ⟨2, _⟩ => rfl | ⟨3, _⟩ => rfl | ⟨4, _⟩ => rfl,
      v33_apply]
  rw [Read.val_main_v35_apply, Read.val_main_v34_apply, Read.val_main_cst_1_apply]
  simp only [hk]
  rw [Ideal.ofBits_def, Ideal.ofBits_zero_f32, zero_add]
  rfl

/-! ## The scatter's index array: both columns hold the atom's number -/

/-- The wrap-around `select (n < 0) (n + 1024) n` never fires below 1024: both index columns are the atom's number. -/
theorem v41_apply (n : Fin 1024) : Read.val_main_v41 (F := Ideal) (ix1 n) = BitVec.ofNat 32 n.val := by
  rw [Read.val_main_v41_apply, Read.val_main_v38_apply, Read.val_main_v36_apply, Read.val_main_v37_apply,
    Read.val_main_c_apply]
  show Scalar.select (IntOp.cmpi .slt (BitVec.ofNat 32 n.val) 0#32) _ (BitVec.ofNat 32 n.val) = _
  rw [show IntOp.cmpi .slt (BitVec.ofNat 32 n.val) 0#32 = BitVec.ofBool ((BitVec.ofNat 32 n.val).slt 0#32) from rfl,
    slt_zero_lane n]
  rfl

theorem v46_apply (n : Fin 1024) : Read.val_main_v46 (F := Ideal) (ix1 n) = BitVec.ofNat 32 n.val := by
  rw [Read.val_main_v46_apply, Read.val_main_v43_apply, Read.val_main_v36_apply, Read.val_main_v42_apply,
    Read.val_main_c_3_apply]
  show Scalar.select (IntOp.cmpi .slt (BitVec.ofNat 32 n.val) 0#32) _ (BitVec.ofNat 32 n.val) = _
  rw [show IntOp.cmpi .slt (BitVec.ofNat 32 n.val) 0#32 = BitVec.ofBool ((BitVec.ofNat 32 n.val).slt 0#32) from rfl,
    slt_zero_lane n]
  rfl

/-- The index array, the join of the two columns, holds `n` at `(n, 0)` and at `(n, 1)`. -/
theorem v49_apply0 (n : Fin 1024) : Read.val_main_v49 (F := Ideal) (ix2 n (0 : Fin 2)) = BitVec.ofNat 32 n.val := by
  unfold Read.val_main_v49
  refine (concatenate_pair_apply_left (s₁ := S1024x1) (s₂ := S1024x1) (1 : Fin S1024x2.rank) _ _ _ (ix2 n (0 : Fin 2)) rfl (ix2 n (0 : Fin 1))
    (fun d => ?_)).trans ?_
  · match d with
    | ⟨0, _⟩ => rfl
    | ⟨1, _⟩ => rfl
  · rw [Read.val_main_v47_apply, show Read.idx_main_v47 (ix2 n (0 : Fin 1)) = ix1 n from
      funext fun d => by match d with | ⟨0, _⟩ => rfl, v41_apply]

theorem v49_apply1 (n : Fin 1024) : Read.val_main_v49 (F := Ideal) (ix2 n (1 : Fin 2)) = BitVec.ofNat 32 n.val := by
  unfold Read.val_main_v49
  refine (concatenate_pair_apply_right (s₁ := S1024x1) (s₂ := S1024x1) (1 : Fin S1024x2.rank) _ _ _ (ix2 n (1 : Fin 2)) rfl rfl (ix2 n (0 : Fin 1))
    (fun d hd => ?_) rfl).trans ?_
  · match d with
    | ⟨0, _⟩ => rfl
    | ⟨1, _⟩ => exact absurd rfl hd
  · rw [Read.val_main_v48_apply, show Read.idx_main_v48 (ix2 n (0 : Fin 1)) = ix1 n from
      funext fun d => by match d with | ⟨0, _⟩ => rfl, v46_apply]

theorem v49_apply (n : Fin 1024) (c : Fin 2) : Read.val_main_v49 (F := Ideal) (ix2 n c) = BitVec.ofNat 32 n.val := by
  match c with
  | ⟨0, _⟩ => exact v49_apply0 n
  | ⟨1, _⟩ => exact v49_apply1 n

/-! ## The scatter at an index, and the result -/

/-- The scatter at `(b, i, j, c, c')`: the negated row sum on the diagonal `i = j` (only update index `(b, i, c, c')` lands there), the pair's block off it (no update lands there). -/
theorem v50_apply (X : (⟨S8x3072, .f32⟩ : BufTy).Contents (Elt Ideal)) (N : (⟨S8, .i32⟩ : BufTy).Contents (Elt Ideal))
    (b : Fin 8) (i j : Fin 1024) (c c' : Fin 3) :
    Read.val_main_v50 (F := Ideal) X N (ix5 b i j c c') = Href (xOf X) (nOf N) b i j c c' := by
  have h33 := v33_apply X N
  have h35 := v35_apply X N
  have h49 := v49_apply
  unfold Read.val_main_v50 Href
  generalize Read.val_main_v33 (F := Ideal) X N = x at h33 ⊢
  generalize Read.val_main_v35 (F := Ideal) X N = u at h35 ⊢
  generalize Read.val_main_v49 (F := Ideal) = idx at h49 ⊢
  by_cases hij : i = j
  · subst hij
    rw [if_pos rfl, ← h35]
    refine Cert.Hand.LibScatterSet.scatter_set_apply_of_hit D x idx u (ix5 b i i c c') (ix4 b i c c')
      (resultIdx_eq idx h49 b i c c') (fun j' hj' => ?_)
    obtain ⟨b', n', d, d', rfl⟩ : ∃ (b' : Fin 8) (n' : Fin 1024) (d d' : Fin 3), j' = ix4 b' n' d d' :=
      ⟨j' 0, j' 1, j' 2, j' 3, eq_ix4 j'⟩
    rw [resultIdx_eq idx h49] at hj'
    have e := Option.some.inj hj'
    have e0 : b' = b := congrFun e 0
    have e1 : n' = i := congrFun e 1
    have e3 : d = c := congrFun e 3
    have e4 : d' = c' := congrFun e 4
    rw [e0, e1, e3, e4]
  · rw [if_neg hij, ← h33]
    refine Cert.Hand.LibScatterSet.scatter_set_apply_of_miss D x idx u (ix5 b i j c c') (fun j' hj' => ?_)
    obtain ⟨b', n', d, d', rfl⟩ : ∃ (b' : Fin 8) (n' : Fin 1024) (d d' : Fin 3), j' = ix4 b' n' d d' :=
      ⟨j' 0, j' 1, j' 2, j' 3, eq_ix4 j'⟩
    rw [resultIdx_eq idx h49] at hj'
    have e := Option.some.inj hj'
    have e1 : n' = i := congrFun e 1
    have e2 : n' = j := congrFun e 2
    exact hij (e1.symm.trans e2)

/-- The reference's result array, as a function of the two argument arrays, is the specification's plain form. -/
theorem val_eq (X : (⟨S8x3072, .f32⟩ : BufTy).Contents (Elt Ideal)) (N : (⟨S8, .i32⟩ : BufTy).Contents (Elt Ideal)) :
    Cert.ReferenceIdeal.Read.val_main_v52 (F := Ideal) X N = Cert.Stress.resultRef X N := by
  funext idx
  obtain ⟨b, p, q, rfl⟩ : ∃ (b : Fin 8) (p q : Fin 3072), idx = ix3 b p q := ⟨idx 0, idx 1, idx 2, eq_ix3 idx⟩
  have hb := b.isLt; have hp := p.isLt; have hq := q.isLt
  rw [Read.val_main_v52_apply, Read.val_main_v51_apply]
  rw [show Read.idx_main_v51 (Read.idx_main_v52 (ix3 b p q))
      = ix5 b (⟨p.val / 3, by omega⟩ : Fin 1024) (⟨q.val / 3, by omega⟩ : Fin 1024)
          (⟨p.val % 3, Nat.mod_lt _ (by decide)⟩ : Fin 3) (⟨q.val % 3, Nat.mod_lt _ (by decide)⟩ : Fin 3) from
    funext fun d => by
      match d with
      | ⟨0, _⟩ => exact Fin.ext (by show ((b.val * 3072 + p.val) * 3072 + q.val) / 9437184 = b.val; omega)
      | ⟨1, _⟩ => exact Fin.ext (by show ((b.val * 3072 + p.val) * 3072 + q.val) / 9216 % 1024 = p.val / 3; omega)
      | ⟨2, _⟩ => exact Fin.ext (by show ((b.val * 3072 + p.val) * 3072 + q.val) / 3 % 1024 = q.val / 3; omega)
      | ⟨3, _⟩ => exact Fin.ext (by show ((b.val * 3072 + p.val) * 3072 + q.val) / 3072 % 3 = p.val % 3; omega)
      | ⟨4, _⟩ => exact Fin.ext (by show ((b.val * 3072 + p.val) * 3072 + q.val) % 3 = q.val % 3; omega),
    v50_apply]
  rfl

end Cert.Stress.Ref

end
-- ==== Proof.Algebra.lean ====
/-
  The tiled form of the result is the plain form when every coordinate is a real number.

  Three facts carry it. The constant ε is a nonzero real, so a quotient with numerator zero and denominator ε is zero:
  the block of a pair `(i, i)` vanishes, because each separation `x - x` of a real from itself is zero. The running
  row sum after eight tiles is the whole row sum: the eight tiles of 128 columns are the 1024 columns, column
  `128 t + p` being the image of `(t, p)` under the bijection `Fin 8 × Fin 128 ≃ Fin 1024`, and a sum over a
  commutative monoid may be regrouped along a bijection. Last, two atoms in one tile at one place in it are the same
  atom (`i = 128 (i / 128) + i % 128`), so off the diagonal the added term is a product with zero.
-/
import proofs.«406191_j17231408791693_3_alg».proof.Proof.Spec
import Mathlib.Logic.Equiv.Fin.Basic

noncomputable section

namespace Cert.Stress

open Idealize.ShloMosaic

/-- ε read exactly: the significand `2²³ + 0x27C5AC = 10995116` at the exponent `110 - 127 - 23 = -40`. -/
theorem eps_eq : eps = ((10995116 * (2 ^ 40)⁻¹ : ℝ) : EReal) := by
  simp [eps, Ideal.ofBits, Ideal.ieee, -EReal.coe_mul]

/-- ε is not zero. -/
theorem eps_ne_zero : eps ≠ 0 := by
  rw [eps_eq]
  exact EReal.coe_ne_zero.mpr (by positivity)

section

variable (x : Fin 8 → Fin 1024 → Fin 3 → EReal) (n : Fin 8 → BitVec 32)

/-- A real coordinate minus itself is zero, so an atom's separation from itself vanishes. -/
theorem sep_self (hfin : ∀ b a k, ∃ r : ℝ, x b a k = (r : EReal)) (b : Fin 8) (i : Fin 1024) (k : Fin 3) :
    sep x n b i i k = 0 := by
  obtain ⟨r, hr⟩ := hfin b i k
  unfold sep
  rw [hr, ← EReal.coe_sub, sub_self, EReal.coe_zero, zero_mul]

/-- The squared distance of an atom from itself is ε alone. -/
theorem dist2_self (hfin : ∀ b a k, ∃ r : ℝ, x b a k = (r : EReal)) (b : Fin 8) (i : Fin 1024) :
    dist2 x n b i i = eps := by
  unfold dist2
  simp only [sep_self x n hfin, mul_zero, Finset.sum_const_zero, zero_add]

/-- The block of the pair `(i, i)` is zero: zero divided by the nonzero ε. -/
theorem hs_self (hfin : ∀ b a k, ∃ r : ℝ, x b a k = (r : EReal)) (b : Fin 8) (i : Fin 1024) (c c' : Fin 3) :
    hs x n b i i c c' = 0 := by
  unfold hs
  rw [sep_self x n hfin b i c, dist2_self x n hfin, zero_mul, neg_zero, Ideal.div, if_neg eps_ne_zero, zero_mul]

/-- The running row sum after `k` tiles is the sum of the first `k` tile sums. -/
theorem acc_eq_sum_range (b : Fin 8) (i : Fin 1024) (c c' : Fin 3) (k : ℕ) :
    acc x n b i c c' k = ∑ t ∈ Finset.range k, tilesum x n b i c c' t := by
  induction k with
  | zero => rw [acc, Finset.range_zero, Finset.sum_empty]
  | succ k ih => rw [acc, ih, zero_add, Finset.sum_range_succ]

/-- Column `p` of tile `t` is the image of `(t, p)` under the bijection of `Fin 8 × Fin 128` with `Fin 1024`. -/
theorem col_eq (t : Fin 8) (p : Fin 128) : col t.val p t.isLt = (finProdFinEquiv (t, p) : Fin 1024) := by
  apply Fin.ext
  simp only [col, finProdFinEquiv_apply_val]
  omega

/-- After eight tiles the running row sum is the whole row sum. -/
theorem acc_eight (b : Fin 8) (i : Fin 1024) (c c' : Fin 3) : acc x n b i c c' 8 = rowsum x n b i c c' := by
  rw [acc_eq_sum_range, Finset.sum_range, rowsum]
  have htile : ∀ t : Fin 8, tilesum x n b i c c' t.val
      = ∑ p : Fin 128, hs x n b i (finProdFinEquiv (t, p) : Fin 1024) c c' := fun t => by
    unfold tilesum
    rw [dif_pos t.isLt]
    exact Finset.sum_congr rfl fun p _ => by rw [col_eq]
  simp only [htile]
  exact (Fintype.sum_prod_type fun tp : Fin 8 × Fin 128 => hs x n b i (finProdFinEquiv tp : Fin 1024) c c').symm.trans
    (Fintype.sum_equiv (finProdFinEquiv : Fin 8 × Fin 128 ≃ Fin 1024) _ _ fun _ => rfl)

end

/-- Entry by entry: with real coordinates the diagonal pair's own block is zero, the running row sum after eight tiles
    is the whole row sum, and adding zero changes nothing. -/
theorem Hker_eq_Href (x : Fin 8 → Fin 1024 → Fin 3 → EReal) (n : Fin 8 → BitVec 32)
    (hfin : ∀ b a k, ∃ r : ℝ, x b a k = (r : EReal)) (b : Fin 8) (i j : Fin 1024) (c c' : Fin 3) :
    Hker x n b i j c c' = Href x n b i j c c' := by
  unfold Hker Href
  by_cases hij : i = j
  · subst hij
    rw [if_pos rfl, if_pos rfl, if_pos rfl, hs_self x n hfin, acc_eight, mul_one, zero_add, zero_sub]
  · rw [if_neg hij]
    by_cases hd : i.val / 128 = j.val / 128
    · have hm : ¬ (i.val % 128 = j.val % 128) := fun hm => hij (Fin.ext (by omega))
      rw [if_pos hd, if_neg hm, mul_zero, add_zero]
    · rw [if_neg hd]

/-- The same for the result arrays. -/
theorem resultKer_eq_resultRef (X : SX.Idx → EReal) (N : SN.Idx → BitVec 32) (hfin : ∀ i, ∃ r : ℝ, X i = (r : EReal)) :
    resultKer X N = resultRef X N := by
  funext idx
  unfold resultKer resultRef unflat
  exact Hker_eq_Href (xOf X) (nOf N) (fun b a k => by unfold xOf; exact hfin _) _ _ _ _ _

end Cert.Stress

end
-- ==== Proof.PreFinite.lean ====
/-
  The precondition says every coordinate is a real number.
-/
import proofs.«406191_j17231408791693_3_alg».proof.Pre_finite_inputs
import proofs.«406191_j17231408791693_3_alg».proof.Proof.Spec
import Idealize.ShloMosaic.Lib.ReduceAll

noncomputable section

namespace Cert.Stress

open Idealize.ShloMosaic

/-- If the finiteness predicate of the coordinate array is all ones, every entry of the array is a real number. -/
theorem finite_of_pre [Cert.Pre_finite_inputs.Facts] (X : FVec Ideal Cert.Pre_finite_inputs.S8x3072 .f32)
    (N : IVec Cert.Pre_finite_inputs.S8 32)
    (h : Cert.Pre_finite_inputs.fn (F := Ideal) X N = fun _ => 1#1) (i : Cert.Pre_finite_inputs.S8x3072.Idx) :
    ∃ r : ℝ, X i = (r : EReal) := by
  -- the conjunction over all entries is one, so the comparison at entry i is one
  have h0 := congrFun h ValueIdx.ix0
  dsimp only [Cert.Pre_finite_inputs.fn] at h0
  -- the scalar shape has exactly one index
  haveI : Subsingleton Cert.Pre_finite_inputs.S_.Idx := ⟨fun _ _ => funext fun d => d.elim0⟩
  have hi := Host.reduce_andi_all _ _ _ _ _ h0 i
  -- the comparison at entry i is |X i| < +inf on the extended reals
  change Ideal.cmp .olt (max (X i) (-(X i))) (Ideal.ofBits .f32 0x7F800000#32) = 1#1 at hi
  have htop : Ideal.ofBits .f32 0x7F800000#32 = ⊤ := by simp [Ideal.ofBits, Ideal.ieee]
  rw [htop] at hi
  simp only [Ideal.cmp] at hi
  have hlt : max (X i) (-(X i)) < ⊤ := by
    by_contra hn
    rw [decide_eq_false hn] at hi
    exact absurd hi (by decide)
  -- an extended real whose absolute value is below +inf is neither infinity
  generalize X i = x at hlt ⊢
  induction (x : EReal) using EReal.rec with
  | bot => simp at hlt
  | top => simp at hlt
  | coe r => exact ⟨r, rfl⟩

end Cert.Stress

end
-- ==== Proof.lean ====
/-
  The certificate of the pair-potential Hessian kernel against its reference.

  The kernel tiles the work: a grid point takes 128 atoms of one batch, walks the 1024 partner atoms in eight tiles
  of 128, writes for each tile the nine 128×128 slabs `-(sep_c · sep_c') / dist2` of the pair blocks into nine
  planes of its output block, keeps nine running row sums, and at the end adds the negated row sums on the diagonal
  of the tile that holds its own atoms; a transpose and a reshape then interleave the planes into the 3072×3072
  matrix per batch. The reference forms all pair blocks at once, sums each row over all partners, overwrites the
  diagonal blocks with the negated sums, and lays the result out the same way.

  Over the extended reals the two agree when the coordinates are real numbers: the pair block of an atom with
  itself is then zero, so adding the negated row sum to it is overwriting it; a row sum taken tile by tile is the
  row sum; and off the diagonal the negated row sum meets a zero indicator and nothing is added. The precondition
  says the coordinates are finite, which is what makes them real.

  The three programs run without a fault and leave their arguments unchanged (the frames); the idealization
  rewrote no operation (nothing to preserve); and the two idealized programs end at one result array.
-/
import proofs.«406191_j17231408791693_3_alg».proof.Defs
import proofs.«406191_j17231408791693_3_alg».proof.Proof.Gen.Kernel
import proofs.«406191_j17231408791693_3_alg».proof.Proof.Gen.KernelIdeal
import proofs.«406191_j17231408791693_3_alg».proof.Proof.Gen.ReferenceIdeal
import proofs.«406191_j17231408791693_3_alg».proof.Proof.Gen.Pre_finite_inputs
import proofs.«406191_j17231408791693_3_alg».proof.Proof.Gen.ReferenceIdeal.Run
import proofs.«406191_j17231408791693_3_alg».proof.Proof.Gen.ReferenceIdeal.Read
import proofs.«406191_j17231408791693_3_alg».proof.Proof.KB.Final
import proofs.«406191_j17231408791693_3_alg».proof.Proof.KI.TailValue
import proofs.«406191_j17231408791693_3_alg».proof.Proof.RefValue
import proofs.«406191_j17231408791693_3_alg».proof.Proof.Algebra
import proofs.«406191_j17231408791693_3_alg».proof.Proof.PreFinite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- So does the idealized reference: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end at the plain form of the specification read off the (agreeing) argument arrays: the
    kernel at the tiled form, which is the plain form when the coordinates are real; the reference at the plain form. -/
theorem algebraic : Cert.algebraic_KernelIdeal_ReferenceIdeal := by
  intro m ρ m' ρ' hpre hagree
  refine ⟨fun c => Cert.Stress.resultRef (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Hand.run_value m ρ)
    exact Cert.Stress.resultKer_eq_resultRef _ _ (fun i => Cert.Stress.finite_of_pre _ _ (hpre c) i)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v52_eq, Cert.Stress.Ref.val_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
